-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024 : Shape := ⟨2, ![8, 1024]⟩
abbrev S256x768 : Shape := ⟨2, ![256, 768]⟩
abbrev S256 : Shape := ⟨1, ![256]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x1024x768 .f32) (main_arg1 : IVec S8x1024 32) (main_arg2 : FVec F S256x768 .f32) (main_arg3 : FVec F S256 .f32) (main_arg4 : FVec F S256 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x1024x768 : Shape := ⟨3, ![8, 1024, 768]⟩
abbrev S8x1024 : Shape := ⟨2, ![8, 1024]⟩
abbrev S256x768 : Shape := ⟨2, ![256, 768]⟩
abbrev S256 : Shape := ⟨1, ![256]⟩
abbrev S8x1024x1 : Shape := ⟨3, ![8, 1024, 1]⟩
abbrev S8x1x1024 : Shape := ⟨3, ![8, 1, 1024]⟩
abbrev S1x256 : Shape := ⟨2, ![1, 256]⟩
abbrev S8x1x128 : Shape := ⟨3, ![8, 1, 128]⟩
abbrev S1x1024x768 : Shape := ⟨3, ![1, 1024, 768]⟩
abbrev S1x512x1 : Shape := ⟨3, ![1, 512, 1]⟩
abbrev S1x1x1024 : Shape := ⟨3, ![1, 1, 1024]⟩
abbrev S1x1x128 : Shape := ⟨3, ![1, 1, 128]⟩
abbrev S1x128 : Shape := ⟨2, ![1, 128]⟩
abbrev S1024x768 : Shape := ⟨2, ![1024, 768]⟩
abbrev S1x1024 : Shape := ⟨2, ![1, 1024]⟩
abbrev S1x768 : Shape := ⟨2, ![1, 768]⟩
abbrev S1x512x768 : Shape := ⟨3, ![1, 512, 768]⟩
abbrev S512x768 : Shape := ⟨2, ![512, 768]⟩
abbrev S512x1 : Shape := ⟨2, ![512, 1]⟩
abbrev S512 : Shape := ⟨1, ![512]⟩
abbrev S512x1024 : Shape := ⟨2, ![512, 1024]⟩
abbrev S512x256 : Shape := ⟨2, ![512, 256]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 23
  | .vmem => 18
  | .smem => 0
  | _ => 0

abbrev bufTy : (tb : Table) → Fin (tcTables nBuf tb) → BufTy
  | .hbm, ⟨0, _⟩ => ⟨S8x1024x768, .f32⟩
  | .hbm, ⟨1, _⟩ => ⟨S8x1024, .i32⟩
  | .hbm, ⟨2, _⟩ => ⟨S256x768, .f32⟩
  | .hbm, ⟨3, _⟩ => ⟨S256, .f32⟩
  | .hbm, ⟨4, _⟩ => ⟨S256, .f32⟩
  | .hbm, ⟨5, _⟩ => ⟨S8x1024x1, .i32⟩
  | .hbm, ⟨6, _⟩ => ⟨S8x1x1024, .i32⟩
  | .hbm, ⟨7, _⟩ => ⟨S1x256, .f32⟩
  | .hbm, ⟨8, _⟩ => ⟨S1x256, .f32⟩
  | .hbm, ⟨9, _⟩ => ⟨S8x1x128, .f32⟩
  | .hbm, ⟨10, _⟩ => ⟨S8x1x128, .f32⟩
  | .hbm, ⟨11, _⟩ => ⟨S8x1x1, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .local _ .vmem, ⟨0, _⟩ => ⟨S1x1024x768, .f32⟩
  | .local _ .vmem, ⟨1, _⟩ => ⟨S1x1024x768, .f32⟩
  | .local _ .vmem, ⟨2, _⟩ => ⟨S1x512x1, .i32⟩
  | .local _ .vmem, ⟨3, _⟩ => ⟨S1x512x1, .i32⟩
  | .local _ .vmem, ⟨4, _⟩ => ⟨S1x1x1024, .i32⟩
  | .local _ .vmem, ⟨5, _⟩ => ⟨S1x1x1024, .i32⟩
  | .local _ .vmem, ⟨6, _⟩ => ⟨S256x768, .f32⟩
  | .local _ .vmem, ⟨7, _⟩ => ⟨S1x256, .f32⟩
  | .local _ .vmem, ⟨8, _⟩ => ⟨S1x256, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x128, .f32⟩
  | .local _ .vmem, ⟨14, _⟩ => ⟨S1x128, .f32⟩
  | .local _ .vmem, ⟨15, _⟩ => ⟨S1024x768, .bf16⟩
  | .local _ .vmem, ⟨16, _⟩ => ⟨S1x1024, .f32⟩
  | .local _ .vmem, ⟨17, _⟩ => ⟨S1x256, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v8 : Index := Scalar.indexCast v4
  let c0_2 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S256_S1x256_1 : S256.BroadcastsInDim S1x256 (![1] : Fin 1 → Fin S1x256.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x768_S256x768_0_0 : ∀ a, (![0, 0] : Fin 2 → Nat) a + S256x768.size a ≤ S256x768.size a
  h_S256x768 : 0 < S256x768.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x512x768 : 0 < S1x512x768.numel
  shapeCasts_S1x512x768_S512x768 : S1x512x768.ShapeCasts S512x768
  h_S512x768 : 0 < S512x768.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S512x768_S512 : S512x768.Reduces [1] S512
  shapeCasts_S512_S512x1 : S512.ShapeCasts S512x1
  broadcasts_S512x1_S512x1024 : S512x1.Broadcasts S512x1024
  broadcasts_S1x1024_S512x1024 : S1x1024.Broadcasts S512x1024
  broadcasts_S512x1_S512x256 : S512x1.Broadcasts S512x256
  broadcasts_S1x256_S512x256 : S1x256.Broadcasts S512x256
  iota_S512x1_d0_w32 : S512x1.Iotas .tc 32 [0]
  iota_S1x1024_d1_w32 : S1x1024.Iotas .tc 32 [1]
  natLt_1_32 : 1 < 32
  reduces_S512x1024_S512 : S512x1024.Reduces [1] S512
  iota_S1x256_d1_w32 : S1x256.Iotas .tc 32 [1]
  reduces_S512x256_S512 : S512x256.Reduces [1] S512
  reduces_S512x1_S1 : S512x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  shapeCasts_S_S1x1 : S_.ShapeCasts S1x1
  dot_S1x768_S1024x768_S1x1024_1_1_0_0_n_n_wf : DotDims.WF S1x768 S1024x768 S1x1024 [1] [1] [0] [0] [] []
  dot_S1x768_S256x768_S1x256_1_1_0_0_n_n_wf : DotDims.WF S1x768 S256x768 S1x256 [1] [1] [0] [0] [] []
  dot_S512x768_S1024x768_S512x1024_1_1_0_0_n_n_wf : DotDims.WF S512x768 S1024x768 S512x1024 [1] [1] [0] [0] [] []
  dot_S512x768_S256x768_S512x256_1_1_0_0_n_n_wf : DotDims.WF S512x768 S256x768 S512x256 [1] [1] [0] [0] [] []
  hrank0 : 0 < grid0.rank
  k0_mult1_dvd : ∀ i : grid0.Coords, 16 ∣ (k0_mult1 i).toNat
  k0_off1_inb : ∀ i : grid0.Coords, ∀ a, (k0_off1 i) a + S1x512x768.size a ≤ S1x1024x768.size a
  k0_off2_inb : ∀ i : grid0.Coords, ∀ a, (k0_off2 i) a + S512x768.size a ≤ S1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x1024x1.size a
  hwx0_1 : ∀ i : grid0.Coords, EltTy.bits .i32 = 32 ∨ (Rect.block (s := S8x1024x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .i32 = 32 ∨ (Rect.block (s := S8x1x1024) S1x1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S8x1x128.size a
  hwx0_7 : ∀ i : grid0.Coords, EltTy.bits .f32 = 32 ∨ (Rect.block (s := S8x1x128) S1x1x128.size (cc0_transform_7 i) (hinb0_7 i)).WholeWords (EltTy.packing .f32)

variable [Facts₀]

def dot_S1x768_S1024x768_S1x1024_1_1_0_0_n_n : DotDims S1x768 S1024x768 S1x1024 where
  lhsContracting := [1]
  rhsContracting := [1]
  lhsNonContracting := [0]
  rhsNonContracting := [0]
  lhsBatch := []
  rhsBatch := []
  wf := dot_S1x768_S1024x768_S1x1024_1_1_0_0_n_n_wf
def dot_S1x768_S256x768_S1x256_1_1_0_0_n_n : DotDims S1x768 S256x768 S1x256 where
  lhsContracting := [1]
  rhsContracting := [1]
  lhsNonContracting := [0]
  rhsNonContracting := [0]
  lhsBatch := []
  rhsBatch := []
  wf := dot_S1x768_S256x768_S1x256_1_1_0_0_n_n_wf
def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf
def dot_S512x768_S256x768_S512x256_1_1_0_0_n_n : DotDims S512x768 S256x768 S512x256 where
  lhsContracting := [1]
  rhsContracting := [1]
  lhsNonContracting := [0]
  rhsNonContracting := [0]
  lhsBatch := []
  rhsBatch := []
  wf := dot_S512x768_S256x768_S512x256_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S8x1024 : Shape := ⟨2, ![8, 1024]⟩
abbrev S256x768 : Shape := ⟨2, ![256, 768]⟩
abbrev S256 : Shape := ⟨1, ![256]⟩
abbrev S_ : Shape := ⟨0, ![]⟩
abbrev S8x1024x1024 : Shape := ⟨3, ![8, 1024, 1024]⟩
abbrev S8x1024x1 : Shape := ⟨3, ![8, 1024, 1]⟩
abbrev S8x1x1024 : Shape := ⟨3, ![8, 1, 1024]⟩
abbrev S8x1024x256 : Shape := ⟨3, ![8, 1024, 256]⟩
abbrev S1x1x256 : Shape := ⟨3, ![1, 1, 256]⟩
abbrev S1024x1024 : Shape := ⟨2, ![1024, 1024]⟩
abbrev S1x1024x1024 : Shape := ⟨3, ![1, 1024, 1024]⟩
abbrev S8x1024x1x1 : Shape := ⟨4, ![8, 1024, 1, 1]⟩
abbrev S1 : Shape := ⟨1, ![1]⟩
abbrev S1x1x1x1 : Shape := ⟨4, ![1, 1, 1, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S8x1024x768, .f32⟩
  | 1 => ⟨S8x1024, .i32⟩
  | 2 => ⟨S256x768, .f32⟩
  | 3 => ⟨S256, .f32⟩
  | 4 => ⟨S256, .f32⟩
  | 5 => ⟨S8x1024x768, .f32⟩
  | 6 => ⟨S_, .f32⟩
  | 7 => ⟨S8x1024, .f32⟩
  | 8 => ⟨S8x1024x1024, .f32⟩
  | 9 => ⟨S8x1024x1, .f32⟩
  | 10 => ⟨S8x1x1024, .f32⟩
  | 11 => ⟨S8x1024x1024, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S_, .f32⟩
  | 22 => ⟨S8x1024x1024, .f32⟩
  | 23 => ⟨S8x1024x1024, .i1⟩
  | 24 => ⟨S_, .f32⟩
  | 25 => ⟨S_, .f32⟩
  | 26 => ⟨S8x1024x1024, .f32⟩
  | 27 => ⟨S8x1024x1024, .f32⟩
  | 28 => ⟨S8x1024x1024, .f32⟩
  | 29 => ⟨S_, .f32⟩
  | 30 => ⟨S_, .f32⟩
  | 31 => ⟨S8x1024x1024, .f32⟩
  | 32 => ⟨S8x1024x1024, .f32⟩
  | 33 => ⟨S256x768, .f32⟩
  | 34 => ⟨S_, .f32⟩
  | 35 => ⟨S256, .f32⟩
  | 36 => ⟨S8x1024x256, .f32⟩
  | 37 => ⟨S8x1024x1, .f32⟩
  | 38 => ⟨S1x1x256, .f32⟩
  | 39 => ⟨S8x1024x256, .f32⟩
  | 40 => ⟨S8x1024x256, .f32⟩
  | 41 => ⟨S8x1024x256, .f32⟩
  | 42 => ⟨S_, .f32⟩
  | 43 => ⟨S8x1024x256, .f32⟩
  | 44 => ⟨S8x1024x256, .f32⟩
  | 45 => ⟨S8x1024x256, .f32⟩
  | 46 => ⟨S_, .f32⟩
  | 47 => ⟨S8x1024x256, .f32⟩
  | 48 => ⟨S8x1024x256, .f32⟩
  | 49 => ⟨S_, .f32⟩
  | 50 => ⟨S8x1024x256, .f32⟩
  | 51 => ⟨S8x1024x256, .i1⟩
  | 52 => ⟨S_, .f32⟩
  | 53 => ⟨S_, .f32⟩
  | 54 => ⟨S8x1024x256, .f32⟩
  | 55 => ⟨S8x1024x256, .f32⟩
  | 56 => ⟨S8x1024x256, .f32⟩
  | 57 => ⟨S_, .f32⟩
  | 58 => ⟨S_, .f32⟩
  | 59 => ⟨S8x1024x256, .f32⟩
  | 60 => ⟨S8x1024x256, .f32⟩
  | 61 => ⟨S1x1x256, .f32⟩
  | 62 => ⟨S8x1024x256, .f32⟩
  | 63 => ⟨S8x1024x256, .f32⟩
  | 64 => ⟨S_, .i32⟩
  | 65 => ⟨S8x1024, .i32⟩
  | 66 => ⟨S8x1024, .i1⟩
  | 67 => ⟨S8x1024x1, .i32⟩
  | 68 => ⟨S8x1x1024, .i32⟩
  | 69 => ⟨S8x1024x1024, .i32⟩
  | 70 => ⟨S8x1024x1024, .i32⟩
  | 71 => ⟨S8x1024x1024, .i1⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S1024x1024, .i1⟩
  | 78 => ⟨S1x1024x1024, .i1⟩
  | 79 => ⟨S8x1024x1024, .i1⟩
  | 80 => ⟨S8x1024x1024, .f32⟩
  | 81 => ⟨S_, .f32⟩
  | 82 => ⟨S8x1024, .f32⟩
  | 83 => ⟨S8x1024x1024, .f32⟩
  | 84 => ⟨S_, .f32⟩
  | 85 => ⟨S8x1024, .f32⟩
  | 86 => ⟨S_, .f32⟩
  | 87 => ⟨S8x1024, .f32⟩
  | 88 => ⟨S8x1024, .f32⟩
  | 89 => ⟨S8x1024, .f32⟩
  | 90 => ⟨S1x1024x1024, .i1⟩
  | 91 => ⟨S8x1024x1024, .i1⟩
  | 92 => ⟨S8x1024x1024, .i1⟩
  | 93 => ⟨S8x1024x1, .i1⟩
  | 94 => ⟨S8x1024x1024, .i1⟩
  | 95 => ⟨S8x1024x1024, .i1⟩
  | 96 => ⟨S8x1024x1024, .f32⟩
  | 97 => ⟨S_, .f32⟩
  | 98 => ⟨S8x1024, .f32⟩
  | 99 => ⟨S8x1024x1024, .f32⟩
  | 100 => ⟨S_, .f32⟩
  | 101 => ⟨S8x1024, .f32⟩
  | 102 => ⟨S_, .f32⟩
  | 103 => ⟨S8x1024, .f32⟩
  | 104 => ⟨S8x1024, .f32⟩
  | 105 => ⟨S8x1024, .f32⟩
  | 106 => ⟨S_, .i32⟩
  | 107 => ⟨S_, .i32⟩
  | 108 => ⟨S_, .i32⟩
  | 109 => ⟨S8x1024, .i32⟩
  | 110 => ⟨S8x1024, .i32⟩
  | 111 => ⟨S_, .i32⟩
  | 112 => ⟨S8x1024, .i32⟩
  | 113 => ⟨S8x1024, .i32⟩
  | 114 => ⟨S8x1024x1, .i32⟩
  | 115 => ⟨S_, .i32⟩
  | 116 => ⟨S8x1024x1, .i32⟩
  | 117 => ⟨S8x1024x1, .i1⟩
  | 118 => ⟨S_, .i32⟩
  | 119 => ⟨S8x1024x1, .i32⟩
  | 120 => ⟨S8x1024x1, .i32⟩
  | 121 => ⟨S8x1024x1, .i32⟩
  | 122 => ⟨S8x1024x1x1, .i32⟩
  | 123 => ⟨S1, .i32⟩
  | 124 => ⟨S_, .i32⟩
  | 125 => ⟨S8x1024x1x1, .i32⟩
  | 126 => ⟨S8x1024x1x1, .i1⟩
  | 127 => ⟨S1x1x1x1, .i32⟩
  | _ => ⟨S8x1024x768, .f32⟩

abbrev hbmTy0_1 (i : Nat) : BufTy := match i % 128 with
  | 0 => ⟨S8x1024x1x1, .i32⟩
  | 1 => ⟨S8x1024x1x1, .i1⟩
  | 2 => ⟨S8x1024x1x1, .i1⟩
  | 3 => ⟨S_, .i1⟩
  | 4 => ⟨S8x1024x1, .i1⟩
  | 5 => ⟨S8x1024x1, .f32⟩
  | 6 => ⟨S_, .f32⟩
  | 7 => ⟨S8x1024x1, .f32⟩
  | 8 => ⟨S8x1024x1, .f32⟩
  | 9 => ⟨S8x1024, .f32⟩
  | 10 => ⟨S_, .f32⟩
  | 11 => ⟨S8x1024, .f32⟩
  | 12 => ⟨S8x1024, .f32⟩
  | 13 => ⟨S_, .f32⟩
  | 14 => ⟨S8x1024, .f32⟩
  | 15 => ⟨S8x1024, .f32⟩
  | 16 => ⟨S_, .f32⟩
  | 17 => ⟨S8x1024, .f32⟩
  | 18 => ⟨S8x1024, .f32⟩
  | 19 => ⟨S_, .f32⟩
  | 20 => ⟨S8x1024, .f32⟩
  | 21 => ⟨S8x1024, .f32⟩
  | 22 => ⟨S8x1024, .f32⟩
  | 23 => ⟨S_, .f32⟩
  | 24 => ⟨S8x1024, .f32⟩
  | 25 => ⟨S8x1024, .f32⟩
  | 26 => ⟨S_, .f32⟩
  | 27 => ⟨S8x1024, .f32⟩
  | 28 => ⟨S8x1024, .f32⟩
  | 29 => ⟨S8x1024, .f32⟩
  | 30 => ⟨S8x1024, .f32⟩
  | 31 => ⟨S_, .f32⟩
  | 32 => ⟨S8x1024, .f32⟩
  | 33 => ⟨S8x1024, .f32⟩
  | 34 => ⟨S8x1024, .f32⟩
  | 35 => ⟨S8x1024, .f32⟩
  | 36 => ⟨S_, .f32⟩
  | 37 => ⟨S8x1024, .f32⟩
  | 38 => ⟨S8x1024, .f32⟩
  | 39 => ⟨S_, .i32⟩
  | 40 => ⟨S8x1024, .i32⟩
  | 41 => ⟨S8x1024, .i1⟩
  | 42 => ⟨S_, .i32⟩
  | 43 => ⟨S8x1024, .i32⟩
  | 44 => ⟨S8x1024, .i32⟩
  | 45 => ⟨S8x1024, .i32⟩
  | 46 => ⟨S8x1024x1, .i32⟩
  | 47 => ⟨S8x1024, .f32⟩
  | 48 => ⟨S8x1024, .f32⟩
  | 49 => ⟨S_, .f32⟩
  | 50 => ⟨S8x1024, .f32⟩
  | 51 => ⟨S8x1024, .i1⟩
  | 52 => ⟨S8x1024, .i1⟩
  | 53 => ⟨S8x1024, .f32⟩
  | 54 => ⟨S_, .f32⟩
  | 55 => ⟨S_, .f32⟩
  | 56 => ⟨S8x1024, .f32⟩
  | 57 => ⟨S_, .f32⟩
  | 58 => ⟨S_, .f32⟩
  | 59 => ⟨S_, .f32⟩
  | 60 => ⟨S_, .f32⟩
  | 61 => ⟨S_, .f32⟩
  | 62 => ⟨S1x1, .f32⟩
  | _ => ⟨S8x1024x768, .f32⟩

abbrev hbmTy (i : Nat) : BufTy := match i / 128 with
  | 0 => hbmTy0_0 i
  | 1 => hbmTy0_1 i
  | _ => ⟨S8x1024x768, .f32⟩

abbrev bufTy : (tb : Table) → Fin (tcTables nBuf tb) → BufTy
  | .hbm, ⟨i, _⟩ => hbmTy i
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v33 : Ref sig .tc := ⟨.hbm, 55, rfl⟩
abbrev main_v34 : Ref sig .tc := ⟨.hbm, 56, rfl⟩
abbrev main_cst_10 : Ref sig .tc := ⟨.hbm, 57, rfl⟩
abbrev main_call3_v0 : Ref sig .tc := ⟨.hbm, 58, rfl⟩
abbrev main_call3_v1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_c_19 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v73 : Ref sig .tc := ⟨.hbm, 113, rfl⟩
abbrev main_v74 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_cst : Ref sig .tc := ⟨.hbm, 134, rfl⟩
abbrev main_call5_v14 : Ref sig .tc := ⟨.hbm, 135, rfl⟩
abbrev main_v75 : Ref sig .tc := ⟨.hbm, 136, rfl⟩
abbrev main_v76 : Ref sig .tc := ⟨.hbm, 137, rfl⟩
abbrev main_cst_20 : Ref sig .tc := ⟨.hbm, 138, rfl⟩
abbrev main_v77 : Ref sig .tc := ⟨.hbm, 139, rfl⟩
abbrev main_v78 : Ref sig .tc := ⟨.hbm, 140, rfl⟩
abbrev main_cst_21 : Ref sig .tc := ⟨.hbm, 141, rfl⟩
abbrev main_v79 : Ref sig .tc := ⟨.hbm, 142, rfl⟩
abbrev main_v80 : Ref sig .tc := ⟨.hbm, 143, rfl⟩
abbrev main_cst_22 : Ref sig .tc := ⟨.hbm, 144, rfl⟩
abbrev main_v81 : Ref sig .tc := ⟨.hbm, 145, rfl⟩
abbrev main_v82 : Ref sig .tc := ⟨.hbm, 146, rfl⟩
abbrev main_cst_23 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_24 : Ref sig .tc := ⟨.hbm, 151, rfl⟩
abbrev main_v86 : Ref sig .tc := ⟨.hbm, 152, rfl⟩
abbrev main_v87 : Ref sig .tc := ⟨.hbm, 153, rfl⟩
abbrev main_cst_25 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_26 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_27 : Ref sig .tc := ⟨.hbm, 164, rfl⟩
abbrev main_v96 : Ref sig .tc := ⟨.hbm, 165, rfl⟩
abbrev main_v97 : Ref sig .tc := ⟨.hbm, 166, rfl⟩
abbrev main_c_28 : Ref sig .tc := ⟨.hbm, 167, rfl⟩
abbrev main_v98 : Ref sig .tc := ⟨.hbm, 168, rfl⟩
abbrev main_v99 : Ref sig .tc := ⟨.hbm, 169, rfl⟩
abbrev main_c_29 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_30 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_31 : Ref sig .tc := ⟨.hbm, 182, rfl⟩
abbrev main_v110 : Ref sig .tc := ⟨.hbm, 183, rfl⟩
abbrev main_v111 : Ref sig .tc := ⟨.hbm, 184, rfl⟩
abbrev main_cst_32 : Ref sig .tc := ⟨.hbm, 185, rfl⟩
abbrev main_v112 : Ref sig .tc := ⟨.hbm, 186, rfl⟩
abbrev main_cst_33 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩

abbrev nD : Nat := 1
abbrev τ : Topo := Topo.v7x

variable {F : FTy → Type} [FloatOps F]

class Facts₀ : Prop where
  reducesTo_S8x1024x768_S8x1024_d2 : S8x1024x768.ReducesTo [2] S8x1024
  h_S_ : 0 < S_.numel
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S256x768_S256_d1 : S256x768.ReducesTo [1] S256
  bcast_S256_S1x1x256_2 : S256.BroadcastsInDim S1x1x256 (![2] : Fin 1 → Fin S1x1x256.rank)
  bcast_S8x1024x1_S8x1024x256_0_1_2 : S8x1024x1.BroadcastsInDim S8x1024x256 (![0, 1, 2] : Fin 3 → Fin S8x1024x256.rank)
  bcast_S1x1x256_S8x1024x256_0_1_2 : S1x1x256.BroadcastsInDim S8x1024x256 (![0, 1, 2] : Fin 3 → Fin S8x1024x256.rank)
  bcast_S_S8x1024x256 : S_.BroadcastsInDim S8x1024x256 (![] : Fin 0 → Fin S8x1024x256.rank)
  bcast_S_S8x1024 : S_.BroadcastsInDim S8x1024 (![] : Fin 0 → Fin S8x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  reducesTo_S8x1024x1024_S8x1024_d2 : S8x1024x1024.ReducesTo [2] S8x1024
  bcast_S1x1024x1024_S8x1024x1024_0_1_2 : S1x1024x1024.BroadcastsInDim S8x1024x1024 (![0, 1, 2] : Fin 3 → Fin S8x1024x1024.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  reducesTo_S8x1024x256_S8x1024_d2 : S8x1024x256.ReducesTo [2] S8x1024
  reducesTo_S8x1024_S_d0_1 : S8x1024.ReducesTo [0, 1] S_
  shapeCasts_S_S1x1 : S_.ShapeCasts S1x1
  dot_S8x1024x768_S8x1024x768_S8x1024x1024_2_2_1_1_0_0_wf : DotDims.WF S8x1024x768 S8x1024x768 S8x1024x1024 [2] [2] [1] [1] [0] [0]
  dot_S8x1024x768_S256x768_S8x1024x256_2_1_01_0_n_n_wf : DotDims.WF S8x1024x768 S256x768 S8x1024x256 [2] [1] [0, 1] [0] [] []
  gather_S8x1024x256_S8x1024x1x1_S8x1024x1_n_2_01_01_2_3_111_wf : GatherDims.WF S8x1024x256 S8x1024x1x1 S8x1024x1 [] [2] [0, 1] [2] [0, 1] 3 ![1, 1, 1]
  gather_S256_S8x1024x1_S8x1024_n_0_n_n_0_2_1_wf : GatherDims.WF S256 S8x1024x1 S8x1024 [] [0] [] [0] [] 2 ![1]

variable [Facts₀]

def dot_S8x1024x768_S8x1024x768_S8x1024x1024_2_2_1_1_0_0 : DotDims S8x1024x768 S8x1024x768 S8x1024x1024 where
  lhsContracting := [2]
  rhsContracting := [2]
  lhsNonContracting := [1]
  rhsNonContracting := [1]
  lhsBatch := [0]
  rhsBatch := [0]
  wf := dot_S8x1024x768_S8x1024x768_S8x1024x1024_2_2_1_1_0_0_wf
def dot_S8x1024x768_S256x768_S8x1024x256_2_1_01_0_n_n : DotDims S8x1024x768 S256x768 S8x1024x256 where
  lhsContracting := [2]
  rhsContracting := [1]
  lhsNonContracting := [0, 1]
  rhsNonContracting := [0]
  lhsBatch := []
  rhsBatch := []
  wf := dot_S8x1024x768_S256x768_S8x1024x256_2_1_01_0_n_n_wf
def gather_S8x1024x256_S8x1024x1x1_S8x1024x1_n_2_01_01_2_3_111 : GatherDims S8x1024x256 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x256_S8x1024x1x1_S8x1024x1_n_2_01_01_2_3_111_wf
def gather_S256_S8x1024x1_S8x1024_n_0_n_n_0_2_1 : GatherDims S256 S8x1024x1 S8x1024 where
  offsetDims := []
  collapsedSliceDims := [0]
  operandBatchingDims := []
  startIndicesBatchingDims := []
  startIndexMap := [0]
  indexVectorDim := 2
  sliceSizes := ![1]
  wf := gather_S256_S8x1024x1_S8x1024_n_0_n_n_0_2_1_wf

class Facts : Prop extends Facts₀ where

variable [Facts]
-- ==== Proof.Spec.lean ====
/-
  The prototype supervised-contrastive loss of both programs, as mathematics over the extended reals.

  Inputs: features `X b i d` (8 batches, 1024 rows, 768 coordinates), labels `L b i` (32-bit words, read signed),
  centroids `C c d` (256 of them), the per-centroid scale `P c` and the per-centroid speaker count `K c`.

  For a row `(b, i)`: the squared norm `sq`, the Gram entries, the clamped squared distances `d2` to every row of the
  same batch and `cd2` to every centroid; their square roots; the mean distance to the rows of another label
  (`negSup`), to the other rows of the same label (`posX`), the scaled distance to the row's own centroid
  (`posCent`) and the mean over the other centroids (`negCent`); from these the row's loss term, divided by the
  speaker count of the row's centroid. A row is an anchor when its label is nonnegative and some row of its batch
  carries another label. The loss is the anchors' terms summed, over the number of anchors (at least one).

  Two arrangements of this one quantity are defined. The kernel's (`kerLoss`) zeroes the diagonal distance, takes the
  negatives as "all minus same", the positives as "same, diagonal being zero", and picks the row's centroid and speaker
  count by a sum against a one-hot row. The reference's (`refLoss`) guards the square root at zero, multiplies by the
  masks themselves and picks by index. `ref_eq_ker` says they are the same extended real when every feature is finite.
-/
import Idealize.ShloMosaic.PureOps.Ideal
import Idealize.ShloMosaic.PureOps.Ideal.Laws

noncomputable section

namespace SupCon

open Idealize.ShloMosaic

/-- 1 where the proposition holds, 0 elsewhere. -/
def ind (p : Prop) [Decidable p] : EReal := if p then 1 else 0

/-- The float words both programs spell, as the extended reals they denote. -/
abbrev w1 : EReal := Ideal.ofBits .f32 0x3F800000#32     -- 1.0
abbrev w2 : EReal := Ideal.ofBits .f32 0x40000000#32     -- 2.0
abbrev wh : EReal := Ideal.ofBits .f32 0x3F000000#32     -- 0.5
abbrev w10 : EReal := Ideal.ofBits .f32 0x41200000#32    -- 10.0
abbrev w255 : EReal := Ideal.ofBits .f32 0x437F0000#32   -- 255.0
abbrev w1024 : EReal := Ideal.ofBits .f32 0x44800000#32  -- 1024.0

/-- A label is valid when it is nonnegative as a signed word. -/
def valid (l : BitVec 32) : Prop := (0#32).sle l = true
instance (l : BitVec 32) : Decidable (valid l) := inferInstanceAs (Decidable (_ = true))

/-- A label clamped into [0, 255] as a signed word, -/
def clipw (l : BitVec 32) : BitVec 32 := IntOp.minsi 255#32 (IntOp.maxsi 0#32 l)
/-- and as a centroid's number. -/
def kidx (l : BitVec 32) : Fin 256 := if h : (clipw l).toNat < 256 then ⟨(clipw l).toNat, h⟩ else 0

section
variable (X : Fin 8 → Fin 1024 → Fin 768 → EReal) (L : Fin 8 → Fin 1024 → BitVec 32)
  (C : Fin 256 → Fin 768 → EReal) (P K : Fin 256 → EReal)

/-! ### What both arrangements share -/

def sq (b : Fin 8) (i : Fin 1024) : EReal := ∑ d : Fin 768, X b i d * X b i d
def gram (b : Fin 8) (i j : Fin 1024) : EReal := ∑ d : Fin 768, X b i d * X b j d
def d2 (b : Fin 8) (i j : Fin 1024) : EReal := max (sq X b i + sq X b j - w2 * gram X b i j) 0
def csq (c : Fin 256) : EReal := ∑ d : Fin 768, C c d * C c d
def cg (b : Fin 8) (i : Fin 1024) (c : Fin 256) : EReal := ∑ d : Fin 768, X b i d * C c d
def cd2 (b : Fin 8) (i : Fin 1024) (c : Fin 256) : EReal := max (sq X b i + csq C c - w2 * cg X C b i c) 0

/-- The row's loss term from its four means. -/
def total (posX posCent negSup negCent : EReal) : EReal :=
  (wh * posX + wh * posCent) - (wh * negSup + wh * negCent) + w10 + Ideal.exp (wh * posX + wh * posCent) - w1

/-! ### The kernel's arrangement -/

def kdist (b : Fin 8) (i j : Fin 1024) : EReal := if i = j then 0 else Ideal.sqrt (d2 X b i j)
def sameF (b : Fin 8) (i j : Fin 1024) : EReal := ind (L b i = L b j)
def cntSame (b : Fin 8) (i : Fin 1024) : EReal := ∑ j : Fin 1024, sameF L b i j
def sumAll (b : Fin 8) (i : Fin 1024) : EReal := ∑ j : Fin 1024, kdist X b i j
def sumSame (b : Fin 8) (i : Fin 1024) : EReal := ∑ j : Fin 1024, kdist X b i j * sameF L b i j
def negCnt (b : Fin 8) (i : Fin 1024) : EReal := w1024 - cntSame L b i
def negSup (b : Fin 8) (i : Fin 1024) : EReal :=
  Ideal.div (sumAll X b i - sumSame X L b i) (max (negCnt L b i) w1)
def validF (b : Fin 8) (i : Fin 1024) : EReal := ind (valid (L b i))
def posX (b : Fin 8) (i : Fin 1024) : EReal :=
  Ideal.div (validF L b i * sumSame X L b i) (max (validF L b i * (cntSame L b i - w1)) w1)
def cdist (b : Fin 8) (i : Fin 1024) (c : Fin 256) : EReal := Ideal.div (Ideal.sqrt (cd2 X C b i c)) (P c)
def onehot (b : Fin 8) (i : Fin 1024) (c : Fin 256) : EReal := ind (clipw (L b i) = BitVec.ofNat 32 c.val)
def posCent (b : Fin 8) (i : Fin 1024) : EReal := ∑ c : Fin 256, cdist X C P b i c * onehot L b i c
def sumCent (b : Fin 8) (i : Fin 1024) : EReal := ∑ c : Fin 256, cdist X C P b i c
def negCent (b : Fin 8) (i : Fin 1024) : EReal := Ideal.div (sumCent X C P b i - posCent X L C P b i) w255
def spkSel (b : Fin 8) (i : Fin 1024) : EReal := ∑ c : Fin 256, onehot L b i c * K c
/-- The row's term over its speaker count, -/
def rowK (b : Fin 8) (i : Fin 1024) : EReal :=
  Ideal.div (total (posX X L b i) (posCent X L C P b i) (negSup X L b i) (negCent X L C P b i)) (spkSel L K b i)
/-- and whether the row is an anchor. -/
def anchorK (b : Fin 8) (i : Fin 1024) : EReal := ind (valid (L b i) ∧ 0 < negCnt L b i)

/-- The loss as the kernel arranges it. -/
def kerLoss : EReal :=
  Ideal.div (∑ b : Fin 8, ∑ i : Fin 1024, rowK X L C P K b i * anchorK L b i)
    (max (∑ b : Fin 8, ∑ i : Fin 1024, anchorK L b i) w1)

/-! ### The reference's arrangement -/

/-- The square root guarded at zero: `sqrt x` for `0 < x`, else `0` (the inner guard feeds `1` to the root there). -/
def safeSqrt (x : EReal) : EReal := if 0 < x then Ideal.sqrt (if 0 < x then x else w1) else 0
def negMask (b : Fin 8) (i j : Fin 1024) : EReal := ind (¬ L b i = L b j)
def rNegCnt (b : Fin 8) (i : Fin 1024) : EReal := ∑ j : Fin 1024, negMask L b i j
def rNegSup (b : Fin 8) (i : Fin 1024) : EReal :=
  Ideal.div (∑ j : Fin 1024, safeSqrt (d2 X b i j) * negMask L b i j) (max (rNegCnt L b i) w1)
def posMask (b : Fin 8) (i j : Fin 1024) : EReal := ind ((L b i = L b j ∧ ¬ i = j) ∧ valid (L b i))
def rPosCnt (b : Fin 8) (i : Fin 1024) : EReal := ∑ j : Fin 1024, posMask L b i j
def rPosX (b : Fin 8) (i : Fin 1024) : EReal :=
  Ideal.div (∑ j : Fin 1024, safeSqrt (d2 X b i j) * posMask L b i j) (max (rPosCnt L b i) w1)
def rcdist (b : Fin 8) (i : Fin 1024) (c : Fin 256) : EReal := Ideal.div (safeSqrt (cd2 X C b i c)) (P c)
def rPosCent (b : Fin 8) (i : Fin 1024) : EReal := rcdist X C P b i (kidx (L b i))
def rNegCent (b : Fin 8) (i : Fin 1024) : EReal :=
  Ideal.div ((∑ c : Fin 256, rcdist X C P b i c) - rPosCent X L C P b i) w255
def rowR (b : Fin 8) (i : Fin 1024) : EReal :=
  Ideal.div (total (rPosX X L b i) (rPosCent X L C P b i) (rNegSup X L b i) (rNegCent X L C P b i)) (K (kidx (L b i)))
def anchorR (b : Fin 8) (i : Fin 1024) : EReal := ind (valid (L b i) ∧ 0 < rNegCnt L b i)

/-- The loss as the reference arranges it. -/
def refLoss : EReal :=
  Ideal.div (∑ b : Fin 8, ∑ i : Fin 1024, rowR X L C P K b i * anchorR L b i)
    (max (∑ b : Fin 8, ∑ i : Fin 1024, anchorR L b i) w1)

end

end SupCon

end
-- ==== Proof.Tiles.lean ====
/-
  The kernel walks each batch's 1024 rows in two tiles of 512. Row `r` of tile `q` is row `512 q + r` of the batch;
  a tile's contribution to the two running sums is the sum of its rows' terms and the count of its anchors, and the
  loss in the kernel's arrangement is the quotient of the tiles' contributions summed tile by tile.
-/
import proofs.«419339_j58901181497956_3_alg».proof.Proof.Spec

noncomputable section

namespace SupCon

open Idealize.ShloMosaic

/-- Row `r` of tile `q`. -/
def row (q : Fin 2) (r : Fin 512) : Fin 1024 := ⟨512 * q.val + r.val, by have := q.isLt; have := r.isLt; omega⟩

section
variable (X : Fin 8 → Fin 1024 → Fin 768 → EReal) (L : Fin 8 → Fin 1024 → BitVec 32)
  (C : Fin 256 → Fin 768 → EReal) (P K : Fin 256 → EReal)

/-- A tile's sum of anchor terms, -/
def tileS (b : Fin 8) (q : Fin 2) : EReal := ∑ r : Fin 512, rowK X L C P K b (row q r) * anchorK L b (row q r)
/-- and its number of anchors. -/
def tileN (b : Fin 8) (q : Fin 2) : EReal := ∑ r : Fin 512, anchorK L b (row q r)

/-- What a batch's accumulator lane `l` holds after both tiles: zero, plus each tile's contribution in lane 0. -/
def accS (b : Fin 8) (l : Fin 128) : EReal :=
  (0 + (if l.val = 0 then tileS X L C P K b 0 else 0)) + (if l.val = 0 then tileS X L C P K b 1 else 0)
def accN (b : Fin 8) (l : Fin 128) : EReal :=
  (0 + (if l.val = 0 then tileN L b 0 else 0)) + (if l.val = 0 then tileN L b 1 else 0)

end

end SupCon

end
-- ==== Proof.KerBlocks.lean ====
/-
  What the kernel's input blocks hold at a grid point, in terms of the argument arrays. Point `t` of the 8 × 2 grid
  works on batch `t / 2` and tile `t % 2`: the feature block is the whole batch, the label column the tile's 512
  labels, the label row the batch's 1024 labels; the centroids and the two per-centroid rows are whole arrays (the
  label column and row and the two rows are broadcasts the host makes before the grid). A load of 512 rows at row
  offset `512 · (t % 2)` reads the tile's rows.
-/
import proofs.«419339_j58901181497956_3_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run
import proofs.«419339_j58901181497956_3_alg».proof.Proof.Tiles

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F] (m : (ℓ : Loc nD τ sig) → Buf (Elt F) ℓ)

/-- The batch and the tile of a grid point. -/
def bOf (t : Fin cfg0.N) : Fin 8 := ⟨t.val / 2, by have := t.isLt; have h : cfg0.N = 16 := N_0; omega⟩
def qOf (t : Fin cfg0.N) : Fin 2 := ⟨t.val % 2, by omega⟩

theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 2 ∧ win0_6.index t (1 : Fin 3) = 0 ∧ win0_6.index t (2 : Fin 3) = 0)
    ∧ (win0_7.index t (0 : Fin 3) = t.val / 2 ∧ win0_7.index t (1 : Fin 3) = 0 ∧ win0_7.index t (2 : Fin 3) = 0)
    ∧ ((grid0.coords t 0).val = t.val / 2 ∧ (grid0.coords t 1).val = t.val % 2) :=
  (by decide +kernel : ∀ t : Fin grid0.N, _)

theorem V_v0 (c : Dev nD) :
    V m c main_v0 = broadcastInDim S8x1024x1 ![0, 1] bcast_S8x1024_S8x1024x1_0_1 (m ((c : Thread nD τ).loc main_arg1)) := by
  show StableHlo.after hostOps0 (fun b => m (c, b)) (Proc.devRef .tc main_v0) = _
  after_results

theorem blk0_apply (c : Dev nD) (t : Fin cfg0.N) (j : Fin 1024) (d : Fin 768) :
    (iblk m c 0 t : Vec F S1x1024x768 .f32) (ix3 (0 : Fin 1) j d)
      = m ((c : Thread nD τ).loc main_arg0) (ix3 (bOf t) j d) := by
  unfold iblk
  rw [View.read_apply]
  show V m c main_arg0 _ = _
  rw [V_main_arg0]
  congr 1
  funext a
  apply Fin.ext
  match a with
  | ⟨0, _⟩ => show win0_0.index t 0 * 1 + 1 * 0 = t.val / 2; rw [(idx_facts t).1.1]; omega
  | ⟨1, _⟩ => show win0_0.index t 1 * 1024 + 1 * j.val = j.val; rw [(idx_facts t).1.2.1]; omega
  | ⟨2, _⟩ => show win0_0.index t 2 * 768 + 1 * d.val = d.val; rw [(idx_facts t).1.2.2]; omega

theorem V_v1 (c : Dev nD) :
    V m c main_v1 = broadcastInDim S8x1x1024 ![0, 2] bcast_S8x1024_S8x1x1024_0_2 (m ((c : Thread nD τ).loc main_arg1)) := by
  show StableHlo.after hostOps0 (fun b => m (c, b)) (Proc.devRef .tc main_v1) = _
  after_results
theorem V_v2 (c : Dev nD) :
    V m c main_v2 = broadcastInDim S1x256 ![1] bcast_S256_S1x256_1 (m ((c : Thread nD τ).loc main_arg3)) := by
  show StableHlo.after hostOps0 (fun b => m (c, b)) (Proc.devRef .tc main_v2) = _
  after_results
theorem V_v3 (c : Dev nD) :
    V m c main_v3 = broadcastInDim S1x256 ![1] bcast_S256_S1x256_1 (m ((c : Thread nD τ).loc main_arg4)) := by
  show StableHlo.after hostOps0 (fun b => m (c, b)) (Proc.devRef .tc main_v3) = _
  after_results

theorem blk1_apply (c : Dev nD) (t : Fin cfg0.N) (r : Fin 512) :
    (iblk m c 1 t : Vec F S1x512x1 .i32) (ix3 (0 : Fin 1) r (0 : Fin 1))
      = m ((c : Thread nD τ).loc main_arg1) (ix2 (bOf t) (SupCon.row (qOf t) r)) := by
  unfold iblk
  rw [View.read_apply]
  show V m c main_v0 _ = _
  rw [V_v0]
  refine (broadcastInDim_apply _ _ _ _ (ix2 (bOf t) (SupCon.row (qOf t) r)) ?_)
  intro a
  match a with
  | ⟨0, _⟩ => show t.val / 2 = win0_1.index t 0 * 1 + 1 * 0; rw [(idx_facts t).2.1.1]; omega
  | ⟨1, _⟩ => show 512 * (t.val % 2) + r.val = win0_1.index t 1 * 512 + 1 * r.val; rw [(idx_facts t).2.1.2.1]; omega

theorem blk2_apply (c : Dev nD) (t : Fin cfg0.N) (j : Fin 1024) :
    (iblk m c 2 t : Vec F S1x1x1024 .i32) (ix3 (0 : Fin 1) (0 : Fin 1) j)
      = m ((c : Thread nD τ).loc main_arg1) (ix2 (bOf t) j) := by
  unfold iblk
  rw [View.read_apply]
  show V m c main_v1 _ = _
  rw [V_v1]
  refine (broadcastInDim_apply _ _ _ _ (ix2 (bOf t) j) ?_)
  intro a
  match a with
  | ⟨0, _⟩ => show t.val / 2 = win0_2.index t 0 * 1 + 1 * 0; rw [(idx_facts t).2.2.1.1]; omega
  | ⟨1, _⟩ => show j.val = win0_2.index t 2 * 1024 + 1 * j.val; rw [(idx_facts t).2.2.1.2.2]; omega

theorem blk3_apply (c : Dev nD) (t : Fin cfg0.N) (k : Fin 256) (d : Fin 768) :
    (iblk m c 3 t : Vec F S256x768 .f32) (ix2 k d) = m ((c : Thread nD τ).loc main_arg2) (ix2 k d) := by
  unfold iblk
  rw [View.read_apply]
  show V m c main_arg2 _ = _
  rw [V_main_arg2]
  congr 1
  funext a
  apply Fin.ext
  match a with
  | ⟨0, _⟩ => show win0_3.index t 0 * 256 + 1 * k.val = k.val; rw [(idx_facts t).2.2.2.1.1]; omega
  | ⟨1, _⟩ => show win0_3.index t 1 * 768 + 1 * d.val = d.val; rw [(idx_facts t).2.2.2.1.2]; omega

theorem blk4_apply (c : Dev nD) (t : Fin cfg0.N) (k : Fin 256) :
    (iblk m c 4 t : Vec F S1x256 .f32) (ix2 (0 : Fin 1) k) = m ((c : Thread nD τ).loc main_arg3) (ix1 k) := by
  unfold iblk
  rw [View.read_apply]
  show V m c main_v2 _ = _
  rw [V_v2]
  refine (broadcastInDim_apply _ _ _ _ (ix1 k) ?_)
  intro a
  match a with
  | ⟨0, _⟩ => show k.val = win0_4.index t 1 * 256 + 1 * k.val; rw [(idx_facts t).2.2.2.2.1.2]; omega

theorem blk5_apply (c : Dev nD) (t : Fin cfg0.N) (k : Fin 256) :
    (iblk m c 5 t : Vec F S1x256 .f32) (ix2 (0 : Fin 1) k) = m ((c : Thread nD τ).loc main_arg4) (ix1 k) := by
  unfold iblk
  rw [View.read_apply]
  show V m c main_v3 _ = _
  rw [V_v3]
  refine (broadcastInDim_apply _ _ _ _ (ix1 k) ?_)
  intro a
  match a with
  | ⟨0, _⟩ => show k.val = win0_5.index t 1 * 256 + 1 * k.val; rw [(idx_facts t).2.2.2.2.2.1.2]; omega

/-- The tile's rows of a whole batch block, loaded at the tile's row offset. -/
theorem ld_rows3 (i : grid0.Coords) (q : Fin 2) (hq : (i 1).val = q.val) (x : Vec F S1x1024x768 .f32)
    (r : Fin 512) (d : Fin 768) :
    View.ld (Val := Elt F) x (Rect.unit (s := S1x1024x768) (k0_off1 i) S1x512x768.size (k0_off1_inb i)) (ix3 (0 : Fin 1) r d)
      = x (ix3 (0 : Fin 1) (SupCon.row q r) d) := by
  show x _ = x _
  congr 1
  funext a
  apply Fin.ext
  match a with
  | ⟨0, _⟩ => show k0_off1 i 0 + 1 * 0 = 0; rw [k0_off1_eq]; rfl
  | ⟨1, _⟩ => show k0_off1 i 1 + 1 * r.val = 512 * q.val + r.val; rw [k0_off1_eq, ← hq]; show 512 * (i 1).val + 1 * r.val = _; omega
  | ⟨2, _⟩ => show k0_off1 i 2 + 1 * d.val = d.val; rw [k0_off1_eq]; show 0 + 1 * d.val = _; omega

/-- The tile's rows of the cached batch, loaded at the tile's row offset. -/
theorem ld_rows2 (i : grid0.Coords) (q : Fin 2) (hq : (i 1).val = q.val) (x : Vec F S1024x768 .bf16)
    (r : Fin 512) (d : Fin 768) :
    View.ld (Val := Elt F) x (Rect.unit (s := S1024x768) (k0_off2 i) S512x768.size (k0_off2_inb i)) (ix2 r d)
      = x (ix2 (SupCon.row q r) d) := by
  show x _ = x _
  congr 1
  funext a
  apply Fin.ext
  match a with
  | ⟨0, _⟩ => show k0_off2 i 0 + 1 * r.val = 512 * q.val + r.val; rw [k0_off2_eq, ← hq]; show 512 * (i 1).val + 1 * r.val = _; omega
  | ⟨1, _⟩ => show k0_off2 i 1 + 1 * d.val = d.val; rw [k0_off2_eq]; show 0 + 1 * d.val = _; omega

end Cert.KernelIdeal.Blocks

end
-- ==== Proof.KerPay.lean ====
/-
  The two accumulated stores of the kernel's body as composed payloads of the point's loads: the query tile `q`
  (512 rows of the batch), its cached copy `qb`, the whole batch `kb`, the label column and row, the centroids, the
  two per-centroid rows, the cached squared norms `sqk` and `csqv`, and the running accumulator.
-/
import proofs.«419339_j58901181497956_3_alg».proof.Proof.Gen.KernelIdeal.Skeleton

noncomputable section

namespace Cert.KernelIdeal.Body

open Cert.KernelIdeal Cert.KernelIdeal.Gen
open Idealize.ShloMosaic

variable {F : FTy → Type} [FloatOps F]

/-- The payload stored into the first accumulator: the running sums' update by one query tile. -/
def accPay (a1 : BitVec 32) (q : Vec F S1x512x768 .f32) (qb : Vec F S512x768 .bf16) (kb : Vec F S1024x768 .bf16)
    (lc : Vec F S1x512x1 .i32) (lr : Vec F S1x1x1024 .i32) (ce : Vec F S256x768 .f32) (ph sp : Vec F S1x256 .f32)
    (sqk : Vec F S1x1024 .f32) (csqv : Vec F S1x256 .f32) (acc : Vec F S1x128 .f32) : FVec F S1x128 .f32 :=
  k0_pay30 (k0_pay20 (k0_pay10 lc)) (k0_pay24 (k0_pay10 lc) (k0_pay11 lr))
    (k0_pay27 (k0_pay10 lc) (k0_pay18 qb (k0_pay12 ph) csqv (k0_pay14 q) (k0_pay15 ce)) (k0_pay20 (k0_pay10 lc))
      (k0_pay22 (k0_pay10 lc) (k0_pay11 lr))
      (k0_pay23 a1 (k0_pay10 lc) (k0_pay11 lr) (k0_pay16 qb kb) (k0_pay17 q sqk) (FloatOps.ofBits .f32 0x40000000#32))
      (k0_pay25 a1 (k0_pay10 lc) (k0_pay11 lr) (k0_pay16 qb kb) (k0_pay17 q sqk) (FloatOps.ofBits .f32 0x40000000#32)))
    (k0_pay28 (k0_pay10 lc) (k0_pay13 sp)) acc

/-- The payload stored into the second accumulator: the anchor count's update by one query tile. -/
def cntPay (lc : Vec F S1x512x1 .i32) (lr : Vec F S1x1x1024 .i32) (acc : Vec F S1x128 .f32) : FVec F S1x128 .f32 :=
  k0_pay31 (k0_pay20 (k0_pay10 lc)) (k0_pay24 (k0_pay10 lc) (k0_pay11 lr)) acc

end Cert.KernelIdeal.Body

end
-- ==== Proof.KerPieces.lean ====
/-
  What each of the two control cases of the kernel's body leaves in the two output blocks and in the five scratch
  buffers carried across grid points, as payload terms of the point's input blocks (and, where the reset is not taken,
  of what the point before left).

  At a batch's first point the body zeroes both accumulators, caches the batch, its rows' squared norms and the
  centroids' squared norms, then adds the first tile's contribution; at its second point it adds the second tile's
  contribution over the caches and accumulators left by the first. Each output block is a copy of its accumulator.
-/
import proofs.«419339_j58901181497956_3_alg».proof.Proof.Gen.KernelIdeal.Frame
import Idealize.ShloMosaic.Lib.Pipeline.Value
import Idealize.ShloMosaic.Lib.ValueIdx
import Idealize.ShloMosaic.Lib.Tactic
import proofs.«419339_j58901181497956_3_alg».proof.Proof.KerPay

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

open Cert.KernelIdeal.Body
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The point where the reset is taken -/

/-- The first accumulator: zero, plus the first tile's update computed against the freshly written caches. -/
theorem sA0 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5
      = accPay (BitVec.ofNat 32 (i 1).val) (View.ld x0 (Rect.unit (k0_off1 i) S1x512x768.size (k0_off1_inb i)))
          (View.ld (k0_pay6 x0) (Rect.unit (s := S1024x768) (k0_off2 i) S512x768.size (k0_off2_inb i))) (k0_pay6 x0) x1 x2 x3 x4 x5 (k0_pay8 x0) (k0_pay9 x3) (k0_pay3 (F := F)) := by
  unfold sout0_A_0
  rw [View.read_writes_junk_eq_canon]
  unfold kernelRun0_A
  dsimp only
  sl_unfold_run_names
  rw [View.canon_cons_unit_zero (S := S1x128) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The second accumulator: zero, plus the first tile's anchor count. -/
theorem sA1 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = cntPay x1 x2 (k0_pay4 (F := F)) := by
  unfold sout0_A_1
  rw [View.read_writes_junk_eq_canon]
  unfold kernelRun0_A
  dsimp only
  sl_unfold_run_names
  rw [View.canon_cons_unit_zero (S := S1x128) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The cached copy of the batch. -/
theorem sA2 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay6 x0 := by
  unfold sout0_A_2
  rw [View.read_writes_junk_eq_canon]
  unfold kernelRun0_A
  dsimp only
  sl_unfold_run_names
  rw [View.canon_unit_zero (S := S1024x768) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The cached squared norms of the batch's rows. -/
theorem sA3 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay8 x0 := by
  unfold sout0_A_3
  rw [View.read_writes_junk_eq_canon]
  unfold kernelRun0_A
  dsimp only
  sl_unfold_run_names
  rw [View.canon_unit_zero (S := S1x1024) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The cached squared norms of the centroids. -/
theorem sA4 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    sout0_A_4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay9 x3 := by
  unfold sout0_A_4
  rw [View.read_writes_junk_eq_canon]
  unfold kernelRun0_A
  dsimp only
  sl_unfold_run_names
  rw [View.canon_unit_zero (S := S1x256) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The first output block: the first accumulator, with a unit axis in front. -/
theorem oA6 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    out0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5
      = k0_pay1 (accPay (BitVec.ofNat 32 (i 1).val) (View.ld x0 (Rect.unit (k0_off1 i) S1x512x768.size (k0_off1_inb i)))
          (View.ld (k0_pay6 x0) (Rect.unit (s := S1024x768) (k0_off2 i) S512x768.size (k0_off2_inb i))) (k0_pay6 x0) x1 x2 x3 x4 x5 (k0_pay8 x0) (k0_pay9 x3) (k0_pay3 (F := F))) := by
  unfold out0_A_6
  rw [View.read_writes_junk_eq_canon]
  unfold kernelRun0_A
  dsimp only
  sl_unfold_run_names
  rw [View.canon_unit_zero (S := S1x1x128) hz3]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The second output block: the second accumulator, with a unit axis in front. -/
theorem oA7 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i) (x0 : Vec F S1x1024x768 .f32) (x1 : Vec F S1x512x1 .i32) (x2 : Vec F S1x1x1024 .i32) (x3 : Vec F S256x768 .f32) (x4 : Vec F S1x256 .f32) (x5 : Vec F S1x256 .f32) :
    out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay2 (cntPay x1 x2 (k0_pay4 (F := F))) := by
  unfold out0_A_7
  rw [View.read_writes_junk_eq_canon]
  unfold kernelRun0_A
  dsimp only
  sl_unfold_run_names
  rw [View.canon_unit_zero (S := S1x1x128) hz3]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-! ## The point where the reset is not taken -/

/-- The first accumulator: what the point before left, plus this tile's update against the caches it left. -/
theorem sB0 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : ¬cond0_0 i) (x0 : Vec F S1x1024x768 .f32) (x1 : Vec F S1x512x1 .i32) (x2 : Vec F S1x1x1024 .i32) (x3 : Vec F S256x768 .f32) (x4 : Vec F S1x256 .f32) (x5 : Vec F S1x256 .f32) (xs0 : Vec F S1x128 .f32) (xs1 : Vec F S1x128 .f32) (xs2 : Vec F S1024x768 .bf16) (xs3 : Vec F S1x1024 .f32) (xs4 : Vec F S1x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4
      = accPay (BitVec.ofNat 32 (i 1).val) (View.ld x0 (Rect.unit (k0_off1 i) S1x512x768.size (k0_off1_inb i)))
          (View.ld xs2 (Rect.unit (k0_off2 i) S512x768.size (k0_off2_inb i))) xs2 x1 x2 x3 x4 x5 xs3 xs4 xs0 := by
  unfold sout0_B_0
  rw [View.read_writes_junk_eq_canon]
  unfold kernelRun0_B
  dsimp only
  sl_unfold_run_names
  rw [View.canon_unit_zero (S := S1x128) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The second accumulator: what the point before left, plus this tile's anchor count. -/
theorem sB1 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : ¬cond0_0 i) (x0 : Vec F S1x1024x768 .f32) (x1 : Vec F S1x512x1 .i32) (x2 : Vec F S1x1x1024 .i32) (x3 : Vec F S256x768 .f32) (x4 : Vec F S1x256 .f32) (x5 : Vec F S1x256 .f32) (xs0 : Vec F S1x128 .f32) (xs1 : Vec F S1x128 .f32) (xs2 : Vec F S1024x768 .bf16) (xs3 : Vec F S1x1024 .f32) (xs4 : Vec F S1x256 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4 = cntPay x1 x2 xs1 := by
  unfold sout0_B_1
  rw [View.read_writes_junk_eq_canon]
  unfold kernelRun0_B
  dsimp only
  sl_unfold_run_names
  rw [View.canon_unit_zero (S := S1x128) hz2]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The first output block: the first accumulator, with a unit axis in front. -/
theorem oB6 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : ¬cond0_0 i) (x0 : Vec F S1x1024x768 .f32) (x1 : Vec F S1x512x1 .i32) (x2 : Vec F S1x1x1024 .i32) (x3 : Vec F S256x768 .f32) (x4 : Vec F S1x256 .f32) (x5 : Vec F S1x256 .f32) (xs0 : Vec F S1x128 .f32) (xs1 : Vec F S1x128 .f32) (xs2 : Vec F S1024x768 .bf16) (xs3 : Vec F S1x1024 .f32) (xs4 : Vec F S1x256 .f32) :
    out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4
      = k0_pay1 (accPay (BitVec.ofNat 32 (i 1).val) (View.ld x0 (Rect.unit (k0_off1 i) S1x512x768.size (k0_off1_inb i)))
          (View.ld xs2 (Rect.unit (k0_off2 i) S512x768.size (k0_off2_inb i))) xs2 x1 x2 x3 x4 x5 xs3 xs4 xs0) := by
  unfold out0_B_6
  rw [View.read_writes_junk_eq_canon]
  unfold kernelRun0_B
  dsimp only
  sl_unfold_run_names
  rw [View.canon_unit_zero (S := S1x1x128) hz3]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

/-- The second output block: the second accumulator, with a unit axis in front. -/
theorem oB7 (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : ¬cond0_0 i) (x0 : Vec F S1x1024x768 .f32) (x1 : Vec F S1x512x1 .i32) (x2 : Vec F S1x1x1024 .i32) (x3 : Vec F S256x768 .f32) (x4 : Vec F S1x256 .f32) (x5 : Vec F S1x256 .f32) (xs0 : Vec F S1x128 .f32) (xs1 : Vec F S1x128 .f32) (xs2 : Vec F S1024x768 .bf16) (xs3 : Vec F S1x1024 .f32) (xs4 : Vec F S1x256 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4 = k0_pay2 (cntPay x1 x2 xs1) := by
  unfold out0_B_7
  rw [View.read_writes_junk_eq_canon]
  unfold kernelRun0_B
  dsimp only
  sl_unfold_run_names
  rw [View.canon_unit_zero (S := S1x1x128) hz3]
  simp only [View.readAt_eq_ld, harg2.read_unread, harg3.read_unread, harg4.read_unread, harg5.read_unread, harg6.read_unread, harg7.read_unread, harg10.read_unread, harg11.read_unread, harg12.read_unread, harg13.read_unread, harg14.read_unread,
    View.ld_unit_zero (S := S1x512x1) hz3, View.ld_unit_zero (S := S1x1x1024) hz3, View.ld_unit_zero (S := S256x768) hz2, View.ld_unit_zero (S := S1x256) hz2, View.ld_unit_zero (S := S1x128) hz2, View.ld_unit_zero (S := S1024x768) hz2, View.ld_unit_zero (S := S1x1024) hz2, View.ld_unit_zero (S := S1x1024x768) hz3, View.readCov_unit_zero (S := S1x128) _ hz2, View.readCov_unit_zero (S := S1024x768) _ hz2, View.readCov_unit_zero (S := S1x1024) _ hz2, View.readCov_unit_zero (S := S1x256) _ hz2, View.readCov_cons_toLoadRect, View.read_writes_junk_eq_canon, View.canon_unit_zero (S := S1024x768) hz2, View.canon_unit_zero (S := S1x128) hz2, View.canon_cons_unit_zero (S := S1x128) hz2]
  all_goals rfl

end Cert.KernelIdeal.Pieces

end
-- ==== Proof.KerBody.lean ====
/-
  The arithmetic of one grid point of the kernel, as mathematics. The body's two accumulated stores are composed
  payloads of the point's loads: the query tile `q` (512 rows of the batch), its cached copy `qb`, the whole batch
  `kb`, the label column and row, the centroids, the two per-centroid rows, the cached squared norms `sqk` and
  `csqv`, and the running accumulator. Read at lane `l`, the first adds to the accumulator the tile's sum of anchor
  terms in lane 0 and nothing elsewhere; the second likewise the tile's number of anchors. The three caches the
  first point of a batch writes are the batch itself, its rows' squared norms, and the centroids' squared norms.
-/
import proofs.«419339_j58901181497956_3_alg».proof.Proof.Gen.KernelIdeal.Skeleton
import proofs.«419339_j58901181497956_3_alg».proof.Proof.Tiles
import proofs.«419339_j58901181497956_3_alg».proof.Proof.KerPay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

section Ideal
variable (X : Fin 8 → Fin 1024 → Fin 768 → EReal) (L : Fin 8 → Fin 1024 → BitVec 32)
  (C : Fin 256 → Fin 768 → EReal) (P K : Fin 256 → EReal)

/-! The `tpu.matmul` of record `dot_S1x768_S1024x768_S1x1024_1_1_0_0_n_n`, read at an index: the contraction over the one shared axis. -/

theorem lhs_sqk_0 (i : S1x1024.Idx) (q : dot_S1x768_S1024x768_S1x1024_1_1_0_0_n_n.contr.Idx) :
    (dot_S1x768_S1024x768_S1x1024_1_1_0_0_n_n.lhsIdx i q 0).val = (i 0).val := by
  unfold DotDims.lhsIdx
  rw [dif_neg (show ¬(0 : Fin S1x768.rank) ∈ dot_S1x768_S1024x768_S1x1024_1_1_0_0_n_n.lhsBatch by decide), dif_pos (show (0 : Fin S1x768.rank) ∈ dot_S1x768_S1024x768_S1x1024_1_1_0_0_n_n.lhsNonContracting by decide)]
  rfl
theorem lhs_sqk_1 (i : S1x1024.Idx) (q : dot_S1x768_S1024x768_S1x1024_1_1_0_0_n_n.contr.Idx) :
    (dot_S1x768_S1024x768_S1x1024_1_1_0_0_n_n.lhsIdx i q 1).val = (q ⟨0, by decide⟩).val :=
  dot_S1x768_S1024x768_S1x1024_1_1_0_0_n_n.lhsIdx_val_of_single rfl i q
theorem rhs_sqk_0 (i : S1x1024.Idx) (q : dot_S1x768_S1024x768_S1x1024_1_1_0_0_n_n.contr.Idx) :
    (dot_S1x768_S1024x768_S1x1024_1_1_0_0_n_n.rhsIdx i q 0).val = (i 1).val := by
  unfold DotDims.rhsIdx
  rw [dif_neg (show ¬(0 : Fin S1024x768.rank) ∈ dot_S1x768_S1024x768_S1x1024_1_1_0_0_n_n.rhsBatch by decide), dif_pos (show (0 : Fin S1024x768.rank) ∈ dot_S1x768_S1024x768_S1x1024_1_1_0_0_n_n.rhsNonContracting by decide)]
  rfl
theorem rhs_sqk_1 (i : S1x1024.Idx) (q : dot_S1x768_S1024x768_S1x1024_1_1_0_0_n_n.contr.Idx) :
    (dot_S1x768_S1024x768_S1x1024_1_1_0_0_n_n.rhsIdx i q 1).val = (q ⟨0, by decide⟩).val :=
  dot_S1x768_S1024x768_S1x1024_1_1_0_0_n_n.rhsIdx_val_of_single rfl i q

/-- Into the zero accumulator, the product at `(r, j)` is the sum over the shared axis of row `r` times row `j`. -/
theorem mm_sqk {φ₁ φ₂ : FTy} (prec : Option ContractPrecision) (lhs : FVec Ideal S1x768 φ₁) (rhs : FVec Ideal S1024x768 φ₂)
    (r : Fin 1) (j : Fin 1024) :
    matmul dot_S1x768_S1024x768_S1x1024_1_1_0_0_n_n prec lhs rhs (constant (F := Ideal) S1x1024 .f32 0x00000000#32) (ix2 r j)
      = ∑ k : Fin 768, lhs (ix2 r k) * rhs (ix2 j k) := by
  simp only [matmul]
  rw [Ideal.matmul_constant_zero_apply, ← Equiv.sum_comp (contrEquiv1 dot_S1x768_S1024x768_S1x1024_1_1_0_0_n_n 768 rfl rfl).symm]
  refine Finset.sum_congr rfl fun k _ => ?_
  have hk := contrEquiv1_symm_val dot_S1x768_S1024x768_S1x1024_1_1_0_0_n_n 768 rfl rfl k
  have el : dot_S1x768_S1024x768_S1x1024_1_1_0_0_n_n.lhsIdx (ix2 r j) ((contrEquiv1 dot_S1x768_S1024x768_S1x1024_1_1_0_0_n_n 768 rfl rfl).symm k) = ix2 r k := funext fun a => Fin.ext (by
    match a with
    | ⟨0, _⟩ => exact lhs_sqk_0 _ _
    | ⟨1, _⟩ => exact (lhs_sqk_1 _ _).trans hk)
  have er : dot_S1x768_S1024x768_S1x1024_1_1_0_0_n_n.rhsIdx (ix2 r j) ((contrEquiv1 dot_S1x768_S1024x768_S1x1024_1_1_0_0_n_n 768 rfl rfl).symm k) = ix2 j k := funext fun a => Fin.ext (by
    match a with
    | ⟨0, _⟩ => exact rhs_sqk_0 _ _
    | ⟨1, _⟩ => exact (rhs_sqk_1 _ _).trans hk)
  rw [el, er]

/-! The `tpu.matmul` of record `dot_S1x768_S256x768_S1x256_1_1_0_0_n_n`, read at an index: the contraction over the one shared axis. -/

theorem lhs_csq_0 (i : S1x256.Idx) (q : dot_S1x768_S256x768_S1x256_1_1_0_0_n_n.contr.Idx) :
    (dot_S1x768_S256x768_S1x256_1_1_0_0_n_n.lhsIdx i q 0).val = (i 0).val := by
  unfold DotDims.lhsIdx
  rw [dif_neg (show ¬(0 : Fin S1x768.rank) ∈ dot_S1x768_S256x768_S1x256_1_1_0_0_n_n.lhsBatch by decide), dif_pos (show (0 : Fin S1x768.rank) ∈ dot_S1x768_S256x768_S1x256_1_1_0_0_n_n.lhsNonContracting by decide)]
  rfl
theorem lhs_csq_1 (i : S1x256.Idx) (q : dot_S1x768_S256x768_S1x256_1_1_0_0_n_n.contr.Idx) :
    (dot_S1x768_S256x768_S1x256_1_1_0_0_n_n.lhsIdx i q 1).val = (q ⟨0, by decide⟩).val :=
  dot_S1x768_S256x768_S1x256_1_1_0_0_n_n.lhsIdx_val_of_single rfl i q
theorem rhs_csq_0 (i : S1x256.Idx) (q : dot_S1x768_S256x768_S1x256_1_1_0_0_n_n.contr.Idx) :
    (dot_S1x768_S256x768_S1x256_1_1_0_0_n_n.rhsIdx i q 0).val = (i 1).val := by
  unfold DotDims.rhsIdx
  rw [dif_neg (show ¬(0 : Fin S256x768.rank) ∈ dot_S1x768_S256x768_S1x256_1_1_0_0_n_n.rhsBatch by decide), dif_pos (show (0 : Fin S256x768.rank) ∈ dot_S1x768_S256x768_S1x256_1_1_0_0_n_n.rhsNonContracting by decide)]
  rfl
theorem rhs_csq_1 (i : S1x256.Idx) (q : dot_S1x768_S256x768_S1x256_1_1_0_0_n_n.contr.Idx) :
    (dot_S1x768_S256x768_S1x256_1_1_0_0_n_n.rhsIdx i q 1).val = (q ⟨0, by decide⟩).val :=
  dot_S1x768_S256x768_S1x256_1_1_0_0_n_n.rhsIdx_val_of_single rfl i q

/-- Into the zero accumulator, the product at `(r, j)` is the sum over the shared axis of row `r` times row `j`. -/
theorem mm_csq {φ₁ φ₂ : FTy} (prec : Option ContractPrecision) (lhs : FVec Ideal S1x768 φ₁) (rhs : FVec Ideal S256x768 φ₂)
    (r : Fin 1) (j : Fin 256) :
    matmul dot_S1x768_S256x768_S1x256_1_1_0_0_n_n prec lhs rhs (constant (F := Ideal) S1x256 .f32 0x00000000#32) (ix2 r j)
      = ∑ k : Fin 768, lhs (ix2 r k) * rhs (ix2 j k) := by
  simp only [matmul]
  rw [Ideal.matmul_constant_zero_apply, ← Equiv.sum_comp (contrEquiv1 dot_S1x768_S256x768_S1x256_1_1_0_0_n_n 768 rfl rfl).symm]
  refine Finset.sum_congr rfl fun k _ => ?_
  have hk := contrEquiv1_symm_val dot_S1x768_S256x768_S1x256_1_1_0_0_n_n 768 rfl rfl k
  have el : dot_S1x768_S256x768_S1x256_1_1_0_0_n_n.lhsIdx (ix2 r j) ((contrEquiv1 dot_S1x768_S256x768_S1x256_1_1_0_0_n_n 768 rfl rfl).symm k) = ix2 r k := funext fun a => Fin.ext (by
    match a with
    | ⟨0, _⟩ => exact lhs_csq_0 _ _
    | ⟨1, _⟩ => exact (lhs_csq_1 _ _).trans hk)
  have er : dot_S1x768_S256x768_S1x256_1_1_0_0_n_n.rhsIdx (ix2 r j) ((contrEquiv1 dot_S1x768_S256x768_S1x256_1_1_0_0_n_n 768 rfl rfl).symm k) = ix2 j k := funext fun a => Fin.ext (by
    match a with
    | ⟨0, _⟩ => exact rhs_csq_0 _ _
    | ⟨1, _⟩ => exact (rhs_csq_1 _ _).trans hk)
  rw [el, er]

/-! The `tpu.matmul` of record `dot_S512x768_S1024x768_S512x1024_1_1_0_0_n_n`, read at an index: the contraction over the one shared axis. -/

theorem lhs_gram_0 (i : S512x1024.Idx) (q : dot_S512x768_S1024x768_S512x1024_1_1_0_0_n_n.contr.Idx) :
    (dot_S512x768_S1024x768_S512x1024_1_1_0_0_n_n.lhsIdx i q 0).val = (i 0).val := by
  unfold DotDims.lhsIdx
  rw [dif_neg (show ¬(0 : Fin S512x768.rank) ∈ dot_S512x768_S1024x768_S512x1024_1_1_0_0_n_n.lhsBatch by decide), dif_pos (show (0 : Fin S512x768.rank) ∈ dot_S512x768_S1024x768_S512x1024_1_1_0_0_n_n.lhsNonContracting by decide)]
  rfl
theorem lhs_gram_1 (i : S512x1024.Idx) (q : dot_S512x768_S1024x768_S512x1024_1_1_0_0_n_n.contr.Idx) :
    (dot_S512x768_S1024x768_S512x1024_1_1_0_0_n_n.lhsIdx i q 1).val = (q ⟨0, by decide⟩).val :=
  dot_S512x768_S1024x768_S512x1024_1_1_0_0_n_n.lhsIdx_val_of_single rfl i q
theorem rhs_gram_0 (i : S512x1024.Idx) (q : dot_S512x768_S1024x768_S512x1024_1_1_0_0_n_n.contr.Idx) :
    (dot_S512x768_S1024x768_S512x1024_1_1_0_0_n_n.rhsIdx i q 0).val = (i 1).val := by
  unfold DotDims.rhsIdx
  rw [dif_neg (show ¬(0 : Fin S1024x768.rank) ∈ dot_S512x768_S1024x768_S512x1024_1_1_0_0_n_n.rhsBatch by decide), dif_pos (show (0 : Fin S1024x768.rank) ∈ dot_S512x768_S1024x768_S512x1024_1_1_0_0_n_n.rhsNonContracting by decide)]
  rfl
theorem rhs_gram_1 (i : S512x1024.Idx) (q : dot_S512x768_S1024x768_S512x1024_1_1_0_0_n_n.contr.Idx) :
    (dot_S512x768_S1024x768_S512x1024_1_1_0_0_n_n.rhsIdx i q 1).val = (q ⟨0, by decide⟩).val :=
  dot_S512x768_S1024x768_S512x1024_1_1_0_0_n_n.rhsIdx_val_of_single rfl i q

/-- Into the zero accumulator, the product at `(r, j)` is the sum over the shared axis of row `r` times row `j`. -/
theorem mm_gram {φ₁ φ₂ : FTy} (prec : Option ContractPrecision) (lhs : FVec Ideal S512x768 φ₁) (rhs : FVec Ideal S1024x768 φ₂)
    (r : Fin 512) (j : Fin 1024) :
    matmul dot_S512x768_S1024x768_S512x1024_1_1_0_0_n_n prec lhs rhs (constant (F := Ideal) S512x1024 .f32 0x00000000#32) (ix2 r j)
      = ∑ k : Fin 768, lhs (ix2 r k) * rhs (ix2 j k) := by
  simp only [matmul]
  rw [Ideal.matmul_constant_zero_apply, ← Equiv.sum_comp (contrEquiv1 dot_S512x768_S1024x768_S512x1024_1_1_0_0_n_n 768 rfl rfl).symm]
  refine Finset.sum_congr rfl fun k _ => ?_
  have hk := contrEquiv1_symm_val dot_S512x768_S1024x768_S512x1024_1_1_0_0_n_n 768 rfl rfl k
  have el : dot_S512x768_S1024x768_S512x1024_1_1_0_0_n_n.lhsIdx (ix2 r j) ((contrEquiv1 dot_S512x768_S1024x768_S512x1024_1_1_0_0_n_n 768 rfl rfl).symm k) = ix2 r k := funext fun a => Fin.ext (by
    match a with
    | ⟨0, _⟩ => exact lhs_gram_0 _ _
    | ⟨1, _⟩ => exact (lhs_gram_1 _ _).trans hk)
  have er : dot_S512x768_S1024x768_S512x1024_1_1_0_0_n_n.rhsIdx (ix2 r j) ((contrEquiv1 dot_S512x768_S1024x768_S512x1024_1_1_0_0_n_n 768 rfl rfl).symm k) = ix2 j k := funext fun a => Fin.ext (by
    match a with
    | ⟨0, _⟩ => exact rhs_gram_0 _ _
    | ⟨1, _⟩ => exact (rhs_gram_1 _ _).trans hk)
  rw [el, er]

/-! The `tpu.matmul` of record `dot_S512x768_S256x768_S512x256_1_1_0_0_n_n`, read at an index: the contraction over the one shared axis. -/

theorem lhs_cg_0 (i : S512x256.Idx) (q : dot_S512x768_S256x768_S512x256_1_1_0_0_n_n.contr.Idx) :
    (dot_S512x768_S256x768_S512x256_1_1_0_0_n_n.lhsIdx i q 0).val = (i 0).val := by
  unfold DotDims.lhsIdx
  rw [dif_neg (show ¬(0 : Fin S512x768.rank) ∈ dot_S512x768_S256x768_S512x256_1_1_0_0_n_n.lhsBatch by decide), dif_pos (show (0 : Fin S512x768.rank) ∈ dot_S512x768_S256x768_S512x256_1_1_0_0_n_n.lhsNonContracting by decide)]
  rfl
theorem lhs_cg_1 (i : S512x256.Idx) (q : dot_S512x768_S256x768_S512x256_1_1_0_0_n_n.contr.Idx) :
    (dot_S512x768_S256x768_S512x256_1_1_0_0_n_n.lhsIdx i q 1).val = (q ⟨0, by decide⟩).val :=
  dot_S512x768_S256x768_S512x256_1_1_0_0_n_n.lhsIdx_val_of_single rfl i q
theorem rhs_cg_0 (i : S512x256.Idx) (q : dot_S512x768_S256x768_S512x256_1_1_0_0_n_n.contr.Idx) :
    (dot_S512x768_S256x768_S512x256_1_1_0_0_n_n.rhsIdx i q 0).val = (i 1).val := by
  unfold DotDims.rhsIdx
  rw [dif_neg (show ¬(0 : Fin S256x768.rank) ∈ dot_S512x768_S256x768_S512x256_1_1_0_0_n_n.rhsBatch by decide), dif_pos (show (0 : Fin S256x768.rank) ∈ dot_S512x768_S256x768_S512x256_1_1_0_0_n_n.rhsNonContracting by decide)]
  rfl
theorem rhs_cg_1 (i : S512x256.Idx) (q : dot_S512x768_S256x768_S512x256_1_1_0_0_n_n.contr.Idx) :
    (dot_S512x768_S256x768_S512x256_1_1_0_0_n_n.rhsIdx i q 1).val = (q ⟨0, by decide⟩).val :=
  dot_S512x768_S256x768_S512x256_1_1_0_0_n_n.rhsIdx_val_of_single rfl i q

/-- Into the zero accumulator, the product at `(r, j)` is the sum over the shared axis of row `r` times row `j`. -/
theorem mm_cg {φ₁ φ₂ : FTy} (prec : Option ContractPrecision) (lhs : FVec Ideal S512x768 φ₁) (rhs : FVec Ideal S256x768 φ₂)
    (r : Fin 512) (j : Fin 256) :
    matmul dot_S512x768_S256x768_S512x256_1_1_0_0_n_n prec lhs rhs (constant (F := Ideal) S512x256 .f32 0x00000000#32) (ix2 r j)
      = ∑ k : Fin 768, lhs (ix2 r k) * rhs (ix2 j k) := by
  simp only [matmul]
  rw [Ideal.matmul_constant_zero_apply, ← Equiv.sum_comp (contrEquiv1 dot_S512x768_S256x768_S512x256_1_1_0_0_n_n 768 rfl rfl).symm]
  refine Finset.sum_congr rfl fun k _ => ?_
  have hk := contrEquiv1_symm_val dot_S512x768_S256x768_S512x256_1_1_0_0_n_n 768 rfl rfl k
  have el : dot_S512x768_S256x768_S512x256_1_1_0_0_n_n.lhsIdx (ix2 r j) ((contrEquiv1 dot_S512x768_S256x768_S512x256_1_1_0_0_n_n 768 rfl rfl).symm k) = ix2 r k := funext fun a => Fin.ext (by
    match a with
    | ⟨0, _⟩ => exact lhs_cg_0 _ _
    | ⟨1, _⟩ => exact (lhs_cg_1 _ _).trans hk)
  have er : dot_S512x768_S256x768_S512x256_1_1_0_0_n_n.rhsIdx (ix2 r j) ((contrEquiv1 dot_S512x768_S256x768_S512x256_1_1_0_0_n_n 768 rfl rfl).symm k) = ix2 j k := funext fun a => Fin.ext (by
    match a with
    | ⟨0, _⟩ => exact rhs_cg_0 _ _
    | ⟨1, _⟩ => exact (rhs_cg_1 _ _).trans hk)
  rw [el, er]

/-! ### Layout operations of small shapes, read at an index given by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of an `[n, m]` array, read at row `r`: the sum of the row. -/
theorem sum_axis1 {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction (F := Ideal) .add [1] ⟨1, ![n]⟩ src acc h hφ hacc (ix1 r) = ∑ k : Fin m, src (ix2 r k) := by
  refine (Ideal.multiReduction_add_single src acc h hφ hacc (ix1 r)).trans ?_
  refine Finset.sum_congr rfl fun k _ => congrArg src ?_
  funext a
  apply Fin.ext
  match a with
  | ⟨0, _⟩ => rfl
  | ⟨1, _⟩ => rfl

/-- The sum of a column `[n, 1]` over its rows. -/
theorem sum_axis0_col {n : ℕ} {φ : FTy} (src : FVec Ideal ⟨2, ![n, 1]⟩ φ) (acc : BitVec φ.bits)
    (h : (⟨2, ![n, 1]⟩ : Shape).Reduces [0] ⟨1, ![1]⟩) (hφ : FKind.Formats φ) (hacc : acc = FKind.add.neutral φ hφ) :
    multiReduction (F := Ideal) .add [0] ⟨1, ![1]⟩ src acc h hφ hacc (ix1 (0 : Fin 1)) = ∑ r : Fin n, src (ix2 r (0 : Fin 1)) := by
  refine (Ideal.multiReduction_add_single src acc h hφ hacc (ix1 (0 : Fin 1))).trans ?_
  refine Finset.sum_congr rfl fun k _ => congrArg src ?_
  funext a
  apply Fin.ext
  match a with
  | ⟨0, _⟩ => rfl
  | ⟨1, _⟩ => rfl

/-! ### Bits and words -/

/-- A one-bit word, widened and converted, is the indicator of the bit. -/
theorem sitofp_bit (c : BitVec 1) :
    FloatOps.sitofp (F := Ideal) .f32 (c.setWidth 32) = SupCon.ind (c = 1#1) := by
  rcases BitVec.eq_zero_or_eq_one c with rfl | rfl
  · show (((((0#1).setWidth 32).toInt : ℤ) : ℝ) : EReal) = _
    simp [SupCon.ind]
  · show (((((1#1).setWidth 32).toInt : ℤ) : ℝ) : EReal) = _
    simp [SupCon.ind]

theorem ofBool_eq_one_iff (p : Bool) : BitVec.ofBool p = 1#1 ↔ p = true := by cases p <;> decide

theorem cmpi_eq_one_iff {w : ℕ} (x y : BitVec w) : IntOp.cmpi .eq x y = 1#1 ↔ x = y := by
  show BitVec.ofBool (x == y) = 1#1 ↔ x = y
  rw [ofBool_eq_one_iff]; exact beq_iff_eq

theorem cmpi_sge_zero_one_iff (x : BitVec 32) : IntOp.cmpi .sge x 0#32 = 1#1 ↔ SupCon.valid x := by
  show BitVec.ofBool ((0#32).sle x) = 1#1 ↔ (0#32).sle x = true
  exact ofBool_eq_one_iff _

theorem cmp_ogt_one_iff (x y : EReal) : Ideal.cmp .ogt x y = 1#1 ↔ y < x := by
  show BitVec.ofBool (decide (y < x)) = 1#1 ↔ y < x
  rw [ofBool_eq_one_iff]; exact decide_eq_true_iff

theorem andi_one_iff (a c : BitVec 1) : IntOp.andi a c = 1#1 ↔ a = 1#1 ∧ c = 1#1 := by
  unfold IntOp.andi
  revert a c; decide

/-- The diagonal test: row `r` of tile `qi` against column `j`, as 32-bit words. -/
theorem diag_iff (qi : Fin 2) (r : Fin 512) (j : Fin 1024) :
    IntOp.cmpi .eq (IntOp.addi (BitVec.ofNat 32 r.val) (Scalar.muli (BitVec.ofNat 32 qi.val) 512#32)) (BitVec.ofNat 32 j.val) = 1#1
      ↔ SupCon.row qi r = j := by
  rw [cmpi_eq_one_iff]
  have hr := r.isLt; have hj := j.isLt; have hq := qi.isLt
  unfold IntOp.addi Scalar.muli IntOp.muli SupCon.row
  constructor
  · intro h
    have h' := congrArg BitVec.toNat h
    simp only [BitVec.toNat_add, BitVec.toNat_mul, BitVec.toNat_ofNat] at h'
    apply Fin.ext
    simp only []
    omega
  · intro h
    have h' := congrArg Fin.val h
    simp only [] at h'
    apply BitVec.eq_of_toNat_eq
    simp only [BitVec.toNat_add, BitVec.toNat_mul, BitVec.toNat_ofNat]
    omega

theorem lane0_iff (l : Fin 128) : IntOp.cmpi .eq (BitVec.ofNat 32 l.val) 0#32 = 1#1 ↔ l.val = 0 := by
  rw [cmpi_eq_one_iff]
  have hl := l.isLt
  constructor
  · intro h
    have h' := congrArg BitVec.toNat h
    simp only [BitVec.toNat_ofNat] at h'
    omega
  · intro h
    rw [h]

/-! ### More operations read at an index (definitional) -/

section Apply
variable {s : Shape} {w : ℕ} {φ : FTy}
theorem cmpi_apply (p : CmpIPredicate) (x y : IVec s w) (i : s.Idx) : cmpi p x y i = IntOp.cmpi p (x i) (y i) := rfl
theorem addi_apply (x y : IVec s w) (i : s.Idx) : addi x y i = IntOp.addi (x i) (y i) := rfl
theorem andi_apply (x y : IVec s w) (i : s.Idx) : andi x y i = IntOp.andi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem sqrt_apply (a : FVec Ideal s φ) (i : s.Idx) : sqrt a i = Ideal.sqrt (a i) := rfl
theorem exp_apply (a : FVec Ideal s φ) (i : s.Idx) : exp a i = Ideal.exp (a i) := rfl
end Apply

/-! ### The body's reductions and iotas, at their literal shapes -/

theorem sum768 (src : FVec Ideal S512x768 .f32) (r : Fin 512) :
    multiReduction (F := Ideal) .add [1] S512 src 0x00000000#32 reduces_S512x768_S512 (.inl rfl) rfl (ix1 r)
      = ∑ k : Fin 768, src (ix2 r k) :=
  sum_axis1 (n := 512) (m := 768) src _ _ _ _ r

theorem sum1024 (src : FVec Ideal S512x1024 .f32) (r : Fin 512) :
    multiReduction (F := Ideal) .add [1] S512 src 0x00000000#32 reduces_S512x1024_S512 (.inl rfl) rfl (ix1 r)
      = ∑ k : Fin 1024, src (ix2 r k) :=
  sum_axis1 (n := 512) (m := 1024) src _ _ _ _ r

theorem sum256 (src : FVec Ideal S512x256 .f32) (r : Fin 512) :
    multiReduction (F := Ideal) .add [1] S512 src 0x00000000#32 reduces_S512x256_S512 (.inl rfl) rfl (ix1 r)
      = ∑ k : Fin 256, src (ix2 r k) :=
  sum_axis1 (n := 512) (m := 256) src _ _ _ _ r

theorem sumcol (src : FVec Ideal S512x1 .f32) :
    multiReduction (F := Ideal) .add [0] S1 src 0x00000000#32 reduces_S512x1_S1 (.inl rfl) rfl (ix1 (0 : Fin 1))
      = ∑ r : Fin 512, src (ix2 r (0 : Fin 1)) :=
  sum_axis0_col (n := 512) src _ _ _ _

theorem iota_rows (r : Fin 512) (u : Fin 1) :
    iota .tc S512x1 32 [0] iota_S512x1_d0_w32 (ix2 r u) = BitVec.ofNat 32 r.val :=
  iota_single_apply _ _ _ _ _ _
theorem iota_cols1024 (u : Fin 1) (j : Fin 1024) :
    iota .tc S1x1024 32 [1] iota_S1x1024_d1_w32 (ix2 u j) = BitVec.ofNat 32 j.val :=
  iota_single_apply _ _ _ _ _ _
theorem iota_cols256 (u : Fin 1) (c : Fin 256) :
    iota .tc S1x256 32 [1] iota_S1x256_d1_w32 (ix2 u c) = BitVec.ofNat 32 c.val :=
  iota_single_apply _ _ _ _ _ _
theorem iota_cols128 (u : Fin 1) (l : Fin 128) :
    iota .tc S1x128 32 [1] iota_S1x128_d1_w32 (ix2 u l) = BitVec.ofNat 32 l.val :=
  iota_single_apply _ _ _ _ _ _

/-- The float word of one is one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The all-ones row reads one everywhere. -/
theorem pay7_apply (i : S1x768.Idx) : k0_pay7 (F := Ideal) i = 1 := by
  unfold k0_pay7
  simp only [broadcast_apply]
  exact ofBits_one

/-- The batch with its leading unit axis dropped. -/
theorem pay5_apply (x0 : Vec Ideal S1x1024x768 .f32) (j : Fin 1024) (d : Fin 768) :
    k0_pay5 (F := Ideal) x0 (ix2 j d) = x0 (ix3 (0 : Fin 1) j d) := by
  unfold k0_pay5
  rw [shapeCast_1ab_ab_apply]

/-- The zero the accumulators are reset to. -/
theorem pay3_apply (l : Fin 128) : k0_pay3 (F := Ideal) (ix2 (0 : Fin 1) l) = 0 := by
  unfold k0_pay3
  simp only [shapeCast_self, broadcast_apply]
  exact Ideal.ofBits_zero_f32
theorem pay4_apply (l : Fin 128) : k0_pay4 (F := Ideal) (ix2 (0 : Fin 1) l) = 0 := by
  unfold k0_pay4
  simp only [shapeCast_self, broadcast_apply]
  exact Ideal.ofBits_zero_f32

/-- The cached copy of the batch is the batch. -/
theorem pay6_apply (b : Fin 8) (x0 : Vec Ideal S1x1024x768 .f32)
    (hx : ∀ (j : Fin 1024) (d : Fin 768), x0 (ix3 (0 : Fin 1) j d) = X b j d) (j : Fin 1024) (d : Fin 768) :
    k0_pay6 (F := Ideal) x0 (ix2 j d) = X b j d := by
  unfold k0_pay6
  simp only [shapeCast_self, truncf_apply]
  rw [pay5_apply, hx]

/-- The cached row of squared norms of the batch's rows. -/
theorem pay8_apply (b : Fin 8) (x0 : Vec Ideal S1x1024x768 .f32)
    (hx : ∀ (j : Fin 1024) (d : Fin 768), x0 (ix3 (0 : Fin 1) j d) = X b j d) (j : Fin 1024) :
    k0_pay8 (F := Ideal) x0 (ix2 (0 : Fin 1) j) = SupCon.sq X b j := by
  unfold k0_pay8
  simp only [shapeCast_self]
  rw [mm_sqk]
  unfold SupCon.sq
  refine Finset.sum_congr rfl fun k _ => ?_
  rw [pay7_apply, one_mul, mulf_apply, pay5_apply, hx]

/-- The cached row of squared norms of the centroids. -/
theorem pay9_apply (ce : Vec Ideal S256x768 .f32)
    (hce : ∀ (c : Fin 256) (d : Fin 768), ce (ix2 c d) = C c d) (c : Fin 256) :
    k0_pay9 (F := Ideal) ce (ix2 (0 : Fin 1) c) = SupCon.csq C c := by
  unfold k0_pay9
  simp only [shapeCast_self]
  rw [mm_csq]
  unfold SupCon.csq
  refine Finset.sum_congr rfl fun k _ => ?_
  rw [pay7_apply, one_mul, mulf_apply, hce]

/-! ### The body's payloads at an index -/

theorem pay10_apply (lc : Vec Ideal S1x512x1 .i32) (r : Fin 512) :
    k0_pay10 (F := Ideal) lc (ix2 r (0 : Fin 1)) = lc (ix3 (0 : Fin 1) r (0 : Fin 1)) := by
  unfold k0_pay10; rw [shapeCast_1ab_ab_apply]

theorem pay11_apply (lr : Vec Ideal S1x1x1024 .i32) (j : Fin 1024) :
    k0_pay11 (F := Ideal) lr (ix2 (0 : Fin 1) j) = lr (ix3 (0 : Fin 1) (0 : Fin 1) j) := by
  unfold k0_pay11; rw [shapeCast_1ab_ab_apply]

theorem pay12_apply (ph : Vec Ideal S1x256 .f32) (i : S1x256.Idx) : k0_pay12 (F := Ideal) ph i = ph i := by
  unfold k0_pay12; rw [shapeCast_self]

theorem pay13_apply (sp : Vec Ideal S1x256 .f32) (i : S1x256.Idx) : k0_pay13 (F := Ideal) sp i = sp i := by
  unfold k0_pay13; rw [shapeCast_self]

theorem pay14_apply (q : Vec Ideal S1x512x768 .f32) (r : Fin 512) :
    k0_pay14 (F := Ideal) q (ix2 r (0 : Fin 1))
      = ∑ d : Fin 768, q (ix3 (0 : Fin 1) r d) * q (ix3 (0 : Fin 1) r d) := by
  unfold k0_pay14
  rw [shapeCast_a_a1_apply, sum768]
  refine Finset.sum_congr rfl fun d _ => ?_
  rw [mulf_apply, shapeCast_1ab_ab_apply]

theorem pay16_apply (qb : Vec Ideal S512x768 .bf16) (kb : Vec Ideal S1024x768 .bf16) (r : Fin 512) (j : Fin 1024) :
    k0_pay16 (F := Ideal) qb kb (ix2 r j) = ∑ k : Fin 768, qb (ix2 r k) * kb (ix2 j k) := by
  unfold k0_pay16; rw [mm_gram]

theorem pay17_apply (q : Vec Ideal S1x512x768 .f32) (sqk : Vec Ideal S1x1024 .f32) (r : Fin 512) (j : Fin 1024) :
    k0_pay17 (F := Ideal) q sqk (ix2 r j) = k0_pay14 (F := Ideal) q (ix2 r (0 : Fin 1)) + sqk (ix2 (0 : Fin 1) j) := by
  unfold k0_pay17
  rw [addf_apply, broadcastTo_a1_ab_apply, broadcastTo_1b_ab_apply]

/-- The kernel's distance: zero on the diagonal, the root of the clamped squared distance off it. -/
theorem pay19_apply (qi : Fin 2) (v26 v29 : FVec Ideal S512x1024 .f32) (cst : Ideal .f32) (r : Fin 512) (j : Fin 1024) :
    k0_pay19 (F := Ideal) (BitVec.ofNat 32 qi.val) v26 v29 cst (ix2 r j)
      = if SupCon.row qi r = j then 0 else Ideal.sqrt (max (v29 (ix2 r j) - cst * v26 (ix2 r j)) 0) := by
  unfold k0_pay19
  simp only [select_apply, cmpi_apply, addi_apply, sqrt_apply, maximumf_apply, subf_apply, mulf_apply, broadcast_apply,
    broadcastTo_a1_ab_apply, broadcastTo_1b_ab_apply]
  rw [iota_rows, iota_cols1024]
  show Scalar.select (IntOp.cmpi .eq (IntOp.addi (BitVec.ofNat 32 r.val) (Scalar.muli (BitVec.ofNat 32 qi.val) 512#32))
      (BitVec.ofNat 32 j.val)) (Ideal.ofBits .f32 0x00000000#32)
      (Ideal.sqrt (max (v29 (ix2 r j) - cst * v26 (ix2 r j)) (Ideal.ofBits .f32 0x00000000#32))) = _
  rw [Ideal.ofBits_zero_f32]
  by_cases h : SupCon.row qi r = j
  · rw [if_pos h, (diag_iff qi r j).mpr h, select_one]
  · rw [if_neg h, eq_zero_of_ne_one (fun hb => h ((diag_iff qi r j).mp hb)), select_zero]

theorem ind_congr {p q : Prop} [Decidable p] [Decidable q] (h : p ↔ q) : SupCon.ind p = SupCon.ind q := by
  unfold SupCon.ind
  by_cases hp : p
  · rw [if_pos hp, if_pos (h.mp hp)]
  · rw [if_neg hp, if_neg (fun hq => hp (h.mpr hq))]

theorem pay15_apply (ce : Vec Ideal S256x768 .f32) (i : S256x768.Idx) : k0_pay15 (F := Ideal) ce i = ce i := rfl

theorem pay20_apply (v13 : IVec S512x1 32) (r : Fin 512) :
    k0_pay20 v13 (ix2 r (0 : Fin 1)) = IntOp.cmpi .sge (v13 (ix2 r (0 : Fin 1))) 0#32 := rfl

/-- The same-label indicator. -/
theorem pay21_apply (v13 : IVec S512x1 32) (v15 : IVec S1x1024 32) (r : Fin 512) (j : Fin 1024) :
    k0_pay21 (F := Ideal) v13 v15 (ix2 r j) = SupCon.ind (v13 (ix2 r (0 : Fin 1)) = v15 (ix2 (0 : Fin 1) j)) := by
  unfold k0_pay21
  simp only [sitofp_apply, extui_apply, cmpi_apply, broadcastTo_a1_ab_apply, broadcastTo_1b_ab_apply]
  rw [sitofp_bit]
  exact ind_congr (cmpi_eq_one_iff _ _)

theorem pay22_apply (v13 : IVec S512x1 32) (v15 : IVec S1x1024 32) (r : Fin 512) :
    k0_pay22 (F := Ideal) v13 v15 (ix2 r (0 : Fin 1)) = ∑ j : Fin 1024, k0_pay21 (F := Ideal) v13 v15 (ix2 r j) := by
  unfold k0_pay22
  rw [shapeCast_a_a1_apply, sum1024]

theorem pay23_apply (a1 : BitVec 32) (v13 : IVec S512x1 32) (v15 : IVec S1x1024 32) (v26 v29 : FVec Ideal S512x1024 .f32)
    (cst : Ideal .f32) (r : Fin 512) :
    k0_pay23 (F := Ideal) a1 v13 v15 v26 v29 cst (ix2 r (0 : Fin 1))
      = ∑ j : Fin 1024, k0_pay19 (F := Ideal) a1 v26 v29 cst (ix2 r j) * k0_pay21 (F := Ideal) v13 v15 (ix2 r j) := by
  unfold k0_pay23
  rw [shapeCast_a_a1_apply, sum1024]
  rfl

theorem pay24_apply (v13 : IVec S512x1 32) (v15 : IVec S1x1024 32) (r : Fin 512) :
    k0_pay24 (F := Ideal) v13 v15 (ix2 r (0 : Fin 1)) = SupCon.w1024 - k0_pay22 (F := Ideal) v13 v15 (ix2 r (0 : Fin 1)) := rfl

theorem pay25_apply (a1 : BitVec 32) (v13 : IVec S512x1 32) (v15 : IVec S1x1024 32) (v26 v29 : FVec Ideal S512x1024 .f32)
    (cst : Ideal .f32) (r : Fin 512) :
    k0_pay25 (F := Ideal) a1 v13 v15 v26 v29 cst (ix2 r (0 : Fin 1))
      = Ideal.div ((∑ j : Fin 1024, k0_pay19 (F := Ideal) a1 v26 v29 cst (ix2 r j))
            - k0_pay23 (F := Ideal) a1 v13 v15 v26 v29 cst (ix2 r (0 : Fin 1)))
          (max (k0_pay24 (F := Ideal) v13 v15 (ix2 r (0 : Fin 1))) SupCon.w1) := by
  unfold k0_pay25
  simp only [divf_apply, subf_apply, maximumf_apply, broadcast_apply, shapeCast_a_a1_apply]
  rw [sum1024]
  rfl

/-- The scaled distance to a centroid. -/
theorem pay18_apply (qb : Vec Ideal S512x768 .bf16) (v17 : FVec Ideal S1x256 .f32) (v21 : Vec Ideal S1x256 .f32)
    (v24 : FVec Ideal S512x1 .f32) (v25 : FVec Ideal S256x768 .bf16) (r : Fin 512) (c : Fin 256) :
    k0_pay18 (F := Ideal) qb v17 v21 v24 v25 (ix2 r c)
      = Ideal.div (Ideal.sqrt (max (v24 (ix2 r (0 : Fin 1)) + v21 (ix2 (0 : Fin 1) c)
            - SupCon.w2 * ∑ k : Fin 768, qb (ix2 r k) * v25 (ix2 c k)) 0)) (v17 (ix2 (0 : Fin 1) c)) := by
  unfold k0_pay18
  simp only [divf_apply, sqrt_apply, maximumf_apply, subf_apply, addf_apply, mulf_apply, broadcast_apply,
    broadcastTo_a1_ab_apply, broadcastTo_1b_ab_apply]
  rw [mm_cg]
  show Ideal.div (Ideal.sqrt (max _ (Ideal.ofBits .f32 0x00000000#32))) _ = _
  rw [Ideal.ofBits_zero_f32]
  rfl

/-- The one-hot row of the clamped label. -/
theorem pay26_apply (v13 : IVec S512x1 32) (r : Fin 512) (c : Fin 256) :
    k0_pay26 (F := Ideal) v13 (ix2 r c) = SupCon.ind (SupCon.clipw (v13 (ix2 r (0 : Fin 1))) = BitVec.ofNat 32 c.val) := by
  unfold k0_pay26
  simp only [sitofp_apply, extui_apply, cmpi_apply, minsi_apply, maxsi_apply, broadcast_apply, broadcastTo_a1_ab_apply,
    broadcastTo_1b_ab_apply]
  rw [iota_cols256, sitofp_bit]
  exact ind_congr (cmpi_eq_one_iff _ _)

theorem pay28_apply (v13 : IVec S512x1 32) (v19 : FVec Ideal S1x256 .f32) (r : Fin 512) (c : Fin 256) :
    k0_pay28 (F := Ideal) v13 v19 (ix2 r c) = k0_pay26 (F := Ideal) v13 (ix2 r c) * v19 (ix2 (0 : Fin 1) c) := by
  unfold k0_pay28
  rw [mulf_apply, broadcastTo_1b_ab_apply]

/-- The anchor indicator. -/
theorem pay29_apply (v62 : IVec S512x1 1) (v73 : FVec Ideal S512x1 .f32) (r : Fin 512) :
    k0_pay29 (F := Ideal) v62 v73 (ix2 r (0 : Fin 1))
      = SupCon.ind (v62 (ix2 r (0 : Fin 1)) = 1#1 ∧ 0 < v73 (ix2 r (0 : Fin 1))) := by
  unfold k0_pay29
  simp only [sitofp_apply, extui_apply, andi_apply, cmpf_apply, broadcast_apply]
  rw [sitofp_bit]
  refine ind_congr ?_
  rw [andi_one_iff]
  show _ ∧ Ideal.cmp .ogt (v73 _) (Ideal.ofBits .f32 0x00000000#32) = 1#1 ↔ _
  rw [cmp_ogt_one_iff, Ideal.ofBits_zero_f32]

/-- The row's loss term from its means. -/
theorem pay27_apply (v13 : IVec S512x1 32) (v47 : FVec Ideal S512x256 .f32) (v62 : IVec S512x1 1)
    (v66 v71 v77 : FVec Ideal S512x1 .f32) (r : Fin 512) :
    k0_pay27 (F := Ideal) v13 v47 v62 v66 v71 v77 (ix2 r (0 : Fin 1))
      = SupCon.total
          (Ideal.div (SupCon.ind (v62 (ix2 r (0 : Fin 1)) = 1#1) * v71 (ix2 r (0 : Fin 1)))
            (max (SupCon.ind (v62 (ix2 r (0 : Fin 1)) = 1#1) * (v66 (ix2 r (0 : Fin 1)) - SupCon.w1)) SupCon.w1))
          (∑ c : Fin 256, v47 (ix2 r c) * k0_pay26 (F := Ideal) v13 (ix2 r c))
          (v77 (ix2 r (0 : Fin 1)))
          (Ideal.div ((∑ c : Fin 256, v47 (ix2 r c)) - ∑ c : Fin 256, v47 (ix2 r c) * k0_pay26 (F := Ideal) v13 (ix2 r c))
            SupCon.w255) := by
  unfold k0_pay27
  simp only [subf_apply, addf_apply, mulf_apply, divf_apply, maximumf_apply, exp_apply, broadcast_apply, sitofp_apply,
    extui_apply, shapeCast_a_a1_apply]
  rw [sum256, sum256, sitofp_bit]
  rfl

/-- The first accumulator's update, lane by lane, over its operands read at an index. -/
theorem pay30_apply (v62 : IVec S512x1 1) (v73 v121 : FVec Ideal S512x1 .f32) (v123 : FVec Ideal S512x256 .f32)
    (acc : Vec Ideal S1x128 .f32) (l : Fin 128) :
    k0_pay30 (F := Ideal) v62 v73 v121 v123 acc (ix2 (0 : Fin 1) l)
      = acc (ix2 (0 : Fin 1) l) + (if l.val = 0 then
          ∑ r : Fin 512, Ideal.div (v121 (ix2 r (0 : Fin 1))) (∑ c : Fin 256, v123 (ix2 r c))
            * k0_pay29 (F := Ideal) v62 v73 (ix2 r (0 : Fin 1)) else 0) := by
  unfold k0_pay30
  simp only [shapeCast_self, addf_apply, select_apply, cmpi_apply, broadcast_apply, broadcastTo_a1_ab_apply,
    shapeCast_a_1a_apply]
  rw [iota_cols128, sumcol]
  simp only [mulf_apply, divf_apply, shapeCast_a_a1_apply]
  show acc _ + Scalar.select (IntOp.cmpi .eq (BitVec.ofNat 32 l.val) 0#32) _ (Ideal.ofBits .f32 0x00000000#32) = _
  rw [Ideal.ofBits_zero_f32]
  by_cases h : l.val = 0
  · rw [if_pos h, (lane0_iff l).mpr h, select_one]
    refine congrArg (acc _ + ·) (Finset.sum_congr rfl fun r _ => ?_)
    rw [sum256]
  · rw [if_neg h, eq_zero_of_ne_one (fun hb => h ((lane0_iff l).mp hb)), select_zero]

/-- The second accumulator's update, lane by lane. -/
theorem pay31_apply (v62 : IVec S512x1 1) (v73 : FVec Ideal S512x1 .f32) (acc : Vec Ideal S1x128 .f32) (l : Fin 128) :
    k0_pay31 (F := Ideal) v62 v73 acc (ix2 (0 : Fin 1) l)
      = acc (ix2 (0 : Fin 1) l) + (if l.val = 0 then
          ∑ r : Fin 512, k0_pay29 (F := Ideal) v62 v73 (ix2 r (0 : Fin 1)) else 0) := by
  unfold k0_pay31
  simp only [shapeCast_self, addf_apply, select_apply, cmpi_apply, broadcast_apply, broadcastTo_a1_ab_apply,
    shapeCast_a_1a_apply]
  rw [iota_cols128, sumcol]
  show acc _ + Scalar.select (IntOp.cmpi .eq (BitVec.ofNat 32 l.val) 0#32) _ (Ideal.ofBits .f32 0x00000000#32) = _
  rw [Ideal.ofBits_zero_f32]
  by_cases h : l.val = 0
  · rw [if_pos h, (lane0_iff l).mpr h, select_one]
  · rw [if_neg h, eq_zero_of_ne_one (fun hb => h ((lane0_iff l).mp hb)), select_zero]

/-! ### One tile's update, over the operands read at an index -/

section Core
variable (b : Fin 8) (qi : Fin 2) (v13 : IVec S512x1 32) (v15 : IVec S1x1024 32)
  (h13 : ∀ r : Fin 512, v13 (ix2 r (0 : Fin 1)) = L b (SupCon.row qi r))
  (h15 : ∀ j : Fin 1024, v15 (ix2 (0 : Fin 1) j) = L b j)
include h13 h15

theorem same_eq (r : Fin 512) (j : Fin 1024) :
    k0_pay21 (F := Ideal) v13 v15 (ix2 r j) = SupCon.sameF L b (SupCon.row qi r) j := by
  rw [pay21_apply, h13, h15]; rfl

theorem cnt_eq (r : Fin 512) :
    k0_pay22 (F := Ideal) v13 v15 (ix2 r (0 : Fin 1)) = SupCon.cntSame L b (SupCon.row qi r) := by
  rw [pay22_apply]
  unfold SupCon.cntSame
  exact Finset.sum_congr rfl fun j _ => same_eq L b qi v13 v15 h13 h15 r j

theorem ncnt_eq (r : Fin 512) :
    k0_pay24 (F := Ideal) v13 v15 (ix2 r (0 : Fin 1)) = SupCon.negCnt L b (SupCon.row qi r) := by
  rw [pay24_apply, cnt_eq L b qi v13 v15 h13 h15]; rfl

omit h15 in
theorem valid_iff (r : Fin 512) :
    k0_pay20 v13 (ix2 r (0 : Fin 1)) = 1#1 ↔ SupCon.valid (L b (SupCon.row qi r)) := by
  rw [pay20_apply, h13]; exact cmpi_sge_zero_one_iff _

theorem anchor_eq (r : Fin 512) :
    k0_pay29 (F := Ideal) (k0_pay20 v13) (k0_pay24 v13 v15) (ix2 r (0 : Fin 1)) = SupCon.anchorK L b (SupCon.row qi r) := by
  rw [pay29_apply, ncnt_eq L b qi v13 v15 h13 h15]
  exact ind_congr (and_congr (valid_iff L b qi v13 h13 r) Iff.rfl)

omit h15 in
theorem onehot_eq (r : Fin 512) (c : Fin 256) :
    k0_pay26 (F := Ideal) v13 (ix2 r c) = SupCon.onehot L b (SupCon.row qi r) c := by
  rw [pay26_apply, h13]; rfl

/-- One tile's update of the anchor count. -/
theorem cnt_core (acc : Vec Ideal S1x128 .f32) (l : Fin 128) :
    k0_pay31 (F := Ideal) (k0_pay20 v13) (k0_pay24 v13 v15) acc (ix2 (0 : Fin 1) l)
      = acc (ix2 (0 : Fin 1) l) + (if l.val = 0 then SupCon.tileN L b qi else 0) := by
  rw [pay31_apply]
  refine congrArg (acc _ + ·) ?_
  by_cases hl : l.val = 0
  · rw [if_pos hl, if_pos hl]
    unfold SupCon.tileN
    exact Finset.sum_congr rfl fun r _ => anchor_eq L b qi v13 v15 h13 h15 r
  · rw [if_neg hl, if_neg hl]

variable (v26 v29 : FVec Ideal S512x1024 .f32) (v47 : FVec Ideal S512x256 .f32) (v19 : FVec Ideal S1x256 .f32)
  (h26 : ∀ (r : Fin 512) (j : Fin 1024), v26 (ix2 r j) = SupCon.gram X b (SupCon.row qi r) j)
  (h29 : ∀ (r : Fin 512) (j : Fin 1024), v29 (ix2 r j) = SupCon.sq X b (SupCon.row qi r) + SupCon.sq X b j)
  (h47 : ∀ (r : Fin 512) (c : Fin 256), v47 (ix2 r c) = SupCon.cdist X C P b (SupCon.row qi r) c)
  (h19 : ∀ c : Fin 256, v19 (ix2 (0 : Fin 1) c) = K c)

omit h13 h15 in
include h26 h29 in
theorem kdist_eq (r : Fin 512) (j : Fin 1024) :
    k0_pay19 (F := Ideal) (BitVec.ofNat 32 qi.val) v26 v29 (FloatOps.ofBits .f32 0x40000000#32) (ix2 r j)
      = SupCon.kdist X b (SupCon.row qi r) j := by
  rw [pay19_apply, h26, h29]; rfl

include h26 h29 in
theorem sumSame_eq (r : Fin 512) :
    k0_pay23 (F := Ideal) (BitVec.ofNat 32 qi.val) v13 v15 v26 v29 (FloatOps.ofBits .f32 0x40000000#32) (ix2 r (0 : Fin 1))
      = SupCon.sumSame X L b (SupCon.row qi r) := by
  rw [pay23_apply]
  unfold SupCon.sumSame
  refine Finset.sum_congr rfl fun j _ => ?_
  rw [kdist_eq X b qi v26 v29 h26 h29, same_eq L b qi v13 v15 h13 h15]

include h26 h29 in
theorem negSup_eq (r : Fin 512) :
    k0_pay25 (F := Ideal) (BitVec.ofNat 32 qi.val) v13 v15 v26 v29 (FloatOps.ofBits .f32 0x40000000#32) (ix2 r (0 : Fin 1))
      = SupCon.negSup X L b (SupCon.row qi r) := by
  rw [pay25_apply, sumSame_eq X L b qi v13 v15 h13 h15 v26 v29 h26 h29, ncnt_eq L b qi v13 v15 h13 h15,
    Finset.sum_congr rfl fun j _ => kdist_eq X b qi v26 v29 h26 h29 r j]
  rfl

include h26 h29 h47 in
theorem total_eq (r : Fin 512) :
    k0_pay27 (F := Ideal) v13 v47 (k0_pay20 v13) (k0_pay22 v13 v15)
        (k0_pay23 (BitVec.ofNat 32 qi.val) v13 v15 v26 v29 (FloatOps.ofBits .f32 0x40000000#32))
        (k0_pay25 (BitVec.ofNat 32 qi.val) v13 v15 v26 v29 (FloatOps.ofBits .f32 0x40000000#32)) (ix2 r (0 : Fin 1))
      = SupCon.total (SupCon.posX X L b (SupCon.row qi r)) (SupCon.posCent X L C P b (SupCon.row qi r))
          (SupCon.negSup X L b (SupCon.row qi r)) (SupCon.negCent X L C P b (SupCon.row qi r)) := by
  have hpc : (∑ c : Fin 256, v47 (ix2 r c) * k0_pay26 (F := Ideal) v13 (ix2 r c))
      = SupCon.posCent X L C P b (SupCon.row qi r) := by
    unfold SupCon.posCent
    exact Finset.sum_congr rfl fun c _ => by rw [h47, onehot_eq L b qi v13 h13]
  have hsc : (∑ c : Fin 256, v47 (ix2 r c)) = SupCon.sumCent X C P b (SupCon.row qi r) := by
    unfold SupCon.sumCent
    exact Finset.sum_congr rfl fun c _ => h47 r c
  have hv : SupCon.ind (k0_pay20 v13 (ix2 r (0 : Fin 1)) = 1#1) = SupCon.validF L b (SupCon.row qi r) :=
    ind_congr (valid_iff L b qi v13 h13 r)
  rw [pay27_apply, hpc, hsc, hv, sumSame_eq X L b qi v13 v15 h13 h15 v26 v29 h26 h29, cnt_eq L b qi v13 v15 h13 h15,
    negSup_eq X L b qi v13 v15 h13 h15 v26 v29 h26 h29]
  rfl

omit h15 in
include h19 in
theorem spk_eq (r : Fin 512) :
    (∑ c : Fin 256, k0_pay28 (F := Ideal) v13 v19 (ix2 r c)) = SupCon.spkSel L K b (SupCon.row qi r) := by
  unfold SupCon.spkSel
  exact Finset.sum_congr rfl fun c _ => by rw [pay28_apply, onehot_eq L b qi v13 h13, h19]

include h26 h29 h47 h19 in
/-- One tile's update of the sums. -/
theorem acc_core (acc : Vec Ideal S1x128 .f32) (l : Fin 128) :
    k0_pay30 (F := Ideal) (k0_pay20 v13) (k0_pay24 v13 v15)
        (k0_pay27 v13 v47 (k0_pay20 v13) (k0_pay22 v13 v15)
          (k0_pay23 (BitVec.ofNat 32 qi.val) v13 v15 v26 v29 (FloatOps.ofBits .f32 0x40000000#32))
          (k0_pay25 (BitVec.ofNat 32 qi.val) v13 v15 v26 v29 (FloatOps.ofBits .f32 0x40000000#32)))
        (k0_pay28 v13 v19) acc (ix2 (0 : Fin 1) l)
      = acc (ix2 (0 : Fin 1) l) + (if l.val = 0 then SupCon.tileS X L C P K b qi else 0) := by
  rw [pay30_apply]
  refine congrArg (acc _ + ·) ?_
  by_cases hl : l.val = 0
  · rw [if_pos hl, if_pos hl]
    unfold SupCon.tileS
    refine Finset.sum_congr rfl fun r _ => ?_
    rw [total_eq X L C P b qi v13 v15 h13 h15 v26 v29 v47 h26 h29 h47, spk_eq L K b qi v13 h13 v19 h19,
      anchor_eq L b qi v13 v15 h13 h15]
    rfl
  · rw [if_neg hl, if_neg hl]

end Core

/-- One tile's update of the sums, lane by lane. -/
theorem accPay_apply (b : Fin 8) (qi : Fin 2)
    (q : Vec Ideal S1x512x768 .f32) (qb : Vec Ideal S512x768 .bf16) (kb : Vec Ideal S1024x768 .bf16)
    (lc : Vec Ideal S1x512x1 .i32) (lr : Vec Ideal S1x1x1024 .i32) (ce : Vec Ideal S256x768 .f32)
    (ph sp : Vec Ideal S1x256 .f32) (sqk : Vec Ideal S1x1024 .f32) (csqv : Vec Ideal S1x256 .f32) (acc : Vec Ideal S1x128 .f32)
    (hq : ∀ (r : Fin 512) (d : Fin 768), q (ix3 (0 : Fin 1) r d) = X b (SupCon.row qi r) d)
    (hqb : ∀ (r : Fin 512) (d : Fin 768), qb (ix2 r d) = X b (SupCon.row qi r) d)
    (hkb : ∀ (j : Fin 1024) (d : Fin 768), kb (ix2 j d) = X b j d)
    (hlc : ∀ r : Fin 512, lc (ix3 (0 : Fin 1) r (0 : Fin 1)) = L b (SupCon.row qi r))
    (hlr : ∀ j : Fin 1024, lr (ix3 (0 : Fin 1) (0 : Fin 1) j) = L b j)
    (hce : ∀ (c : Fin 256) (d : Fin 768), ce (ix2 c d) = C c d)
    (hph : ∀ c : Fin 256, ph (ix2 (0 : Fin 1) c) = P c) (hsp : ∀ c : Fin 256, sp (ix2 (0 : Fin 1) c) = K c)
    (hsqk : ∀ j : Fin 1024, sqk (ix2 (0 : Fin 1) j) = SupCon.sq X b j)
    (hcsq : ∀ c : Fin 256, csqv (ix2 (0 : Fin 1) c) = SupCon.csq C c) (l : Fin 128) :
    accPay (F := Ideal) (BitVec.ofNat 32 qi.val) q qb kb lc lr ce ph sp sqk csqv acc (ix2 (0 : Fin 1) l)
      = acc (ix2 (0 : Fin 1) l) + (if l.val = 0 then SupCon.tileS X L C P K b qi else 0) := by
  have hsq : ∀ r : Fin 512, k0_pay14 (F := Ideal) q (ix2 r (0 : Fin 1)) = SupCon.sq X b (SupCon.row qi r) := fun r => by
    rw [pay14_apply]
    unfold SupCon.sq
    exact Finset.sum_congr rfl fun d _ => by rw [hq]
  unfold accPay
  refine acc_core X L C P K b qi (k0_pay10 lc) (k0_pay11 lr) (fun r => ?_) (fun j => ?_) (k0_pay16 qb kb) (k0_pay17 q sqk)
    (k0_pay18 qb (k0_pay12 ph) csqv (k0_pay14 q) (k0_pay15 ce)) (k0_pay13 sp) (fun r j => ?_) (fun r j => ?_)
    (fun r c => ?_) (fun c => ?_) acc l
  · rw [pay10_apply, hlc]
  · rw [pay11_apply, hlr]
  · rw [pay16_apply]
    unfold SupCon.gram
    exact Finset.sum_congr rfl fun d _ => by rw [hqb, hkb]
  · rw [pay17_apply, hsq, hsqk]
  · rw [pay18_apply, hsq, hcsq, pay12_apply, hph, Finset.sum_congr rfl fun k _ => by rw [hqb, pay15_apply, hce]]
    rfl
  · rw [pay13_apply, hsp]

/-- One tile's update of the anchor count, lane by lane. -/
theorem cntPay_apply (b : Fin 8) (qi : Fin 2)
    (lc : Vec Ideal S1x512x1 .i32) (lr : Vec Ideal S1x1x1024 .i32) (acc : Vec Ideal S1x128 .f32)
    (hlc : ∀ r : Fin 512, lc (ix3 (0 : Fin 1) r (0 : Fin 1)) = L b (SupCon.row qi r))
    (hlr : ∀ j : Fin 1024, lr (ix3 (0 : Fin 1) (0 : Fin 1) j) = L b j) (l : Fin 128) :
    cntPay (F := Ideal) lc lr acc (ix2 (0 : Fin 1) l)
      = acc (ix2 (0 : Fin 1) l) + (if l.val = 0 then SupCon.tileN L b qi else 0) := by
  unfold cntPay
  refine cnt_core L b qi (k0_pay10 lc) (k0_pay11 lr) (fun r => ?_) (fun j => ?_) acc l
  · rw [pay10_apply, hlc]
  · rw [pay11_apply, hlr]

end Ideal

end Cert.KernelIdeal.Body

end
-- ==== Proof.KerCases.lean ====
/-
  One grid point of the kernel, case by case, as values at the ideal instance, over any input blocks that hold what
  the point's blocks hold: batch `b`'s features, tile `qi`'s labels, the batch's labels, the centroids and the two
  per-centroid rows.

  Where the reset is taken, the scratch left is the two accumulators at zero plus the tile's contribution, the cached
  batch, and the two cached rows of squared norms. Where it is not, and the scratch found holds such caches and any
  accumulator lanes, the output blocks left are those lanes plus the tile's contribution in lane 0.
-/
import proofs.«419339_j58901181497956_3_alg».proof.Proof.Gen.KernelIdeal.Frame
import Idealize.ShloMosaic.Lib.Pipeline.Value
import Idealize.ShloMosaic.Lib.ValueIdx
import Idealize.ShloMosaic.Lib.Tactic
import proofs.«419339_j58901181497956_3_alg».proof.Proof.KerBlocks
import proofs.«419339_j58901181497956_3_alg».proof.Proof.KerPieces
import proofs.«419339_j58901181497956_3_alg».proof.Proof.KerBody

set_option maxRecDepth 16384

noncomputable section

namespace Cert.KernelIdeal.Cases

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

open Cert.KernelIdeal.Blocks Cert.KernelIdeal.Body Cert.KernelIdeal.Pieces

variable (X : Fin 8 → Fin 1024 → Fin 768 → EReal) (L : Fin 8 → Fin 1024 → BitVec 32)
  (C : Fin 256 → Fin 768 → EReal) (P K : Fin 256 → EReal)

/-- An output block is its accumulator with a unit axis in front. -/
theorem pay1_apply (v : Vec Ideal S1x128 .f32) (l : Fin 128) :
    k0_pay1 (F := Ideal) v (ix3 (0 : Fin 1) (0 : Fin 1) l) = v (ix2 (0 : Fin 1) l) := by
  unfold k0_pay1
  refine (shapeCast_addUnit_apply ![1, 128] v _ _).trans (congrArg v ?_)
  funext a
  match a with
  | ⟨0, _⟩ => rfl
  | ⟨1, _⟩ => rfl
theorem pay2_apply (v : Vec Ideal S1x128 .f32) (l : Fin 128) :
    k0_pay2 (F := Ideal) v (ix3 (0 : Fin 1) (0 : Fin 1) l) = v (ix2 (0 : Fin 1) l) := by
  unfold k0_pay2
  refine (shapeCast_addUnit_apply ![1, 128] v _ _).trans (congrArg v ?_)
  funext a
  match a with
  | ⟨0, _⟩ => rfl
  | ⟨1, _⟩ => rfl

/-- The point where the reset is taken. -/
theorem caseA (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : cond0_0 i)
    (x0 : Vec Ideal S1x1024x768 .f32) (x1 : Vec Ideal S1x512x1 .i32) (x2 : Vec Ideal S1x1x1024 .i32) (x3 : Vec Ideal S256x768 .f32) (x4 x5 : Vec Ideal S1x256 .f32) (b : Fin 8) (qi : Fin 2)
    (hqi : (i 1).val = qi.val)
    (h0 : ∀ (j : Fin 1024) (d : Fin 768), x0 (ix3 (0 : Fin 1) j d) = X b j d)
    (h1 : ∀ r : Fin 512, x1 (ix3 (0 : Fin 1) r (0 : Fin 1)) = L b (SupCon.row qi r))
    (h2 : ∀ j : Fin 1024, x2 (ix3 (0 : Fin 1) (0 : Fin 1) j) = L b j)
    (h3 : ∀ (k : Fin 256) (d : Fin 768), x3 (ix2 k d) = C k d)
    (h4 : ∀ k : Fin 256, x4 (ix2 (0 : Fin 1) k) = P k) (h5 : ∀ k : Fin 256, x5 (ix2 (0 : Fin 1) k) = K k) :
    (∀ l : Fin 128, sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 (0 : Fin 1) l) = 0 + (if l.val = 0 then SupCon.tileS X L C P K b qi else 0))
    ∧ (∀ l : Fin 128, sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 (0 : Fin 1) l) = 0 + (if l.val = 0 then SupCon.tileN L b qi else 0))
    ∧ (∀ (j : Fin 1024) (d : Fin 768), sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 j d) = X b j d)
    ∧ (∀ j : Fin 1024, sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 (0 : Fin 1) j) = SupCon.sq X b j)
    ∧ (∀ k : Fin 256, sout0_A_4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 (0 : Fin 1) k) = SupCon.csq C k) := by
  have hkb : ∀ (j : Fin 1024) (d : Fin 768), k0_pay6 (F := Ideal) x0 (ix2 j d) = X b j d :=
    fun j d => pay6_apply X b x0 h0 j d
  have hsq : ∀ j : Fin 1024, k0_pay8 (F := Ideal) x0 (ix2 (0 : Fin 1) j) = SupCon.sq X b j := fun j => pay8_apply X b x0 h0 j
  have hcs : ∀ k : Fin 256, k0_pay9 (F := Ideal) x3 (ix2 (0 : Fin 1) k) = SupCon.csq C k := fun k => pay9_apply C x3 h3 k
  have hq' : ∀ (r : Fin 512) (d : Fin 768), (View.ld (Val := Elt Ideal) (S := S1x1024x768) (e' := .f32) x0 (Rect.unit (s := S1x1024x768) (k0_off1 i) S1x512x768.size (k0_off1_inb i))) (ix3 (0 : Fin 1) r d) = X b (SupCon.row qi r) d :=
    fun r d => (ld_rows3 (F := Ideal) i qi hqi x0 r d).trans (h0 _ d)
  have hqb' : ∀ (r : Fin 512) (d : Fin 768), (View.ld (Val := Elt Ideal) (S := S1024x768) (e' := .bf16) (k0_pay6 (F := Ideal) x0) (Rect.unit (s := S1024x768) (k0_off2 i) S512x768.size (k0_off2_inb i))) (ix2 r d) = X b (SupCon.row qi r) d :=
    fun r d => (ld_rows2 (F := Ideal) i qi hqi (k0_pay6 (F := Ideal) x0) r d).trans (hkb _ d)
  refine ⟨fun l => ?_, fun l => ?_, fun j d => ?_, fun j => ?_, fun k => ?_⟩
  · have key := accPay_apply X L C P K b qi (View.ld (Val := Elt Ideal) (S := S1x1024x768) (e' := .f32) x0 (Rect.unit (s := S1x1024x768) (k0_off1 i) S1x512x768.size (k0_off1_inb i))) (View.ld (Val := Elt Ideal) (S := S1024x768) (e' := .bf16) (k0_pay6 (F := Ideal) x0) (Rect.unit (s := S1024x768) (k0_off2 i) S512x768.size (k0_off2_inb i)))
      (k0_pay6 (F := Ideal) x0) x1 x2 x3 x4 x5 (k0_pay8 (F := Ideal) x0) (k0_pay9 (F := Ideal) x3) (k0_pay3 (F := Ideal))
      hq' hqb' hkb h1 h2 h3 h4 h5 hsq hcs l
    have e := congrFun (sA0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) (ix2 (0 : Fin 1) l)
    rw [hqi] at e
    rw [pay3_apply] at key
    exact e.trans key
  · have key := cntPay_apply L b qi x1 x2 (k0_pay4 (F := Ideal)) h1 h2 l
    rw [pay4_apply] at key
    exact (congrFun (sA1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) (ix2 (0 : Fin 1) l)).trans key
  · exact (congrFun (sA2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) (ix2 j d)).trans (hkb j d)
  · exact (congrFun (sA3 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) (ix2 (0 : Fin 1) j)).trans (hsq j)
  · exact (congrFun (sA4 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5) (ix2 (0 : Fin 1) k)).trans (hcs k)

/-- The point where the reset is not taken, over caches and accumulator lanes `a0`, `a1` found. -/
theorem caseB (c : Dev nD) (i : grid0.Coords) (arg2 : Memref sig .tc .vmem S1x1024x768 .f32) (harg2 : arg2.IsWhole) (arg3 : Memref sig .tc .vmem S1x512x1 .i32) (harg3 : arg3.IsWhole) (arg4 : Memref sig .tc .vmem S1x1x1024 .i32) (harg4 : arg4.IsWhole) (arg5 : Memref sig .tc .vmem S256x768 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1x256 .f32) (harg14 : arg14.IsWhole) (hc0 : ¬cond0_0 i)
    (x0 : Vec Ideal S1x1024x768 .f32) (x1 : Vec Ideal S1x512x1 .i32) (x2 : Vec Ideal S1x1x1024 .i32) (x3 : Vec Ideal S256x768 .f32) (x4 x5 : Vec Ideal S1x256 .f32) (xs0 xs1 : Vec Ideal S1x128 .f32) (xs2 : Vec Ideal S1024x768 .bf16) (xs3 : Vec Ideal S1x1024 .f32) (xs4 : Vec Ideal S1x256 .f32) (b : Fin 8) (qi : Fin 2)
    (hqi : (i 1).val = qi.val)
    (h0 : ∀ (j : Fin 1024) (d : Fin 768), x0 (ix3 (0 : Fin 1) j d) = X b j d)
    (h1 : ∀ r : Fin 512, x1 (ix3 (0 : Fin 1) r (0 : Fin 1)) = L b (SupCon.row qi r))
    (h2 : ∀ j : Fin 1024, x2 (ix3 (0 : Fin 1) (0 : Fin 1) j) = L b j)
    (h3 : ∀ (k : Fin 256) (d : Fin 768), x3 (ix2 k d) = C k d)
    (h4 : ∀ k : Fin 256, x4 (ix2 (0 : Fin 1) k) = P k) (h5 : ∀ k : Fin 256, x5 (ix2 (0 : Fin 1) k) = K k)
    (a0 a1 : Fin 128 → EReal)
    (hs0 : ∀ l : Fin 128, xs0 (ix2 (0 : Fin 1) l) = a0 l) (hs1 : ∀ l : Fin 128, xs1 (ix2 (0 : Fin 1) l) = a1 l)
    (hs2 : ∀ (j : Fin 1024) (d : Fin 768), xs2 (ix2 j d) = X b j d)
    (hs3 : ∀ j : Fin 1024, xs3 (ix2 (0 : Fin 1) j) = SupCon.sq X b j)
    (hs4 : ∀ k : Fin 256, xs4 (ix2 (0 : Fin 1) k) = SupCon.csq C k) :
    (∀ l : Fin 128, out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4 (ix3 (0 : Fin 1) (0 : Fin 1) l)
        = a0 l + (if l.val = 0 then SupCon.tileS X L C P K b qi else 0))
    ∧ (∀ l : Fin 128, out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4 (ix3 (0 : Fin 1) (0 : Fin 1) l)
        = a1 l + (if l.val = 0 then SupCon.tileN L b qi else 0)) := by
  have hq' : ∀ (r : Fin 512) (d : Fin 768), (View.ld (Val := Elt Ideal) (S := S1x1024x768) (e' := .f32) x0 (Rect.unit (s := S1x1024x768) (k0_off1 i) S1x512x768.size (k0_off1_inb i))) (ix3 (0 : Fin 1) r d) = X b (SupCon.row qi r) d :=
    fun r d => (ld_rows3 (F := Ideal) i qi hqi x0 r d).trans (h0 _ d)
  have hqb' : ∀ (r : Fin 512) (d : Fin 768), (View.ld (Val := Elt Ideal) (S := S1024x768) (e' := .bf16) xs2 (Rect.unit (s := S1024x768) (k0_off2 i) S512x768.size (k0_off2_inb i))) (ix2 r d) = X b (SupCon.row qi r) d :=
    fun r d => (ld_rows2 (F := Ideal) i qi hqi xs2 r d).trans (hs2 _ d)
  refine ⟨fun l => ?_, fun l => ?_⟩
  · have key := accPay_apply X L C P K b qi (View.ld (Val := Elt Ideal) (S := S1x1024x768) (e' := .f32) x0 (Rect.unit (s := S1x1024x768) (k0_off1 i) S1x512x768.size (k0_off1_inb i))) (View.ld (Val := Elt Ideal) (S := S1024x768) (e' := .bf16) xs2 (Rect.unit (s := S1024x768) (k0_off2 i) S512x768.size (k0_off2_inb i)))
      xs2 x1 x2 x3 x4 x5 xs3 xs4 xs0 hq' hqb' hs2 h1 h2 h3 h4 h5 hs3 hs4 l
    have e := congrFun (oB6 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4) (ix3 (0 : Fin 1) (0 : Fin 1) l)
    rw [pay1_apply, hqi] at e
    rw [hs0 l] at key
    exact e.trans key
  · have key := cntPay_apply L b qi x1 x2 xs1 h1 h2 l
    have e := congrFun (oB7 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1 xs2 xs3 xs4) (ix3 (0 : Fin 1) (0 : Fin 1) l)
    rw [pay2_apply] at e
    rw [hs1 l] at key
    exact e.trans key

end Cert.KernelIdeal.Cases

end
-- ==== Proof.KerTail.lean ====
/-
  After the kernel's grid, the host takes entry (b, 0, 0) of each of the two output arrays, sums over the eight
  batches, and divides the first sum by the larger of the second and one. With the arrays holding each batch's two
  tile contributions in lane 0, that quotient is the loss in the kernel's arrangement: the rows of a batch are the
  rows of its two tiles.
-/
import proofs.«419339_j58901181497956_3_alg».proof.Proof.Gen.KernelIdeal
import proofs.«419339_j58901181497956_3_alg».proof.Proof.Tiles
import Idealize.ShloMosaic.Lib.Pipeline.Value
import Idealize.ShloMosaic.Lib.ValueIdx
import Idealize.ShloMosaic.Lib.ValueLayout
import Idealize.ShloMosaic.Lib.ValueIdxRank1
import Mathlib.Algebra.BigOperators.Group.Finset.Defs
import Mathlib.Algebra.BigOperators.Fin
import Idealize.ShloMosaic.PureOps.Ideal.Laws

noncomputable section

namespace Cert.KernelIdeal.Tail

open Cert.KernelIdeal Cert.KernelIdeal.Facts₀ Cert.KernelIdeal.Facts
open Idealize.ShloMosaic Idealize.ShloMosaic.ValueIdx

/-- The host operations after the grid, as one function of the two output arrays. -/
def tail {F : FTy → Type} [FloatOps F] (a6 a7 : FVec F S8x1x128 .f32) : FVec F S1x1 .f32 :=
  shapeCast S1x1
    (Host.divf
      (Host.reduceAdd (shapeCast S8 (extractStridedSlice S8x1x1 ![0, 0, 0] a6 slices_S8x1x128_S8x1x1_0_0_0) shapeCasts_S8x1x1_S8)
        (constant S_ .f32 0x00000000#32) reducesTo_S8_S_d0 h_S_)
      (maximumf
        (Host.reduceAdd (shapeCast S8 (extractStridedSlice S8x1x1 ![0, 0, 0] a7 slices_S8x1x128_S8x1x1_0_0_0) shapeCasts_S8x1x1_S8)
          (constant S_ .f32 0x00000000#32) reducesTo_S8_S_d0 h_S_)
        (constant S_ .f32 0x3F800000#32)))
    shapeCasts_S_S1x1

/-- The host's sum over the eight batches of the lane-0 entries: slice, reshape to rank one, reduce from the constant zero. -/
theorem sum8_apply (a : FVec Ideal S8x1x128 .f32) (j : S_.Idx) :
    Host.reduceAdd (F := Ideal)
        (shapeCast S8 (extractStridedSlice S8x1x1 ![0, 0, 0] a slices_S8x1x128_S8x1x1_0_0_0) shapeCasts_S8x1x1_S8)
        (constant S_ .f32 0x00000000#32) reducesTo_S8_S_d0 h_S_ j
      = ∑ b : Fin 8, a (ix3 b (0 : Fin 1) (0 : Fin 128)) := by
  have hy : ∀ k : S8.Idx,
      shapeCast S8 (extractStridedSlice S8x1x1 ![0, 0, 0] a slices_S8x1x128_S8x1x1_0_0_0) shapeCasts_S8x1x1_S8 k
        = a (ix3 (k 0) (0 : Fin 1) (0 : Fin 128)) := by
    intro k
    refine (shapeCast_apply _ shapeCasts_S8x1x1_S8 k (ix3 (k 0) (0 : Fin 1) (0 : Fin 1)) ?_).trans ?_
    · rw [Shape.rowMajor_val_three, Shape.rowMajor_val_one]
      simp
    · refine extractStridedSlice_apply _ a slices_S8x1x128_S8x1x1_0_0_0 _ (ix3 (k 0) (0 : Fin 1) (0 : Fin 128)) ?_
      intro c
      match c with
      | ⟨0, _⟩ => simp
      | ⟨1, _⟩ => simp
      | ⟨2, _⟩ => simp
  generalize shapeCast S8 (extractStridedSlice S8x1x1 ![0, 0, 0] a slices_S8x1x128_S8x1x1_0_0_0) shapeCasts_S8x1x1_S8 = y at hy
  simp only [Host.reduceAdd, Ideal.hostReduceAdd_def]
  rw [Ideal.hostReduceAdd_total reducesTo_S8_S_d0 (fun b => b.elim0) y _ j]
  rw [constant_apply, Ideal.ofBits_zero_f32, zero_add]
  refine Fintype.sum_equiv (idxEquiv1 (n := 8)) _ _ fun k => ?_
  exact hy k

/-- The tail at its one index: the batches' lane-0 entries summed, the first sum over the larger of the second and one. -/
theorem tail_apply (a6 a7 : FVec Ideal S8x1x128 .f32) (i : S1x1.Idx) :
    tail (F := Ideal) a6 a7 i
      = Ideal.div (∑ b : Fin 8, a6 (ix3 b (0 : Fin 1) (0 : Fin 128)))
          (max (∑ b : Fin 8, a7 (ix3 b (0 : Fin 1) (0 : Fin 128))) SupCon.w1) := by
  unfold tail
  refine (shapeCast_apply _ shapeCasts_S_S1x1 i ix0 ?_).trans ?_
  · have h0 : (i 0).val < 1 := (i 0).isLt
    have h1 : (i 1).val < 1 := (i 1).isLt
    have hl : (S_.rowMajor ix0).val = 0 := Shape.rowMajorPi_zero _ _
    rw [hl, Shape.rowMajor_val_two]
    show 0 = (i 0).val * 1 + (i 1).val
    omega
  · show Ideal.div _ (max _ _) = _
    rw [sum8_apply, sum8_apply]
    rfl

/-- A sum over a batch's 1024 rows is the sum over the rows of its first tile plus the sum over the rows of its second. -/
theorem sum_rows {M : Type*} [AddCommMonoid M] (f : Fin 1024 → M) :
    ∑ i : Fin 1024, f i = ∑ r : Fin 512, f (SupCon.row 0 r) + ∑ r : Fin 512, f (SupCon.row 1 r) := by
  have h := Fin.sum_univ_add (M := M) (a := 512) (b := 512) f
  have e0 : ∀ r : Fin 512, f (Fin.castAdd 512 r) = f (SupCon.row 0 r) := fun r =>
    congrArg f (Fin.ext (by show r.val = 512 * 0 + r.val; omega))
  have e1 : ∀ r : Fin 512, f (Fin.natAdd 512 r) = f (SupCon.row 1 r) := fun r =>
    congrArg f (Fin.ext (by show 512 + r.val = 512 * 1 + r.val; omega))
  refine h.trans ?_
  rw [Finset.sum_congr rfl fun r _ => e0 r, Finset.sum_congr rfl fun r _ => e1 r]

section
variable (X : Fin 8 → Fin 1024 → Fin 768 → EReal) (L : Fin 8 → Fin 1024 → BitVec 32)
  (C : Fin 256 → Fin 768 → EReal) (P K : Fin 256 → EReal)

/-- The tiles' contributions summed over the batches, in quotient, are the loss in the kernel's arrangement. -/
theorem div_tiles_eq_kerLoss :
    Ideal.div (∑ b : Fin 8, SupCon.accS X L C P K b (0 : Fin 128))
        (max (∑ b : Fin 8, SupCon.accN L b (0 : Fin 128)) SupCon.w1)
      = SupCon.kerLoss X L C P K := by
  have h0 : (0 : Fin 128).val = 0 := rfl
  have hS : ∀ b : Fin 8, SupCon.accS X L C P K b (0 : Fin 128)
      = ∑ i : Fin 1024, SupCon.rowK X L C P K b i * SupCon.anchorK L b i := by
    intro b
    rw [sum_rows]
    unfold SupCon.accS SupCon.tileS
    rw [if_pos h0, if_pos h0, zero_add]
  have hN : ∀ b : Fin 8, SupCon.accN L b (0 : Fin 128) = ∑ i : Fin 1024, SupCon.anchorK L b i := by
    intro b
    rw [sum_rows]
    unfold SupCon.accN SupCon.tileN
    rw [if_pos h0, if_pos h0, zero_add]
  unfold SupCon.kerLoss
  simp only [hS, hN]

/-- So: arrays holding `accS` and `accN` lane by lane give the loss. -/
theorem tail_eq_kerLoss (a6 a7 : FVec Ideal S8x1x128 .f32)
    (h6 : ∀ (b : Fin 8) (l : Fin 128), a6 (ix3 b (0 : Fin 1) l) = SupCon.accS X L C P K b l)
    (h7 : ∀ (b : Fin 8) (l : Fin 128), a7 (ix3 b (0 : Fin 1) l) = SupCon.accN L b l) (i : S1x1.Idx) :
    tail (F := Ideal) a6 a7 i = SupCon.kerLoss X L C P K := by
  rw [tail_apply]
  simp only [h6, h7]
  exact div_tiles_eq_kerLoss X L C P K

end

end Cert.KernelIdeal.Tail

end
-- ==== Proof.Views.lean ====
/-
  The argument arrays of both programs read as functions of their coordinates: features (batch, row, coordinate),
  labels (batch, row), centroids (centroid, coordinate), and the two per-centroid vectors.
-/
import Idealize.ShloMosaic.Lib.ValueIdx

noncomputable section

namespace SupCon

open Idealize.ShloMosaic Idealize.ShloMosaic.ValueIdx

def view3 (a : (⟨3, ![8, 1024, 768]⟩ : Shape).Idx → EReal) : Fin 8 → Fin 1024 → Fin 768 → EReal :=
  fun b i d => a (ix3 b i d)
def viewL (a : (⟨2, ![8, 1024]⟩ : Shape).Idx → BitVec 32) : Fin 8 → Fin 1024 → BitVec 32 :=
  fun b i => a (ix2 b i)
def view2 (a : (⟨2, ![256, 768]⟩ : Shape).Idx → EReal) : Fin 256 → Fin 768 → EReal :=
  fun c d => a (ix2 c d)
def view1 (a : (⟨1, ![256]⟩ : Shape).Idx → EReal) : Fin 256 → EReal :=
  fun c => a (ix1 c)

end SupCon

end
-- ==== Proof.KerValue.lean ====
/-
  The kernel's run, read as values at the ideal instance.

  Grid point `n` works on batch `n / 2` and tile `n % 2`. At an even point the body resets, so the scratch it leaves
  is determined by the point's blocks alone: both accumulators at zero plus the first tile's contribution, the cached
  batch, its rows' squared norms and the centroids' squared norms. At an odd point it adds the second tile's
  contribution over what the even point before left; its two output blocks, which are copies of the accumulators,
  are what is written back (only odd points write back, each to its own batch's block). So entry (b, 0, l) of each
  output array ends at the batch's two contributions in lane 0 and zero elsewhere, and the host's lines after the grid
  turn the two arrays into the loss in the kernel's arrangement.
-/
import proofs.«419339_j58901181497956_3_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run
import proofs.«419339_j58901181497956_3_alg».proof.Proof.KerBlocks
import proofs.«419339_j58901181497956_3_alg».proof.Proof.KerPieces
import proofs.«419339_j58901181497956_3_alg».proof.Proof.KerBody
import proofs.«419339_j58901181497956_3_alg».proof.Proof.KerCases
import proofs.«419339_j58901181497956_3_alg».proof.Proof.KerTail
import proofs.«419339_j58901181497956_3_alg».proof.Proof.Views

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

open Cert.KernelIdeal.Blocks Cert.KernelIdeal.Body Cert.KernelIdeal.Pieces Cert.KernelIdeal.Cases Cert.KernelIdeal.Tail

variable (m : (ℓ : Loc nD τ sig) → Buf (Elt Ideal) ℓ) (ρ : Dev nD → PrngReg) (c : Dev nD)

/-- The argument arrays as functions of their coordinates. -/
abbrev X : Fin 8 → Fin 1024 → Fin 768 → EReal := SupCon.view3 (m ((c : Thread nD τ).loc main_arg0))
abbrev Lb : Fin 8 → Fin 1024 → BitVec 32 := SupCon.viewL (m ((c : Thread nD τ).loc main_arg1))
abbrev Ce : Fin 256 → Fin 768 → EReal := SupCon.view2 (m ((c : Thread nD τ).loc main_arg2))
abbrev Ph : Fin 256 → EReal := SupCon.view1 (m ((c : Thread nD τ).loc main_arg3))
abbrev Sp : Fin 256 → EReal := SupCon.view1 (m ((c : Thread nD τ).loc main_arg4))

/-- The input blocks of a point, each at its literal type. -/
abbrev b0 (t : Fin cfg0.N) : Vec Ideal S1x1024x768 .f32 := iblk m c 0 t
abbrev b1 (t : Fin cfg0.N) : Vec Ideal S1x512x1 .i32 := iblk m c 1 t
abbrev b2 (t : Fin cfg0.N) : Vec Ideal S1x1x1024 .i32 := iblk m c 2 t
abbrev b3 (t : Fin cfg0.N) : Vec Ideal S256x768 .f32 := iblk m c 3 t
abbrev b4 (t : Fin cfg0.N) : Vec Ideal S1x256 .f32 := iblk m c 4 t
abbrev b5 (t : Fin cfg0.N) : Vec Ideal S1x256 .f32 := iblk m c 5 t

theorem hb0 (t : Fin cfg0.N) (j : Fin 1024) (d : Fin 768) : b0 m c t (ix3 (0 : Fin 1) j d) = X m c (bOf t) j d :=
  blk0_apply m c t j d
theorem hb1 (t : Fin cfg0.N) (r : Fin 512) : b1 m c t (ix3 (0 : Fin 1) r (0 : Fin 1)) = Lb m c (bOf t) (SupCon.row (qOf t) r) :=
  blk1_apply m c t r
theorem hb2 (t : Fin cfg0.N) (j : Fin 1024) : b2 m c t (ix3 (0 : Fin 1) (0 : Fin 1) j) = Lb m c (bOf t) j :=
  blk2_apply m c t j
theorem hb3 (t : Fin cfg0.N) (k : Fin 256) (d : Fin 768) : b3 m c t (ix2 k d) = Ce m c k d := blk3_apply m c t k d
theorem hb4 (t : Fin cfg0.N) (k : Fin 256) : b4 m c t (ix2 (0 : Fin 1) k) = Ph m c k := blk4_apply m c t k
theorem hb5 (t : Fin cfg0.N) (k : Fin 256) : b5 m c t (ix2 (0 : Fin 1) k) = Sp m c k := blk5_apply m c t k

/-- The tile coordinate of a point's grid coordinates. -/
theorem hq (t : Fin cfg0.N) : (grid0.coords t 1).val = (qOf t).val := (idx_facts t).2.2.2.2.2.2.2.2.2

/-- A tile's rows of the point's feature block are the tile's rows of the batch. -/
theorem hqrows (t : Fin cfg0.N) (r : Fin 512) (d : Fin 768) :
    View.ld (Val := Elt Ideal) (b0 m c t) (Rect.unit (s := S1x1024x768) (k0_off1 (grid0.coords t)) S1x512x768.size (k0_off1_inb (grid0.coords t))) (ix3 (0 : Fin 1) r d)
      = X m c (bOf t) (SupCon.row (qOf t) r) d :=
  (ld_rows3 (grid0.coords t) (qOf t) (hq t) (b0 m c t) r d).trans (hb0 m c t _ d)

/-- The tile's rows of a cached batch are the tile's rows of the batch. -/
theorem hqbrows (t : Fin cfg0.N) (kb : Vec Ideal S1024x768 .bf16)
    (hkb : ∀ (j : Fin 1024) (d : Fin 768), kb (ix2 j d) = X m c (bOf t) j d) (r : Fin 512) (d : Fin 768) :
    View.ld (Val := Elt Ideal) kb (Rect.unit (s := S1024x768) (k0_off2 (grid0.coords t)) S512x768.size (k0_off2_inb (grid0.coords t))) (ix2 r d)
      = X m c (bOf t) (SupCon.row (qOf t) r) d :=
  (ld_rows2 (grid0.coords t) (qOf t) (hq t) kb r d).trans (hkb _ d)

/-! ## What an even point leaves in the carried scratch -/

theorem even_state (t : Fin cfg0.N) (h0 : t.val % 2 = 0) :
    (∀ l : Fin 128, (outsAt0 m c t.val t.isLt).2.2.1 (ix2 (0 : Fin 1) l)
        = 0 + (if l.val = 0 then SupCon.tileS (X m c) (Lb m c) (Ce m c) (Ph m c) (Sp m c) (bOf t) (qOf t) else 0))
    ∧ (∀ l : Fin 128, (outsAt0 m c t.val t.isLt).2.2.2.1 (ix2 (0 : Fin 1) l)
        = 0 + (if l.val = 0 then SupCon.tileN (Lb m c) (bOf t) (qOf t) else 0))
    ∧ (∀ (j : Fin 1024) (d : Fin 768), (outsAt0 m c t.val t.isLt).2.2.2.2.1 (ix2 j d) = X m c (bOf t) j d)
    ∧ (∀ j : Fin 1024, (outsAt0 m c t.val t.isLt).2.2.2.2.2.1 (ix2 (0 : Fin 1) j) = SupCon.sq (X m c) (bOf t) j)
    ∧ (∀ k : Fin 256, (outsAt0 m c t.val t.isLt).2.2.2.2.2.2 (ix2 (0 : Fin 1) k) = SupCon.csq (Ce m c) k) := by
  rw [outsAt0_A m c t h0]
  dsimp only
  exact caseA (X m c) (Lb m c) (Ce m c) (Ph m c) (Sp m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0)
    (iblk m c 0 t) (iblk m c 1 t) (iblk m c 2 t) (iblk m c 3 t) (iblk m c 4 t) (iblk m c 5 t) (bOf t) (qOf t) (hq t) (hb0 m c t) (hb1 m c t) (hb2 m c t) (hb3 m c t) (hb4 m c t) (hb5 m c t)

/-! ## What an odd point leaves in the two output blocks -/

theorem odd_out (t : Fin cfg0.N) (h1 : ¬t.val % 2 = 0) :
    (∀ l : Fin 128, (outsAt0 m c t.val t.isLt).1 (ix3 (0 : Fin 1) (0 : Fin 1) l) = SupCon.accS (X m c) (Lb m c) (Ce m c) (Ph m c) (Sp m c) (bOf t) l)
    ∧ (∀ l : Fin 128, (outsAt0 m c t.val t.isLt).2.1 (ix3 (0 : Fin 1) (0 : Fin 1) l) = SupCon.accN (Lb m c) (bOf t) l) := by
  have hn' : t.val - 1 < cfg0.N := Nat.lt_of_le_of_lt (Nat.sub_le _ _) t.isLt
  obtain ⟨e1, e2, e3, e4, e5⟩ := even_state m c ⟨t.val - 1, hn'⟩ (by show (t.val - 1) % 2 = 0; omega)
  have hbb : bOf (⟨t.val - 1, hn'⟩ : Fin cfg0.N) = bOf t := Fin.ext (by show (t.val - 1) / 2 = t.val / 2; omega)
  have hq0 : qOf (⟨t.val - 1, hn'⟩ : Fin cfg0.N) = 0 := Fin.ext (by show (t.val - 1) % 2 = 0; omega)
  have hq1 : qOf t = 1 := Fin.ext (by show t.val % 2 = 1; omega)
  rw [hbb, hq0] at e1 e2
  rw [hbb] at e3 e4
  have e1' : ∀ l : Fin 128, (outsAt0 m c (t.val - 1) (Nat.lt_of_le_of_lt (Nat.sub_le _ _) t.isLt)).2.2.1 (ix2 (0 : Fin 1) l)
      = 0 + (if l.val = 0 then SupCon.tileS (X m c) (Lb m c) (Ce m c) (Ph m c) (Sp m c) (bOf t) 0 else 0) := e1
  have e2' : ∀ l : Fin 128, (outsAt0 m c (t.val - 1) (Nat.lt_of_le_of_lt (Nat.sub_le _ _) t.isLt)).2.2.2.1 (ix2 (0 : Fin 1) l)
      = 0 + (if l.val = 0 then SupCon.tileN (Lb m c) (bOf t) 0 else 0) := e2
  have e3' : ∀ (j : Fin 1024) (d : Fin 768), (outsAt0 m c (t.val - 1) (Nat.lt_of_le_of_lt (Nat.sub_le _ _) t.isLt)).2.2.2.2.1 (ix2 j d) = X m c (bOf t) j d := e3
  have e4' : ∀ j : Fin 1024, (outsAt0 m c (t.val - 1) (Nat.lt_of_le_of_lt (Nat.sub_le _ _) t.isLt)).2.2.2.2.2.1 (ix2 (0 : Fin 1) j) = SupCon.sq (X m c) (bOf t) j := e4
  have e5' : ∀ k : Fin 256, (outsAt0 m c (t.val - 1) (Nat.lt_of_le_of_lt (Nat.sub_le _ _) t.isLt)).2.2.2.2.2.2 (ix2 (0 : Fin 1) k) = SupCon.csq (Ce m c) k := e5
  rw [outsAt0_B m c t h1]
  dsimp only
  have key := caseB (X m c) (Lb m c) (Ce m c) (Ph m c) (Sp m c) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h1 ((hcond0_0 t).mp h))
    (iblk m c 0 t) (iblk m c 1 t) (iblk m c 2 t) (iblk m c 3 t) (iblk m c 4 t) (iblk m c 5 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (bOf t) (qOf t) (hq t) (hb0 m c t) (hb1 m c t) (hb2 m c t) (hb3 m c t) (hb4 m c t) (hb5 m c t)
    (fun l => 0 + (if l.val = 0 then SupCon.tileS (X m c) (Lb m c) (Ce m c) (Ph m c) (Sp m c) (bOf t) 0 else 0))
    (fun l => 0 + (if l.val = 0 then SupCon.tileN (Lb m c) (bOf t) 0 else 0)) e1' e2' e3' e4' e5'
  rw [hq1] at key
  exact key

/-! ## The two output arrays after the grid -/

/-- An [8, 1, 128] array holding `A b l` at (b, 0, l). -/
def arrOf (A : Fin 8 → Fin 128 → EReal) : FVec Ideal S8x1x128 .f32 :=
  fun idx => A ⟨(idx 0).val, (idx 0).isLt⟩ ⟨(idx 2).val, (idx 2).isLt⟩

theorem flushed6 (A : Fin 8 → Fin 128 → EReal)
    (hodd : ∀ (t : Fin cfg0.N), ¬t.val % 2 = 0 → ∀ l : Fin 128, (outsAt0 m c t.val t.isLt).1 (ix3 (0 : Fin 1) (0 : Fin 1) l) = A (bOf t) l)
    (t : Fin cfg0.N) (hf : (cfg0.win 6).flush t = true) :
    (dats m 0 c).flushed 6 t = ((cfg0.win 6).blk t).view.read (Elt Ideal) (arrOf A) := by
  have h1 : ¬t.val % 2 = 0 := by have := (flush0_6 t).mp hf; omega
  show (cfg0.win 6).cut (grid0.coords t) ((dats m 0 c).after 6 t) = _
  rw [after0_6]
  funext (y : S1x1x128.Idx)
  show (outsAt0 m c t.val t.isLt).1 y = arrOf A (((cfg0.win 6).blk t).view.emb y)
  obtain ⟨l, rfl⟩ : ∃ l : Fin 128, y = ix3 (0 : Fin 1) (0 : Fin 1) l := ⟨⟨(y 2).val, (y 2).isLt⟩, by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl⟩
  rw [hodd t h1 l]
  unfold arrOf
  congr 1
  · apply Fin.ext
    show t.val / 2 = win0_6.index t 0 * 1 + 1 * 0
    rw [(idx_facts t).2.2.2.2.2.2.1.1]; omega
  · apply Fin.ext
    show l.val = win0_6.index t 2 * 128 + 1 * l.val
    rw [(idx_facts t).2.2.2.2.2.2.1.2.2]; omega

theorem cover6 (i : S8x1x128.Idx) : ∃ t : Fin cfg0.N, (cfg0.win 6).flush t = true ∧ i ∈ ((cfg0.win 6).blk t).view.set := by
  have hN : cfg0.N = 16 := N_0
  have hi0 : (i 0).val < 8 := (i 0).isLt
  have hi1 : (i 1).val < 1 := (i 1).isLt
  have hi2 : (i 2).val < 128 := (i 2).isLt
  refine ⟨⟨2 * (i 0).val + 1, by omega⟩, (flush0_6 _).mpr (by show (2 * (i 0).val + 1) % 2 = 1; omega), ?_⟩
  generalize ht : (⟨2 * (i 0).val + 1, by omega⟩ : Fin cfg0.N) = t
  have htv : t.val = 2 * (i 0).val + 1 := by rw [← ht]
  show i ∈ ((View.whole main_v4_0).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [(idx_facts t).2.2.2.2.2.2.1.1, show win0_6.size 0 = 1 from rfl, show win0_6.xsize (grid0.coords t) 0 = 1 from rfl]; omega
  | ⟨1, _⟩ =>
    show win0_6.index t 1 * win0_6.size 1 ≤ (i 1 : Nat) ∧ (i 1 : Nat) < win0_6.index t 1 * win0_6.size 1 + win0_6.xsize (grid0.coords t) 1
    rw [(idx_facts t).2.2.2.2.2.2.1.2.1, show win0_6.size 1 = 1 from rfl, show win0_6.xsize (grid0.coords t) 1 = 1 from rfl]; omega
  | ⟨2, _⟩ =>
    show win0_6.index t 2 * win0_6.size 2 ≤ (i 2 : Nat) ∧ (i 2 : Nat) < win0_6.index t 2 * win0_6.size 2 + win0_6.xsize (grid0.coords t) 2
    rw [(idx_facts t).2.2.2.2.2.2.1.2.2, show win0_6.size 2 = 128 from rfl, show win0_6.xsize (grid0.coords t) 2 = 128 from rfl]; omega

theorem final6 (A : Fin 8 → Fin 128 → EReal)
    (hodd : ∀ (t : Fin cfg0.N), ¬t.val % 2 = 0 → ∀ l : Fin 128, (outsAt0 m c t.val t.isLt).1 (ix3 (0 : Fin 1) (0 : Fin 1) l) = A (bOf t) l) :
    (dats m 0 c).arrAt 6 cfg0.N = arrOf A :=
  (dats m 0 c).arrAt_eq_of_cover 6 (arrOf A) (flushed6 m c A hodd) cover6

theorem flushed7 (A : Fin 8 → Fin 128 → EReal)
    (hodd : ∀ (t : Fin cfg0.N), ¬t.val % 2 = 0 → ∀ l : Fin 128, (outsAt0 m c t.val t.isLt).2.1 (ix3 (0 : Fin 1) (0 : Fin 1) l) = A (bOf t) l)
    (t : Fin cfg0.N) (hf : (cfg0.win 7).flush t = true) :
    (dats m 0 c).flushed 7 t = ((cfg0.win 7).blk t).view.read (Elt Ideal) (arrOf A) := by
  have h1 : ¬t.val % 2 = 0 := by have := (flush0_7 t).mp hf; omega
  show (cfg0.win 7).cut (grid0.coords t) ((dats m 0 c).after 7 t) = _
  rw [after0_7]
  funext (y : S1x1x128.Idx)
  show (outsAt0 m c t.val t.isLt).2.1 y = arrOf A (((cfg0.win 7).blk t).view.emb y)
  obtain ⟨l, rfl⟩ : ∃ l : Fin 128, y = ix3 (0 : Fin 1) (0 : Fin 1) l := ⟨⟨(y 2).val, (y 2).isLt⟩, by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl⟩
  rw [hodd t h1 l]
  unfold arrOf
  congr 1
  · apply Fin.ext
    show t.val / 2 = win0_7.index t 0 * 1 + 1 * 0
    rw [(idx_facts t).2.2.2.2.2.2.2.1.1]; omega
  · apply Fin.ext
    show l.val = win0_7.index t 2 * 128 + 1 * l.val
    rw [(idx_facts t).2.2.2.2.2.2.2.1.2.2]; omega

theorem cover7 (i : S8x1x128.Idx) : ∃ t : Fin cfg0.N, (cfg0.win 7).flush t = true ∧ i ∈ ((cfg0.win 7).blk t).view.set := by
  have hN : cfg0.N = 16 := N_0
  have hi0 : (i 0).val < 8 := (i 0).isLt
  have hi1 : (i 1).val < 1 := (i 1).isLt
  have hi2 : (i 2).val < 128 := (i 2).isLt
  refine ⟨⟨2 * (i 0).val + 1, by omega⟩, (flush0_7 _).mpr (by show (2 * (i 0).val + 1) % 2 = 1; omega), ?_⟩
  generalize ht : (⟨2 * (i 0).val + 1, by omega⟩ : Fin cfg0.N) = t
  have htv : t.val = 2 * (i 0).val + 1 := by rw [← ht]
  show i ∈ ((View.whole main_v4_1).slice (win0_7.rect t)).set
  rw [View.set_slice_whole, Rect.mem_set_unit]
  intro a
  match a with
  | ⟨0, _⟩ =>
    show win0_7.index t 0 * win0_7.size 0 ≤ (i 0 : Nat) ∧ (i 0 : Nat) < win0_7.index t 0 * win0_7.size 0 + win0_7.xsize (grid0.coords t) 0
    rw [(idx_facts t).2.2.2.2.2.2.2.1.1, show win0_7.size 0 = 1 from rfl, show win0_7.xsize (grid0.coords t) 0 = 1 from rfl]; omega
  | ⟨1, _⟩ =>
    show win0_7.index t 1 * win0_7.size 1 ≤ (i 1 : Nat) ∧ (i 1 : Nat) < win0_7.index t 1 * win0_7.size 1 + win0_7.xsize (grid0.coords t) 1
    rw [(idx_facts t).2.2.2.2.2.2.2.1.2.1, show win0_7.size 1 = 1 from rfl, show win0_7.xsize (grid0.coords t) 1 = 1 from rfl]; omega
  | ⟨2, _⟩ =>
    show win0_7.index t 2 * win0_7.size 2 ≤ (i 2 : Nat) ∧ (i 2 : Nat) < win0_7.index t 2 * win0_7.size 2 + win0_7.xsize (grid0.coords t) 2
    rw [(idx_facts t).2.2.2.2.2.2.2.1.2.2, show win0_7.size 2 = 128 from rfl, show win0_7.xsize (grid0.coords t) 2 = 128 from rfl]; omega

theorem final7 (A : Fin 8 → Fin 128 → EReal)
    (hodd : ∀ (t : Fin cfg0.N), ¬t.val % 2 = 0 → ∀ l : Fin 128, (outsAt0 m c t.val t.isLt).2.1 (ix3 (0 : Fin 1) (0 : Fin 1) l) = A (bOf t) l) :
    (dats m 0 c).arrAt 7 cfg0.N = arrOf A :=
  (dats m 0 c).arrAt_eq_of_cover 7 (arrOf A) (flushed7 m c A hodd) cover7

/-- The first output array ends at each batch's two tile sums in lane 0, -/
theorem arr6 : (dats m 0 c).arrAt 6 cfg0.N = arrOf (SupCon.accS (X m c) (Lb m c) (Ce m c) (Ph m c) (Sp m c)) :=
  final6 m c _ (fun t h1 => (odd_out m c t h1).1)
/-- and the second at each batch's two anchor counts. -/
theorem arr7 : (dats m 0 c).arrAt 7 cfg0.N = arrOf (SupCon.accN (Lb m c)) :=
  final7 m c _ (fun t h1 => (odd_out m c t h1).2)

/-! ## The host's lines after the grid, and the run -/

/-- The result buffer after the host's last lines is the tail function of the two output arrays. -/
theorem tail13 (A6 A7 : FVec Ideal S8x1x128 .f32) (h6 : (dats m 0 c).arrAt 6 cfg0.N = A6) (h7 : (dats m 0 c).arrAt 7 cfg0.N = A7) :
    Pipeline.afterTail₀ cfgs (dats m) 0 (V0 m) [hostOps1] c main_v13 = tail (F := Ideal) A6 A7 := by
  unfold Pipeline.afterTail₀
  show StableHlo.after hostOps1 _ (Proc.devRef .tc main_v13) = _
  after_results
  have e6 : Pipeline.withArrays (cfgs 0).spec c (V0 m c) (fun w => (dats m 0 c).arrAt w (cfgs 0).N) (Proc.tc.devRef main_v4_0) = A6 :=
    (Pipeline.withArrays_arr spec0 launch0.win.arr_inj c (V0 m c) (fun w => (dats m 0 c).arrAt w (cfgs 0).N) 6).trans h6
  have e7 : Pipeline.withArrays (cfgs 0).spec c (V0 m c) (fun w => (dats m 0 c).arrAt w (cfgs 0).N) (Proc.tc.devRef main_v4_1) = A7 :=
    (Pipeline.withArrays_arr spec0 launch0.win.arr_inj c (V0 m c) (fun w => (dats m 0 c).arrAt w (cfgs 0).N) 7).trans h7
  rw [e6, e7]
  rfl

/-- The loss in the kernel's arrangement, of the launch contents of the argument arrays. -/
abbrev loss : EReal := SupCon.kerLoss (X m c) (Lb m c) (Ce m c) (Ph m c) (Sp m c)

/-- The result buffer after the run holds the loss at its one entry. -/
theorem result_eq (i : S1x1.Idx) :
    Pipeline.afterTail₀ cfgs (dats m) 0 (V0 m) [hostOps1] c main_v13 i = loss m c := by
  rw [tail13 m c _ _ (arr6 m c) (arr7 m c)]
  exact tail_eq_kerLoss (X m c) (Lb m c) (Ce m c) (Ph m c) (Sp m c) _ _ (fun b l => rfl) (fun b l => rfl) i

/-- Every weakly fair execution of the idealized kernel terminates with its result at the loss in the kernel's
    arrangement and its arguments unchanged. -/
theorem run : θ_run defs (onTc (τ := τ) (main (F := Ideal))) ⟨m, fun _ => 0, ρ⟩ (fun r => ∀ c : Dev nD,
      r.2.mem ((c.tc : Thread nD τ).loc main_v13) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v13 (Pipeline.mem_restRefs_of main_v13 (by decide) (by decide))).trans (funext fun i => result_eq m c i),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Val

end
-- ==== Proof.RefDist.lean ====
/-
  The reference's distances and masks, stage by stage at an index: the scaled centroid distances, the count and
  mean of the negatives, the mean of the positives, and the validity bit, each as the quantity Spec.lean names.
-/
import proofs.«419339_j58901181497956_3_alg».proof.Proof.RefRead
import proofs.«419339_j58901181497956_3_alg».proof.Proof.Spec
import proofs.«419339_j58901181497956_3_alg».proof.Proof.Views

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open SupCon (view3 viewL view2 view1)

/-! ### Words and bits at one element -/

/-- A select on a decided proposition's bit is the `if`. -/
theorem select_ofBool_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The guarded root as the program spells it: both selects on the bit of `0 < x`. -/
theorem select_sqrt_select (x : EReal) :
    Scalar.select (BitVec.ofBool (decide (0 < x)))
        (Ideal.sqrt (Scalar.select (BitVec.ofBool (decide (0 < x))) x SupCon.w1)) (0 : EReal) = SupCon.safeSqrt x := by
  rw [select_ofBool_decide, select_ofBool_decide]; rfl

/-- A one-bit word read as a float is the indicator of the proposition the bit encodes. -/
theorem uitofp_bit_ind (c : BitVec 1) (P : Prop) [Decidable P] (h : c = 1#1 ↔ P) :
    FloatOps.uitofp (F := Ideal) .f32 c = SupCon.ind P := by
  unfold SupCon.ind
  by_cases hP : P
  · rw [if_pos hP, h.mpr hP]
    show (((1#1 : BitVec 1).toNat : ℝ) : EReal) = 1
    simp
  · have hc : c = 0#1 := eq_zero_of_ne_one fun hc => hP (h.mp hc)
    rw [if_neg hP, hc]
    show (((0#1 : BitVec 1).toNat : ℝ) : EReal) = 0
    simp

/-- The complement of a Boolean's bit is set exactly when the Boolean is false. -/
theorem not_ofBool_eq_one (p : Bool) : (~~~ BitVec.ofBool p = 1#1) ↔ p = false := by cases p <;> decide

/-- "same label, off the diagonal, valid" as one bit. -/
theorem and_not_and_eq_one (p q r : Bool) :
    (IntOp.andi (IntOp.andi (BitVec.ofBool p) (~~~ BitVec.ofBool q)) (BitVec.ofBool r) = 1#1)
      ↔ ((p = true ∧ ¬ q = true) ∧ r = true) := by
  cases p <;> cases q <;> cases r <;> decide

/-- Row numbers below 1024 are distinct as 32-bit words. -/
theorem ofNat_eq_ofNat_iff (i j : Fin 1024) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The identity mask's bit: `iota + 0 == iota` says "same row number". -/
theorem iota_beq (i j : Fin 1024) :
    IntOp.cmpi .eq (IntOp.addi (BitVec.ofNat 32 i.val) 0#32) (BitVec.ofNat 32 j.val) = BitVec.ofBool (decide (i = j)) := by
  show BitVec.ofBool (BitVec.ofNat 32 i.val + 0#32 == BitVec.ofNat 32 j.val) = _
  rw [BitVec.add_zero]
  congr 1
  by_cases h : i = j
  · subst h; simp
  · rw [decide_eq_false h]
    exact beq_false_of_ne fun hh => h ((ofNat_eq_ofNat_iff i j).mp hh)

/-! ### Indices by their coordinates -/

/-- Two indices of rank 3, 2, 1 agree when their coordinates do. -/
local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S8x1024x768, .f32⟩ : BufTy).Contents (Elt Ideal)) (x1 : (⟨S8x1024, .i32⟩ : BufTy).Contents (Elt Ideal))
  (x2 : (⟨S256x768, .f32⟩ : BufTy).Contents (Elt Ideal)) (x3 x4 : (⟨S256, .f32⟩ : BufTy).Contents (Elt Ideal))

/-! ### Squared norms, Gram entries, squared distances between rows and their guarded roots -/

theorem v1_apply (b : Fin 8) (i : Fin 1024) :
    val_main_v1 (F := Ideal) x0 (ix2 b i) = SupCon.sq (view3 x0) b i := by
  rw [val_main_v1_apply, val_main_cst_apply]
  simp only [Ideal.ofBits_def, Ideal.ofBits_zero_f32, zero_add]
  unfold SupCon.sq
  refine Finset.sum_congr rfl fun k _ => ?_
  rw [val_main_v0_apply, Ideal.mulf_def, show idx_main_v1 (ix2 b i) k = ix3 b i k by idx3]
  rfl

theorem v2_apply (b : Fin 8) (i j : Fin 1024) :
    val_main_v2 (F := Ideal) x0 (ix3 b i j) = SupCon.gram (view3 x0) b i j := by
  rw [val_main_v2_apply]
  unfold SupCon.gram
  refine Finset.sum_congr rfl fun k _ => ?_
  rw [show lidx_main_v2 (ix3 b i j) k = ix3 b i k by idx3, show ridx_main_v2 (ix3 b i j) k = ix3 b j k by idx3]
  rfl

theorem v5_apply (b : Fin 8) (i j : Fin 1024) :
    val_main_v5 (F := Ideal) x0 (ix3 b i j) = SupCon.sq (view3 x0) b i := by
  rw [val_main_v5_apply, val_main_v3_apply, show idx_main_v3 (idx_main_v5 (ix3 b i j)) = ix2 b i by idx2, v1_apply]

theorem v6_apply (b : Fin 8) (i j : Fin 1024) :
    val_main_v6 (F := Ideal) x0 (ix3 b i j) = SupCon.sq (view3 x0) b j := by
  rw [val_main_v6_apply, val_main_v4_apply, show idx_main_v4 (idx_main_v6 (ix3 b i j)) = ix2 b j by idx2, v1_apply]

theorem v12_apply (b : Fin 8) (i j : Fin 1024) :
    val_main_v12 (F := Ideal) x0 (ix3 b i j) = SupCon.d2 (view3 x0) b i j := by
  rw [val_main_v12_apply, val_main_v10_apply, val_main_v7_apply, val_main_v9_apply, v5_apply, v6_apply, v2_apply,
    val_main_v8_apply, val_main_cst_0_apply, val_main_v11_apply, val_main_cst_1_apply]
  simp only [Ideal.maximumf_def, Ideal.subf_def, Ideal.addf_def, Ideal.mulf_def, Ideal.ofBits_def, Ideal.ofBits_zero_f32]
  rfl

theorem v14_apply (b : Fin 8) (i j : Fin 1024) :
    val_main_v14 (F := Ideal) x0 (ix3 b i j) = BitVec.ofBool (decide (0 < SupCon.d2 (view3 x0) b i j)) := by
  rw [val_main_v14_apply, v12_apply, val_main_v13_apply, val_main_cst_2_apply]
  simp only [Ideal.cmpf_def, Ideal.ofBits_def, Ideal.ofBits_zero_f32]
  rfl

theorem v17_apply (b : Fin 8) (i j : Fin 1024) :
    val_main_v17 (F := Ideal) x0 (ix3 b i j) = SupCon.safeSqrt (SupCon.d2 (view3 x0) b i j) := by
  rw [val_main_v17_apply, val_main_v16_apply, val_main_v15_apply, v14_apply, v12_apply,
    val_main_call0_v1_apply, val_main_call0_v0_apply, val_main_cst_3_apply,
    val_main_call1_v1_apply, val_main_call1_v0_apply, val_main_cst_4_apply]
  simp only [Ideal.hostUnary_sqrt_def, Ideal.ofBits_def, Ideal.ofBits_zero_f32]
  exact select_sqrt_select _

/-! ### The same against the centroids, over the per-centroid scale -/

theorem v19_apply (c : Fin 256) :
    val_main_v19 (F := Ideal) x2 (ix1 c) = SupCon.csq (view2 x2) c := by
  rw [val_main_v19_apply, val_main_cst_5_apply]
  simp only [Ideal.ofBits_def, Ideal.ofBits_zero_f32, zero_add]
  unfold SupCon.csq
  refine Finset.sum_congr rfl fun k _ => ?_
  rw [val_main_v18_apply, Ideal.mulf_def, show idx_main_v19 (ix1 c) k = ix2 c k by idx2]
  rfl

theorem v20_apply (b : Fin 8) (i : Fin 1024) (c : Fin 256) :
    val_main_v20 (F := Ideal) x0 x2 (ix3 b i c) = SupCon.cg (view3 x0) (view2 x2) b i c := by
  rw [val_main_v20_apply]
  unfold SupCon.cg
  refine Finset.sum_congr rfl fun k _ => ?_
  rw [show lidx_main_v20 (ix3 b i c) k = ix3 b i k by idx3, show ridx_main_v20 (ix3 b i c) k = ix2 c k by idx2]
  rfl

theorem v23_apply (b : Fin 8) (i : Fin 1024) (c : Fin 256) :
    val_main_v23 (F := Ideal) x0 (ix3 b i c) = SupCon.sq (view3 x0) b i := by
  rw [val_main_v23_apply, val_main_v21_apply, show idx_main_v21 (idx_main_v23 (ix3 b i c)) = ix2 b i by idx2, v1_apply]

theorem v24_apply (b : Fin 8) (i : Fin 1024) (c : Fin 256) :
    val_main_v24 (F := Ideal) x2 (ix3 b i c) = SupCon.csq (view2 x2) c := by
  rw [val_main_v24_apply, val_main_v22_apply, show idx_main_v22 (idx_main_v24 (ix3 b i c)) = ix1 c by idx1, v19_apply]

theorem v30_apply (b : Fin 8) (i : Fin 1024) (c : Fin 256) :
    val_main_v30 (F := Ideal) x0 x2 (ix3 b i c) = SupCon.cd2 (view3 x0) (view2 x2) b i c := by
  rw [val_main_v30_apply, val_main_v28_apply, val_main_v25_apply, val_main_v27_apply, v23_apply, v24_apply, v20_apply,
    val_main_v26_apply, val_main_cst_6_apply, val_main_v29_apply, val_main_cst_7_apply]
  simp only [Ideal.maximumf_def, Ideal.subf_def, Ideal.addf_def, Ideal.mulf_def, Ideal.ofBits_def, Ideal.ofBits_zero_f32]
  rfl

theorem v32_apply (b : Fin 8) (i : Fin 1024) (c : Fin 256) :
    val_main_v32 (F := Ideal) x0 x2 (ix3 b i c)
      = BitVec.ofBool (decide (0 < SupCon.cd2 (view3 x0) (view2 x2) b i c)) := by
  rw [val_main_v32_apply, v30_apply, val_main_v31_apply, val_main_cst_8_apply]
  simp only [Ideal.cmpf_def, Ideal.ofBits_def, Ideal.ofBits_zero_f32]
  rfl

theorem v35_apply (b : Fin 8) (i : Fin 1024) (c : Fin 256) :
    val_main_v35 (F := Ideal) x0 x2 (ix3 b i c) = SupCon.safeSqrt (SupCon.cd2 (view3 x0) (view2 x2) b i c) := by
  rw [val_main_v35_apply, val_main_v34_apply, val_main_v33_apply, v32_apply, v30_apply,
    val_main_call2_v1_apply, val_main_call2_v0_apply, val_main_cst_9_apply,
    val_main_call3_v1_apply, val_main_call3_v0_apply, val_main_cst_10_apply]
  simp only [Ideal.hostUnary_sqrt_def, Ideal.ofBits_def, Ideal.ofBits_zero_f32]
  exact select_sqrt_select _

/-- The scaled, guarded distance of row `(b, i)` to centroid `c`. -/
theorem v38_apply (b : Fin 8) (i : Fin 1024) (c : Fin 256) :
    val_main_v38 (F := Ideal) x0 x2 x3 (ix3 b i c) = SupCon.rcdist (view3 x0) (view2 x2) (view1 x3) b i c := by
  rw [val_main_v38_apply, v35_apply, val_main_v37_apply, val_main_v36_apply,
    show idx_main_v36 (idx_main_v37 (ix3 b i c)) = ix1 c by idx1, Ideal.hostDivf_def]
  rfl

/-! ### The label masks -/

/-- The validity bit of a row's label. -/
theorem v40_apply (b : Fin 8) (i : Fin 1024) :
    val_main_v40 (F := Ideal) x1 (ix2 b i) = BitVec.ofBool ((0#32).sle (viewL x1 b i)) := by
  rw [val_main_v40_apply, val_main_v39_apply, val_main_c_apply]
  rfl

theorem v45_apply (b : Fin 8) (i j : Fin 1024) :
    val_main_v45 (F := Ideal) x1 (ix3 b i j) = BitVec.ofBool (viewL x1 b i == viewL x1 b j) := by
  rw [val_main_v45_apply, val_main_v43_apply, val_main_v41_apply, val_main_v44_apply, val_main_v42_apply,
    show idx_main_v41 (idx_main_v43 (ix3 b i j)) = ix2 b i by idx2,
    show idx_main_v42 (idx_main_v44 (ix3 b i j)) = ix2 b j by idx2]
  rfl

theorem v53_apply (b : Fin 8) (i j : Fin 1024) :
    val_main_v53 (F := Ideal) x1 (ix3 b i j) = SupCon.negMask (viewL x1) b i j := by
  rw [val_main_v53_apply, val_main_v52_apply, v45_apply]
  unfold SupCon.negMask
  exact uitofp_bit_ind _ _ ((not_ofBool_eq_one _).trans beq_eq_false_iff_ne)

theorem v50_apply (i j : Fin 1024) :
    val_main_v50 (F := Ideal) (ix2 i j) = BitVec.ofBool (decide (i = j)) := by
  rw [val_main_v50_apply, val_main_v49_apply, val_main_v46_apply, val_main_v47_apply, val_main_v48_apply,
    val_main_c_11_apply]
  exact iota_beq i j

theorem v61_apply (b : Fin 8) (i j : Fin 1024) :
    val_main_v61 (F := Ideal) (ix3 b i j) = ~~~ BitVec.ofBool (decide (i = j)) := by
  rw [val_main_v61_apply, val_main_v60_apply, val_main_v51_apply,
    show idx_main_v51 (idx_main_v61 (ix3 b i j)) = ix2 i j by idx2, v50_apply]

theorem v64_apply (b : Fin 8) (i j : Fin 1024) :
    val_main_v64 (F := Ideal) x1 (ix3 b i j) = BitVec.ofBool ((0#32).sle (viewL x1 b i)) := by
  rw [val_main_v64_apply, val_main_v63_apply, show idx_main_v63 (idx_main_v64 (ix3 b i j)) = ix2 b i by idx2, v40_apply]

theorem v66_apply (b : Fin 8) (i j : Fin 1024) :
    val_main_v66 (F := Ideal) x1 (ix3 b i j) = SupCon.posMask (viewL x1) b i j := by
  rw [val_main_v66_apply, val_main_v65_apply, val_main_v62_apply, v45_apply, v61_apply, v64_apply]
  unfold SupCon.posMask
  refine uitofp_bit_ind _ _ ((and_not_and_eq_one _ _ _).trans ?_)
  simp only [beq_iff_eq, decide_eq_true_eq, SupCon.valid]

/-! ### The negatives: their count and the mean guarded distance to them -/

/-- How many rows of the batch carry another label. -/
theorem v54_apply (b : Fin 8) (i : Fin 1024) :
    val_main_v54 (F := Ideal) x1 (ix2 b i) = SupCon.rNegCnt (viewL x1) b i := by
  rw [val_main_v54_apply, val_main_cst_12_apply]
  simp only [Ideal.ofBits_def, Ideal.ofBits_zero_f32, zero_add]
  unfold SupCon.rNegCnt
  refine Finset.sum_congr rfl fun k _ => ?_
  rw [show idx_main_v54 (ix2 b i) k = ix3 b i k by idx3, v53_apply]

theorem v56_apply (b : Fin 8) (i : Fin 1024) :
    val_main_v56 (F := Ideal) x0 x1 (ix2 b i)
      = ∑ j : Fin 1024, SupCon.safeSqrt (SupCon.d2 (view3 x0) b i j) * SupCon.negMask (viewL x1) b i j := by
  rw [val_main_v56_apply, val_main_cst_13_apply]
  simp only [Ideal.ofBits_def, Ideal.ofBits_zero_f32, zero_add]
  refine Finset.sum_congr rfl fun k _ => ?_
  rw [show idx_main_v56 (ix2 b i) k = ix3 b i k by idx3, val_main_v55_apply, v17_apply, v53_apply, Ideal.mulf_def]

theorem v58_apply (b : Fin 8) (i : Fin 1024) :
    val_main_v58 (F := Ideal) x1 (ix2 b i) = max (SupCon.rNegCnt (viewL x1) b i) SupCon.w1 := by
  rw [val_main_v58_apply, v54_apply, val_main_v57_apply, val_main_cst_14_apply, Ideal.maximumf_def, Ideal.ofBits_def]

/-- The mean guarded distance to the rows of another label. -/
theorem v59_apply (b : Fin 8) (i : Fin 1024) :
    val_main_v59 (F := Ideal) x0 x1 (ix2 b i) = SupCon.rNegSup (view3 x0) (viewL x1) b i := by
  rw [val_main_v59_apply, v56_apply, v58_apply, Ideal.hostDivf_def]
  rfl

/-! ### The positives: their count and the mean guarded distance to them -/

theorem v67_apply (b : Fin 8) (i : Fin 1024) :
    val_main_v67 (F := Ideal) x1 (ix2 b i) = SupCon.rPosCnt (viewL x1) b i := by
  rw [val_main_v67_apply, val_main_cst_15_apply]
  simp only [Ideal.ofBits_def, Ideal.ofBits_zero_f32, zero_add]
  unfold SupCon.rPosCnt
  refine Finset.sum_congr rfl fun k _ => ?_
  rw [show idx_main_v67 (ix2 b i) k = ix3 b i k by idx3, v66_apply]

theorem v69_apply (b : Fin 8) (i : Fin 1024) :
    val_main_v69 (F := Ideal) x0 x1 (ix2 b i)
      = ∑ j : Fin 1024, SupCon.safeSqrt (SupCon.d2 (view3 x0) b i j) * SupCon.posMask (viewL x1) b i j := by
  rw [val_main_v69_apply, val_main_cst_16_apply]
  simp only [Ideal.ofBits_def, Ideal.ofBits_zero_f32, zero_add]
  refine Finset.sum_congr rfl fun k _ => ?_
  rw [show idx_main_v69 (ix2 b i) k = ix3 b i k by idx3, val_main_v68_apply, v17_apply, v66_apply, Ideal.mulf_def]

theorem v71_apply (b : Fin 8) (i : Fin 1024) :
    val_main_v71 (F := Ideal) x1 (ix2 b i) = max (SupCon.rPosCnt (viewL x1) b i) SupCon.w1 := by
  rw [val_main_v71_apply, v67_apply, val_main_v70_apply, val_main_cst_17_apply, Ideal.maximumf_def, Ideal.ofBits_def]

/-- The mean guarded distance to the other rows of the same label. -/
theorem v72_apply (b : Fin 8) (i : Fin 1024) :
    val_main_v72 (F := Ideal) x0 x1 (ix2 b i) = SupCon.rPosX (view3 x0) (viewL x1) b i := by
  rw [val_main_v72_apply, v69_apply, v71_apply, Ideal.hostDivf_def]
  rfl

end Cert.ReferenceIdeal.RefValue

end
-- ==== Proof.RefRowLib.lean ====
/-
  Facts the reading of the reference's rows rests on, none of them about the program: a clamped label lies in
  [0, 255] as a signed word; a reduction by "and" of words that are all 1 is 1; a gather along the last axis of a
  three-axis array, batched over the first two, reads the array at the clamped start index; the gather of a vector at
  a two-axis array of start indices likewise; and the number a conjunction of two bits converts to is its indicator.
-/
import Idealize.ShloMosaic.Lib.ValueIdx
import Idealize.ShloMosaic.PureOps.Reduce
import proofs.«419339_j58901181497956_3_alg».proof.Proof.Spec

noncomputable section

namespace SupCon.RefLib

open Idealize.ShloMosaic Idealize.ShloMosaic.ValueIdx

/-! ### The clamped label as a signed word -/

/-- A clamped label read signed lies in [0, 255]. -/
theorem clipw_toInt (l : BitVec 32) : 0 ≤ (clipw l).toInt ∧ (clipw l).toInt ≤ 255 := by
  have h255 : (255#32 : BitVec 32).toInt = 255 := by decide
  have h0 : (0#32 : BitVec 32).toInt = 0 := by decide
  unfold clipw IntOp.minsi IntOp.maxsi
  by_cases h1 : l.slt 0#32 = true
  · rw [if_pos h1]
    by_cases h2 : (255#32 : BitVec 32).slt 0#32 = true
    · rw [if_pos h2, h255]; omega
    · rw [if_neg h2, h0]; omega
  · rw [if_neg h1]
    by_cases h2 : (255#32 : BitVec 32).slt l = true
    · rw [if_pos h2, h255]; omega
    · rw [if_neg h2]
      simp only [BitVec.slt, decide_eq_true_eq, not_lt] at h1 h2
      rw [h255] at h2; rw [h0] at h1
      exact ⟨h1, h2⟩

theorem clipw_sle0 (l : BitVec 32) : (0#32 : BitVec 32).sle (clipw l) = true := by
  have h0 : (0#32 : BitVec 32).toInt = 0 := by decide
  simp only [BitVec.sle, decide_eq_true_eq, h0]
  exact (clipw_toInt l).1

theorem clipw_sle255 (l : BitVec 32) : (clipw l).sle (255#32 : BitVec 32) = true := by
  have h255 : (255#32 : BitVec 32).toInt = 255 := by decide
  simp only [BitVec.sle, decide_eq_true_eq, h255]
  exact (clipw_toInt l).2

theorem clipw_slt0 (l : BitVec 32) : (clipw l).slt (0#32 : BitVec 32) = false := by
  have h0 : (0#32 : BitVec 32).toInt = 0 := by decide
  simp only [BitVec.slt, decide_eq_false_iff_not, not_lt, h0]
  exact (clipw_toInt l).1

/-- Read signed and clamped into [0, 255], a clamped label is the centroid's number it names. -/
theorem clipw_min (l : BitVec 32) : min (clipw l).toInt.toNat (256 - 1) = (kidx l).val := by
  obtain ⟨h0, h255⟩ := clipw_toInt l
  have hc := BitVec.toInt_eq_toNat_cond (clipw l)
  have hlt : (clipw l).toNat < 256 := by
    split_ifs at hc <;> omega
  have hk : (kidx l).val = (clipw l).toNat := by unfold kidx; rw [dif_pos hlt]
  rw [hk]
  split_ifs at hc <;> omega

/-! ### A reduction by "and" of ones -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-- A reduce by "and" from 1 of an array of ones is 1 at every index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x hx _

/-! ### The two gathers -/

section Gathers
variable {α : Type}

/-- The dimension numbers of a gather along the last axis of an [8, 1024, 256] array, batched over the first two. -/
abbrev alongDims
    (wf : GatherDims.WF ⟨3, ![8, 1024, 256]⟩ ⟨4, ![8, 1024, 1, 1]⟩ ⟨3, ![8, 1024, 1]⟩ [] [2] [0, 1] [2] [0, 1] 3 ![1, 1, 1]) :
    GatherDims ⟨3, ![8, 1024, 256]⟩ ⟨4, ![8, 1024, 1, 1]⟩ ⟨3, ![8, 1024, 1]⟩ where
  offsetDims := []
  collapsedSliceDims := [2]
  operandBatchingDims := [0, 1]
  startIndicesBatchingDims := [0, 1]
  startIndexMap := [2]
  indexVectorDim := 3
  sliceSizes := ![1, 1, 1]
  wf := wf

/-- That gather at (b, i, z): the array at (b, i, k), k the start index at (b, i, z, 0) read signed and clamped. -/
theorem gather_along_apply {w : Nat}
    (wf : GatherDims.WF ⟨3, ![8, 1024, 256]⟩ ⟨4, ![8, 1024, 1, 1]⟩ ⟨3, ![8, 1024, 1]⟩ [] [2] [0, 1] [2] [0, 1] 3 ![1, 1, 1])
    (x : (⟨3, ![8, 1024, 256]⟩ : Shape).Idx → α) (idx : IVec ⟨4, ![8, 1024, 1, 1]⟩ w)
    (b : Fin 8) (i : Fin 1024) (z : Fin 1) (k : Fin 256)
    (hk : min (idx (ix4 b i z 0)).toInt.toNat (256 - 1) = k.val) :
    Host.gather (alongDims wf) x idx (ix3 b i z) = x (ix3 b i k) := by
  unfold Host.gather
  congr 1
  funext a
  refine Fin.ext ?_
  match a with
  | ⟨0, _⟩ =>
    show (alongDims wf).start (ix3 b i z) idx 0 + (alongDims wf).batchCoord (ix3 b i z) 0
      + (alongDims wf).offCoord (ix3 b i z) 0 = b.val
    rw [GatherDims.start_batching _ _ _ _ (show (0 : Fin 3) ∈ ([0, 1] : List (Fin 3)) from by decide),
      GatherDims.offCoord_eq_zero _ _ _ (fun h => ((GatherDims.mem_sKept _ _).mp h).2 (show (0 : Fin 3) ∈ ([0, 1] : List (Fin 3)) from by decide))]
    unfold GatherDims.batchCoord
    rw [dif_pos (show (0 : Fin 3) ∈ ([0, 1] : List (Fin 3)) from by decide)]
    simp only [Nat.zero_add, Nat.add_zero]
    rfl
  | ⟨1, _⟩ =>
    show (alongDims wf).start (ix3 b i z) idx 1 + (alongDims wf).batchCoord (ix3 b i z) 1
      + (alongDims wf).offCoord (ix3 b i z) 1 = i.val
    rw [GatherDims.start_batching _ _ _ _ (show (1 : Fin 3) ∈ ([0, 1] : List (Fin 3)) from by decide),
      GatherDims.offCoord_eq_zero _ _ _ (fun h => ((GatherDims.mem_sKept _ _).mp h).2 (show (1 : Fin 3) ∈ ([0, 1] : List (Fin 3)) from by decide))]
    unfold GatherDims.batchCoord
    rw [dif_pos (show (1 : Fin 3) ∈ ([0, 1] : List (Fin 3)) from by decide)]
    simp only [Nat.zero_add, Nat.add_zero]
    rfl
  | ⟨2, _⟩ =>
    show (alongDims wf).start (ix3 b i z) idx 2 + (alongDims wf).batchCoord (ix3 b i z) 2
      + (alongDims wf).offCoord (ix3 b i z) 2 = k.val
    rw [GatherDims.batchCoord_eq_zero _ _ _ (show (2 : Fin 3) ∉ ([0, 1] : List (Fin 3)) from by decide),
      GatherDims.offCoord_eq_zero _ _ _ (fun h => ((GatherDims.mem_sKept _ _).mp h).1
        (show (2 : Fin 3) ∈ ([2] : List (Fin 3)) from by decide))]
    simp only [Nat.add_zero]
    unfold GatherDims.start
    rw [dif_pos (show (2 : Fin 3) ∈ (alongDims wf).startIndexMap from List.mem_singleton.mpr rfl)]
    have hsi : (alongDims wf).siIdx (ix3 b i z) ⟨List.idxOf (2 : Fin 3) (alongDims wf).startIndexMap,
        List.idxOf_lt_length_iff.2 (List.mem_singleton.mpr rfl)⟩ = ix4 b i z 0 := by
      funext c; refine Fin.ext ?_
      match c with
      | ⟨0, _⟩ => rfl
      | ⟨1, _⟩ => rfl
      | ⟨2, _⟩ => rfl
      | ⟨3, _⟩ => rfl
    rw [hsi]
    exact hk

/-- The gather of a 256-vector at an [8, 1024, 1] array of start indices, at (b, i): the vector at k, k the start
    index at (b, i, 0) read signed and clamped. -/
theorem gather_take_at {w : Nat}
    (wf : GatherDims.WF ⟨1, ![256]⟩ ⟨3, ![8, 1024, 1]⟩ ⟨2, ![8, 1024]⟩ [] [0] [] [0] [] 2 ![1])
    (x : (⟨1, ![256]⟩ : Shape).Idx → α) (idx : IVec ⟨3, ![8, 1024, 1]⟩ w)
    (b : Fin 8) (i : Fin 1024) (k : Fin 256)
    (hk : min (idx (ix3 b i 0)).toInt.toNat (256 - 1) = k.val) :
    Host.gather (takeDims 256 8 1024 wf) x idx (ix2 b i) = x (ix1 k) := by
  rw [gather_take_apply (by decide)]
  refine congrArg x (congrArg ix1 (Fin.ext ?_))
  have ht : takeIdx (ix2 b i) = (ix3 b i 0 : (⟨3, ![8, 1024, 1]⟩ : Shape).Idx) := by
    funext c
    match c with
    | ⟨0, _⟩ => rfl
    | ⟨1, _⟩ => rfl
    | ⟨2, _⟩ => rfl
  show min (idx (takeIdx (ix2 b i))).toInt.toNat (256 - 1) = k.val
  rw [ht]
  exact hk

end Gathers

/-! ### The conjunction of two bits as a number -/

/-- The conjunction of a bit and a decided proposition's bit, converted to a float, is the indicator of both. -/
theorem uitofp_andi (p : Bool) (Q : Prop) [Decidable Q] :
    FloatOps.uitofp (F := Ideal) .f32 (IntOp.andi (BitVec.ofBool p) (BitVec.ofBool (decide Q)))
      = if p = true ∧ Q then (1 : EReal) else 0 := by
  by_cases hq : Q
  · cases p
    · rw [if_neg (by simp)]
      show (((IntOp.andi (BitVec.ofBool false) (BitVec.ofBool (decide Q))).toNat : ℝ) : EReal) = 0
      rw [decide_eq_true hq]
      simp [IntOp.andi]
    · rw [if_pos ⟨rfl, hq⟩]
      show (((IntOp.andi (BitVec.ofBool true) (BitVec.ofBool (decide Q))).toNat : ℝ) : EReal) = 1
      rw [decide_eq_true hq]
      simp [IntOp.andi]
  · rw [if_neg (fun h => hq h.2)]
    show (((IntOp.andi (BitVec.ofBool p) (BitVec.ofBool (decide Q))).toNat : ℝ) : EReal) = 0
    rw [decide_eq_false hq]
    cases p <;> simp [IntOp.andi]

end SupCon.RefLib

end
-- ==== Proof.RefRow.lean ====
/-
  The reference's rows and its result: the pick of the row's own centroid and speaker count by index, the row's
  term, the anchor bit, the two sums over all rows and their quotient — the loss in the reference's arrangement.
-/
import proofs.«419339_j58901181497956_3_alg».proof.Proof.RefDist
import proofs.«419339_j58901181497956_3_alg».proof.Proof.RefRowLib

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open SupCon (view3 viewL view2 view1)
open SupCon.RefLib

variable (x0 : (⟨S8x1024x768, .f32⟩ : BufTy).Contents (Elt Ideal)) (x1 : (⟨S8x1024, .i32⟩ : BufTy).Contents (Elt Ideal))
  (x2 : (⟨S256x768, .f32⟩ : BufTy).Contents (Elt Ideal)) (x3 x4 : (⟨S256, .f32⟩ : BufTy).Contents (Elt Ideal))

/-! ### The clamped label, and the label as the gathers' start index -/

/-- The clamp of a row's label into [0, 255]. -/
theorem v73_apply (b : Fin 8) (i : Fin 1024) :
    val_main_v73 (F := Ideal) x1 (ix2 b i) = SupCon.clipw (viewL x1 b i) := by
  rw [val_main_v73_apply, val_main_call4_v4_apply, val_main_call4_v3_apply, val_main_c_19_apply,
    val_main_call4_v2_apply, val_main_call4_v1_apply, val_main_call4_v0_apply, val_main_c_18_apply]
  rfl

/-- With a unit axis appended it is the same word. -/
theorem v74_apply (b : Fin 8) (i : Fin 1024) (z : Fin 1) :
    val_main_v74 (F := Ideal) x1 (ix3 b i z) = SupCon.clipw (viewL x1 b i) := by
  rw [val_main_v74_apply,
    show idx_main_v74 (ix3 b i z) = ix2 b i from by
      funext a; match a with | ⟨0, _⟩ => rfl | ⟨1, _⟩ => rfl,
    v73_apply]

/-- The index normalisation "add 256 where negative" leaves a clamped label as it is. -/
theorem call5_v4_apply (b : Fin 8) (i : Fin 1024) (z : Fin 1) :
    val_main_call5_v4 (F := Ideal) x1 (ix3 b i z) = SupCon.clipw (viewL x1 b i) := by
  rw [val_main_call5_v4_apply, val_main_call5_v1_apply, v74_apply, val_main_call5_v0_apply, val_main_call5_c_apply]
  show Scalar.select (BitVec.ofBool ((SupCon.clipw (viewL x1 b i)).slt 0#32)) _ _ = _
  rw [clipw_slt0]
  exact select_zero _ _

theorem idx_call5_v5 (b : Fin 8) (i : Fin 1024) (z z' : Fin 1) :
    idx_main_call5_v5 (ix4 b i z z') = ix3 b i 0 := by
  have hb := b.isLt; have hi := i.isLt; have hz := z.isLt; have hz' := z'.isLt
  funext a
  match a with
  | ⟨0, _⟩ => exact Fin.ext (by show (((b.val * 1024 + i.val) * 1 + z.val) * 1 + z'.val) / 1024 = b.val; omega)
  | ⟨1, _⟩ => exact Fin.ext (by show (((b.val * 1024 + i.val) * 1 + z.val) * 1 + z'.val) / 1 % 1024 = i.val; omega)
  | ⟨2, _⟩ => rfl

/-- The start indices of the gather along the centroid axis. -/
theorem call5_v5_apply (b : Fin 8) (i : Fin 1024) (z z' : Fin 1) :
    val_main_call5_v5 (F := Ideal) x1 (ix4 b i z z') = SupCon.clipw (viewL x1 b i) := by
  rw [val_main_call5_v5_apply, idx_call5_v5, call5_v4_apply]

/-- Every start index is in range, -/
theorem call5_v11_apply (j : S8x1024x1x1.Idx) : val_main_call5_v11 (F := Ideal) x1 j = 1#1 := by
  obtain ⟨b, i, z, z', rfl⟩ : ∃ (b : Fin 8) (i : Fin 1024) (z z' : Fin 1), j = ix4 b i z z' :=
    ⟨j 0, j 1, j 2, j 3, eq_ix4 j⟩
  rw [val_main_call5_v11_apply, val_main_call5_v7_apply, val_main_call5_v10_apply, call5_v5_apply,
    val_main_call5_v6_apply, val_main_call5_c_2_apply, val_main_call5_v9_apply, val_main_call5_v8_apply,
    val_main_call5_c_1_apply]
  show IntOp.andi (BitVec.ofBool ((0#32 : BitVec 32).sle (SupCon.clipw (viewL x1 b i))))
    (BitVec.ofBool ((SupCon.clipw (viewL x1 b i)).sle 255#32)) = 1#1
  rw [clipw_sle0, clipw_sle255]
  decide

/-- so the gather's fill mask is 1 everywhere. -/
theorem call5_v12_apply (j : S8x1024x1.Idx) : val_main_call5_v12 (F := Ideal) x1 j = 1#1 := by
  unfold val_main_call5_v12
  exact reduce_andi_of_all _ _ _ _ j (call5_v11_apply x1) rfl

/-- The gather along the centroid axis reads the distance to the row's own centroid. -/
theorem call5_v13_apply (b : Fin 8) (i : Fin 1024) (z : Fin 1) :
    val_main_call5_v13 (F := Ideal) x0 x1 x2 x3 (ix3 b i z)
      = val_main_v38 (F := Ideal) x0 x2 x3 (ix3 b i (SupCon.kidx (viewL x1 b i))) := by
  unfold val_main_call5_v13
  exact gather_along_apply _ (val_main_v38 (F := Ideal) x0 x2 x3) (val_main_call5_v5 (F := Ideal) x1) b i z
    (SupCon.kidx (viewL x1 b i)) (by rw [call5_v5_apply]; exact clipw_min _)

theorem idx_v76 (b : Fin 8) (i : Fin 1024) : idx_main_v76 (ix2 b i) = ix3 b i 0 := by
  have hb := b.isLt; have hi := i.isLt
  funext a
  match a with
  | ⟨0, _⟩ => exact Fin.ext (by show (b.val * 1024 + i.val) / 1024 = b.val; omega)
  | ⟨1, _⟩ => exact Fin.ext (by show (b.val * 1024 + i.val) / 1 % 1024 = i.val; omega)
  | ⟨2, _⟩ => rfl

/-- The scaled distance of a row to its own centroid. -/
theorem v76_apply (b : Fin 8) (i : Fin 1024) :
    val_main_v76 (F := Ideal) x0 x1 x2 x3 (ix2 b i)
      = SupCon.rPosCent (view3 x0) (viewL x1) (view2 x2) (view1 x3) b i := by
  rw [val_main_v76_apply, idx_v76, val_main_v75_apply, call5_v12_apply, select_one, call5_v13_apply, v38_apply]
  rfl

/-! ### The mean over the other centroids -/

theorem v77_apply (b : Fin 8) (i : Fin 1024) :
    val_main_v77 (F := Ideal) x0 x2 x3 (ix2 b i)
      = ∑ c : Fin 256, SupCon.rcdist (view3 x0) (view2 x2) (view1 x3) b i c := by
  rw [val_main_v77_apply, val_main_cst_20_apply]
  simp only [Ideal.ofBits_def, Ideal.ofBits_zero_f32, zero_add]
  refine Finset.sum_congr rfl fun c _ => ?_
  rw [show idx_main_v77 (ix2 b i) c = ix3 b i c from by
      funext a; match a with | ⟨0, _⟩ => rfl | ⟨1, _⟩ => rfl | ⟨2, _⟩ => rfl,
    v38_apply]

theorem v80_apply (b : Fin 8) (i : Fin 1024) :
    val_main_v80 (F := Ideal) x0 x1 x2 x3 (ix2 b i)
      = SupCon.rNegCent (view3 x0) (viewL x1) (view2 x2) (view1 x3) b i := by
  rw [val_main_v80_apply, val_main_v78_apply, v77_apply, v76_apply, val_main_v79_apply, val_main_cst_21_apply]
  rfl

/-! ### The row's term -/

theorem v85_apply (b : Fin 8) (i : Fin 1024) :
    val_main_v85 (F := Ideal) x0 x1 x2 x3 (ix2 b i)
      = SupCon.wh * SupCon.rPosX (view3 x0) (viewL x1) b i
        + SupCon.wh * SupCon.rPosCent (view3 x0) (viewL x1) (view2 x2) (view1 x3) b i := by
  rw [val_main_v85_apply, val_main_v82_apply, val_main_v81_apply, val_main_cst_22_apply, v72_apply,
    val_main_v84_apply, val_main_v83_apply, val_main_cst_23_apply, v76_apply]
  rfl

theorem v90_apply (b : Fin 8) (i : Fin 1024) :
    val_main_v90 (F := Ideal) x0 x1 x2 x3 (ix2 b i)
      = SupCon.wh * SupCon.rNegSup (view3 x0) (viewL x1) b i
        + SupCon.wh * SupCon.rNegCent (view3 x0) (viewL x1) (view2 x2) (view1 x3) b i := by
  rw [val_main_v90_apply, val_main_v87_apply, val_main_v86_apply, val_main_cst_24_apply, v59_apply,
    val_main_v89_apply, val_main_v88_apply, val_main_cst_25_apply, v80_apply]
  rfl

theorem v97_apply (b : Fin 8) (i : Fin 1024) :
    val_main_v97 (F := Ideal) x0 x1 x2 x3 (ix2 b i)
      = SupCon.total (SupCon.rPosX (view3 x0) (viewL x1) b i)
          (SupCon.rPosCent (view3 x0) (viewL x1) (view2 x2) (view1 x3) b i)
          (SupCon.rNegSup (view3 x0) (viewL x1) b i)
          (SupCon.rNegCent (view3 x0) (viewL x1) (view2 x2) (view1 x3) b i) := by
  rw [val_main_v97_apply, val_main_v95_apply, val_main_v93_apply, val_main_v91_apply, val_main_v94_apply,
    v85_apply, v90_apply, val_main_v92_apply, val_main_cst_26_apply, val_main_v96_apply, val_main_cst_27_apply]
  rfl

/-! ### The speaker count of the row's centroid -/

theorem v102_apply (b : Fin 8) (i : Fin 1024) :
    val_main_v102 (F := Ideal) x1 (ix2 b i) = SupCon.clipw (viewL x1 b i) := by
  rw [val_main_v102_apply, val_main_v99_apply, v73_apply, val_main_v98_apply, val_main_c_28_apply]
  show Scalar.select (BitVec.ofBool ((SupCon.clipw (viewL x1 b i)).slt 0#32)) _ _ = _
  rw [clipw_slt0]
  exact select_zero _ _

theorem v103_apply (b : Fin 8) (i : Fin 1024) (z : Fin 1) :
    val_main_v103 (F := Ideal) x1 (ix3 b i z) = SupCon.clipw (viewL x1 b i) := by
  rw [val_main_v103_apply,
    show idx_main_v103 (ix3 b i z) = ix2 b i from by
      funext a; match a with | ⟨0, _⟩ => rfl | ⟨1, _⟩ => rfl,
    v102_apply]

theorem v104_apply (b : Fin 8) (i : Fin 1024) :
    val_main_v104 (F := Ideal) x1 x4 (ix2 b i) = view1 x4 (SupCon.kidx (viewL x1 b i)) := by
  unfold val_main_v104
  exact gather_take_at _ x4 (val_main_v103 (F := Ideal) x1) b i (SupCon.kidx (viewL x1 b i))
    (by rw [v103_apply]; exact clipw_min _)

/-- The row's term over its speaker count. -/
theorem v105_apply (b : Fin 8) (i : Fin 1024) :
    val_main_v105 (F := Ideal) x0 x1 x2 x3 x4 (ix2 b i)
      = SupCon.rowR (view3 x0) (viewL x1) (view2 x2) (view1 x3) (view1 x4) b i := by
  rw [val_main_v105_apply, v97_apply, v104_apply]
  rfl

/-! ### The anchors -/

theorem v109_apply (b : Fin 8) (i : Fin 1024) :
    val_main_v109 (F := Ideal) x1 (ix2 b i) = SupCon.anchorR (viewL x1) b i := by
  rw [val_main_v109_apply, val_main_v108_apply, v40_apply, val_main_v107_apply, v54_apply, val_main_v106_apply,
    val_main_cst_30_apply]
  simp only [Ideal.cmpf_def, Ideal.ofBits_def, Ideal.ofBits_zero_f32, Ideal.cmp]
  rw [uitofp_andi]
  unfold SupCon.anchorR SupCon.ind SupCon.valid
  by_cases h : (0#32 : BitVec 32).sle (viewL x1 b i) = true ∧ 0 < SupCon.rNegCnt (viewL x1) b i
  · simp only [if_pos h]
  · simp only [if_neg h]

/-! ### The two sums and their quotient -/

theorem v110_apply (j : S_.Idx) :
    val_main_v110 (F := Ideal) x1 j = ∑ b : Fin 8, ∑ i : Fin 1024, SupCon.anchorR (viewL x1) b i := by
  rw [val_main_v110_apply, val_main_cst_31_apply, sum_idx2]
  simp only [Ideal.ofBits_def, Ideal.ofBits_zero_f32, zero_add, v109_apply]

theorem v112_apply (j : S_.Idx) :
    val_main_v112 (F := Ideal) x0 x1 x2 x3 x4 j
      = ∑ b : Fin 8, ∑ i : Fin 1024,
          SupCon.rowR (view3 x0) (viewL x1) (view2 x2) (view1 x3) (view1 x4) b i * SupCon.anchorR (viewL x1) b i := by
  rw [val_main_v112_apply, val_main_cst_32_apply, sum_idx2]
  simp only [Ideal.ofBits_def, Ideal.ofBits_zero_f32, zero_add, val_main_v111_apply, v105_apply, v109_apply,
    Ideal.mulf_def]

/-- The reference's last stage, read at its one index, is the loss in the reference's arrangement. -/
theorem val_eq_refLoss (i : S1x1.Idx) :
    val_main_v115 (F := Ideal) x0 x1 x2 x3 x4 i
      = SupCon.refLoss (view3 x0) (viewL x1) (view2 x2) (view1 x3) (view1 x4) := by
  unfold val_main_v115 shapeCast
  rw [val_main_v114_apply, val_main_v113_apply, v112_apply, v110_apply, val_main_cst_33_apply]
  rfl

/-- So the reference's result array holds that loss at its one entry. -/
theorem res_eq (m : (ℓ : Loc nD τ sig) → Buf (Elt Ideal) ℓ) (c : Dev nD) (i : S1x1.Idx) :
    Cert.ReferenceIdeal.Value.res_main_v115 (F := Ideal) m c i
      = SupCon.refLoss (view3 (m ((c.tc : Thread nD τ).loc main_arg0))) (viewL (m ((c.tc : Thread nD τ).loc main_arg1)))
          (view2 (m ((c.tc : Thread nD τ).loc main_arg2))) (view1 (m ((c.tc : Thread nD τ).loc main_arg3)))
          (view1 (m ((c.tc : Thread nD τ).loc main_arg4))) := by
  rw [val_main_v115_eq]
  exact val_eq_refLoss _ _ _ _ _ i

end Cert.ReferenceIdeal.RefValue

end
-- ==== Proof.Algebra.lean ====
/-
  The two arrangements of the loss (Spec.lean) are one extended real when every feature is finite.

  With real features the squared norms, the Gram entries and so the clamped squared distances between rows are real
  numbers that are not negative; their roots are real, and the guarded root is the root on every argument that is not
  negative (at zero both are zero; at the top both are the top). The count of the rows of another label is 1024 minus
  the count of the rows of the same label. The masked sum over the rows of another label is "all minus same" term by
  term in the reals, the diagonal term vanishing on both sides. The masked sum and count over the other rows of the same
  label are the validity indicator times "same" (the diagonal distance being zero) and times "same minus one" (the
  diagonal being counted once). A sum against the one-hot row of the clamped label is the term at that label, whatever
  extended reals the terms are. So the rows' terms and the anchors agree, and the two losses are one expression.
-/
import proofs.«419339_j58901181497956_3_alg».proof.Proof.Spec
import Mathlib.Data.EReal.Operations
import Mathlib.Algebra.BigOperators.Group.Finset.Basic

noncomputable section

namespace SupCon

open Idealize.ShloMosaic

/-! ### The clamped label -/

/-- A clamped label is a centroid's number. -/
theorem clipw_lt (l : BitVec 32) : (clipw l).toNat < 256 := by
  unfold clipw IntOp.minsi IntOp.maxsi
  simp only [BitVec.slt, BitVec.toInt_eq_toNat_cond]
  split_ifs <;> simp_all <;> omega

/-! ### The float words that are read as numbers -/

theorem w1_eq : w1 = ((1 : ℝ) : EReal) := by
  simp [Ideal.ofBits, Ideal.ieee, -EReal.coe_mul]; norm_num

theorem w2_eq : w2 = ((2 : ℝ) : EReal) := by
  simp [Ideal.ofBits, Ideal.ieee, -EReal.coe_mul]; norm_num

theorem w1024_eq : w1024 = ((1024 : ℝ) : EReal) := by
  simp [Ideal.ofBits, Ideal.ieee, -EReal.coe_mul]; norm_num

/-! ### Extended reals that are real numbers -/

/-- An extended real that is a real number. -/
def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.zero : IsR 0 := ⟨0, EReal.coe_zero.symm⟩

/-- A finite sum of real numbers is a real number. -/
theorem IsR.sum {ι : Type} (s : Finset ι) (f : ι → EReal) (hf : ∀ i ∈ s, IsR (f i)) : IsR (∑ i ∈ s, f i) := by
  classical
  induction s using Finset.induction_on with
  | empty => simpa using IsR.zero
  | insert a s ha ih =>
    rw [Finset.sum_insert ha]
    exact (hf a (Finset.mem_insert_self a s)).add (ih fun i hi => hf i (Finset.mem_insert_of_mem hi))

/-- A sum of real numbers, read in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An indicator is the real number 1 or 0. -/
theorem ind_eq (p : Prop) [Decidable p] : ind p = (((if p then 1 else 0 : ℝ)) : EReal) := by
  unfold ind; split_ifs <;> simp

/-! ### The two square roots -/

/-- The guarded root is the root wherever the argument is not negative. -/
theorem safeSqrt_eq {x : EReal} (hx : 0 ≤ x) : safeSqrt x = Ideal.sqrt x := by
  unfold safeSqrt
  by_cases h : 0 < x
  · simp only [if_pos h]
  · have h0 : x = 0 := le_antisymm (not_lt.mp h) hx
    subst h0
    rw [if_neg h, ← EReal.coe_zero, Ideal.sqrt_coe]
    simp

/-- The root of a real number that is not negative is a real number. -/
theorem sqrt_real {r : ℝ} (hr : 0 ≤ r) : Ideal.sqrt (r : EReal) = ((Real.sqrt r : ℝ) : EReal) := by
  rw [Ideal.sqrt_coe, if_neg (not_lt.mpr hr)]

section
variable (X : Fin 8 → Fin 1024 → Fin 768 → EReal) (L : Fin 8 → Fin 1024 → BitVec 32)
  (C : Fin 256 → Fin 768 → EReal) (P K : Fin 256 → EReal)

/-! ### The distances between rows are real numbers -/

theorem sq_real (hX : ∀ b i d, IsR (X b i d)) (b : Fin 8) (i : Fin 1024) : IsR (sq X b i) :=
  IsR.sum _ _ fun d _ => (hX b i d).mul (hX b i d)

theorem gram_real (hX : ∀ b i d, IsR (X b i d)) (b : Fin 8) (i j : Fin 1024) : IsR (gram X b i j) :=
  IsR.sum _ _ fun d _ => (hX b i d).mul (hX b j d)

/-- A clamped squared distance is a real number that is not negative. -/
theorem d2_real (hX : ∀ b i d, IsR (X b i d)) (b : Fin 8) (i j : Fin 1024) :
    ∃ r : ℝ, 0 ≤ r ∧ d2 X b i j = (r : EReal) := by
  obtain ⟨r, hr⟩ := ((sq_real X hX b i).add (sq_real X hX b j)).sub
    ((show IsR w2 from ⟨2, w2_eq⟩).mul (gram_real X hX b i j))
  refine ⟨max r 0, le_max_right _ _, ?_⟩
  unfold d2
  rw [hr, ← EReal.coe_zero]
  exact (EReal.coe_strictMono.monotone.map_max).symm

theorem d2_nonneg (b : Fin 8) (i j : Fin 1024) : 0 ≤ d2 X b i j := le_max_right _ _

theorem cd2_nonneg (b : Fin 8) (i : Fin 1024) (c : Fin 256) : 0 ≤ cd2 X C b i c := le_max_right _ _

/-- The kernel's distance is a real number. -/
theorem kdist_real (hX : ∀ b i d, IsR (X b i d)) (b : Fin 8) (i j : Fin 1024) : IsR (kdist X b i j) := by
  unfold kdist
  split_ifs
  · exact IsR.zero
  · obtain ⟨r, hr0, hr⟩ := d2_real X hX b i j
    exact ⟨Real.sqrt r, by rw [hr, sqrt_real hr0]⟩

theorem kdist_self (b : Fin 8) (i : Fin 1024) : kdist X b i i = 0 := by
  unfold kdist; rw [if_pos rfl]

/-- Off the diagonal the guarded root of the squared distance is the kernel's distance. -/
theorem safeSqrt_d2 (b : Fin 8) {i j : Fin 1024} (hij : i ≠ j) : safeSqrt (d2 X b i j) = kdist X b i j := by
  unfold kdist; rw [if_neg hij, safeSqrt_eq (d2_nonneg X b i j)]

/-! ### The count of the rows of another label -/

theorem rNegCnt_eq (b : Fin 8) (i : Fin 1024) : rNegCnt L b i = negCnt L b i := by
  unfold rNegCnt negCnt cntSame negMask sameF
  simp_rw [ind_eq, coe_sum]
  rw [w1024_eq, ← EReal.coe_sub, EReal.coe_eq_coe_iff, eq_sub_iff_add_eq, ← Finset.sum_add_distrib]
  have h : ∀ j : Fin 1024, ((if ¬ L b i = L b j then 1 else 0 : ℝ) + (if L b i = L b j then 1 else 0)) = 1 := by
    intro j; by_cases hs : L b i = L b j <;> simp [hs]
  rw [Finset.sum_congr rfl fun j _ => h j]
  simp

/-! ### The negatives: all minus same -/

theorem neg_sum_eq (hX : ∀ b i d, IsR (X b i d)) (b : Fin 8) (i : Fin 1024) :
    ∑ j : Fin 1024, safeSqrt (d2 X b i j) * negMask L b i j = sumAll X b i - sumSame X L b i := by
  choose kd hkd using fun j => kdist_real X hX b i j
  have h1 : ∀ j, safeSqrt (d2 X b i j) * negMask L b i j
      = ((kd j * (if L b i = L b j then 0 else 1) : ℝ) : EReal) := by
    intro j
    by_cases hij : i = j
    · subst hij; simp [negMask, ind]
    · rw [safeSqrt_d2 X b hij, hkd, negMask, ind_eq, ← EReal.coe_mul]
      by_cases hs : L b i = L b j <;> simp [hs]
  unfold sumAll sumSame sameF
  simp_rw [h1, hkd, ind_eq, ← EReal.coe_mul, coe_sum, ← EReal.coe_sub]
  rw [EReal.coe_eq_coe_iff, ← Finset.sum_sub_distrib]
  refine Finset.sum_congr rfl fun j _ => ?_
  by_cases hs : L b i = L b j <;> simp [hs]

/-! ### The positives: same, the diagonal being zero -/

theorem rPosCnt_eq (b : Fin 8) (i : Fin 1024) : rPosCnt L b i = validF L b i * (cntSame L b i - w1) := by
  unfold rPosCnt validF cntSame posMask sameF
  simp_rw [ind_eq, coe_sum]
  rw [w1_eq, ← EReal.coe_sub, ← EReal.coe_mul, EReal.coe_eq_coe_iff]
  by_cases hv : valid (L b i)
  · have h : ∀ j : Fin 1024, (if L b i = L b j then 1 else 0 : ℝ)
        = (if (L b i = L b j ∧ ¬ i = j) ∧ valid (L b i) then 1 else 0) + (if i = j then 1 else 0) := by
      intro j
      by_cases hij : i = j
      · subst hij; simp
      · by_cases hs : L b i = L b j
        · have hv' : valid (L b j) := hs ▸ hv
          simp [hs, hij, hv']
        · simp [hs, hij, hv]
    rw [if_pos hv, one_mul, Finset.sum_congr rfl fun j _ => h j, Finset.sum_add_distrib, Finset.sum_ite_eq]
    simp
  · simp [hv]

theorem pos_sum_eq (b : Fin 8) (i : Fin 1024) :
    ∑ j : Fin 1024, safeSqrt (d2 X b i j) * posMask L b i j = validF L b i * sumSame X L b i := by
  unfold validF sumSame
  by_cases hv : valid (L b i)
  · rw [ind, if_pos hv, one_mul]
    refine Finset.sum_congr rfl fun j _ => ?_
    by_cases hij : i = j
    · subst hij; simp [posMask, ind, kdist_self]
    · rw [safeSqrt_d2 X b hij]
      by_cases hs : L b i = L b j
      · have hv' : valid (L b j) := hs ▸ hv
        simp [posMask, sameF, ind, hs, hij, hv']
      · simp [posMask, sameF, ind, hs, hij, hv]
  · rw [ind, if_neg hv, zero_mul]
    refine Finset.sum_eq_zero fun j _ => ?_
    simp [posMask, ind, hv]

/-! ### The pick of the row's centroid -/

theorem onehot_eq (b : Fin 8) (i : Fin 1024) (c : Fin 256) :
    onehot L b i c = if c = kidx (L b i) then 1 else 0 := by
  have hlt := clipw_lt (L b i)
  have hk : kidx (L b i) = ⟨(clipw (L b i)).toNat, hlt⟩ := by unfold kidx; rw [dif_pos hlt]
  have hc := c.isLt
  unfold onehot ind
  by_cases h : c = kidx (L b i)
  · rw [if_pos h, if_pos]
    apply BitVec.eq_of_toNat_eq
    rw [h, hk, BitVec.toNat_ofNat]
    simp only []
    omega
  · rw [if_neg h, if_neg]
    intro h'
    apply h
    rw [hk]
    apply Fin.ext
    simp only [h', BitVec.toNat_ofNat]
    omega

theorem posCent_eq (b : Fin 8) (i : Fin 1024) : posCent X L C P b i = cdist X C P b i (kidx (L b i)) := by
  unfold posCent
  simp_rw [onehot_eq]
  simp

theorem spkSel_eq (b : Fin 8) (i : Fin 1024) : spkSel L K b i = K (kidx (L b i)) := by
  unfold spkSel
  simp_rw [onehot_eq]
  simp

theorem rcdist_eq (b : Fin 8) (i : Fin 1024) (c : Fin 256) : rcdist X C P b i c = cdist X C P b i c := by
  unfold rcdist cdist; rw [safeSqrt_eq (cd2_nonneg X C b i c)]

/-! ### The four means, the row's term and the anchors -/

theorem rPosX_eq (b : Fin 8) (i : Fin 1024) : rPosX X L b i = posX X L b i := by
  unfold rPosX posX; rw [pos_sum_eq, rPosCnt_eq]

theorem rNegSup_eq (hX : ∀ b i d, IsR (X b i d)) (b : Fin 8) (i : Fin 1024) : rNegSup X L b i = negSup X L b i := by
  unfold rNegSup negSup; rw [neg_sum_eq X L hX, rNegCnt_eq]

theorem rPosCent_eq (b : Fin 8) (i : Fin 1024) : rPosCent X L C P b i = posCent X L C P b i := by
  unfold rPosCent; rw [rcdist_eq, posCent_eq]

theorem rNegCent_eq (b : Fin 8) (i : Fin 1024) : rNegCent X L C P b i = negCent X L C P b i := by
  unfold rNegCent negCent sumCent
  simp_rw [rcdist_eq]
  rw [rPosCent_eq]

theorem rowR_eq (hX : ∀ b i d, IsR (X b i d)) (b : Fin 8) (i : Fin 1024) :
    rowR X L C P K b i = rowK X L C P K b i := by
  unfold rowR rowK
  rw [rPosX_eq, rPosCent_eq, rNegSup_eq X L hX, rNegCent_eq, spkSel_eq]

theorem anchorR_eq (b : Fin 8) (i : Fin 1024) : anchorR L b i = anchorK L b i := by
  unfold anchorR anchorK; rw [rNegCnt_eq]

end

variable (X : Fin 8 → Fin 1024 → Fin 768 → EReal) (L : Fin 8 → Fin 1024 → BitVec 32)
  (C : Fin 256 → Fin 768 → EReal) (P K : Fin 256 → EReal)

/-- With every feature a real number, the reference's arrangement of the loss is the kernel's. -/
theorem ref_eq_ker (hX : ∀ b i d, ∃ r : ℝ, X b i d = (r : EReal)) :
    refLoss X L C P K = kerLoss X L C P K := by
  unfold refLoss kerLoss
  simp_rw [rowR_eq X L C P K hX, anchorR_eq]

end SupCon

end
-- ==== Proof.Finite.lean ====
/-
  The precondition gives finiteness: where `finite_inputs` holds, every feature is a real number — an extended real whose
  absolute value is below +∞ is neither infinity.
-/
import proofs.«419339_j58901181497956_3_alg».proof.Pre_finite_inputs
import proofs.«419339_j58901181497956_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Cert.Pre_finite_inputs Idealize.ShloMosaic

instance : Subsingleton S_.Idx := ⟨fun a b => funext fun d => d.elim0⟩

/-- The pattern of +∞. -/
theorem ofBits_inf : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Where the precondition holds, every feature is a real number. -/
theorem features_real (a0 : FVec Ideal S8x1024x768 .f32) (a1 : IVec S8x1024 32) (a2 : FVec Ideal S256x768 .f32)
    (a3 a4 : FVec Ideal S256 .f32) (h : fn (F := Ideal) a0 a1 a2 a3 a4 = fun _ => 1#1) (i : S8x1024x768.Idx) :
    ∃ r : ℝ, a0 i = (r : EReal) := by
  have h' := congrFun h ValueIdx.ix0
  dsimp only [fn, fn_part1, andi] at h'
  rw [IntOp.andi_eq_one, IntOp.andi_eq_one, IntOp.andi_eq_one] at h'
  have hx := Host.reduce_andi_all _ _ _ _ _ h'.1.1.1 i
  exact real_of_abs_lt (a0 i) hx

end Cert.FiniteInputs

end
-- ==== Proof.lean ====
/-
  The prototype supervised-contrastive loss, kernel against reference, over the extended reals.

  Both programs compute, for every row of every batch, its clamped squared distances to the rows of its batch and to
  the centroids, their square roots, four means of those (to the other rows of its label, to the rows of another label,
  to its own centroid, to the other centroids), a loss term from them divided by the row's speaker count, and average
  the terms of the anchor rows. They arrange it differently. The kernel walks each batch in two tiles of 512 rows,
  keeps two running sums per batch across its two grid points, zeroes the diagonal distance so that "all minus same"
  is the negatives and "same" is the positives, and picks the row's centroid and speaker count by summing against a
  one-hot row; the reference guards the square root at zero, multiplies by the masks themselves, and picks by index.

  The kernel's value is read off the generated frame run: the scratch an even grid point leaves, the output blocks an
  odd point leaves over it, the two output arrays after the grid, the host's last lines (KerValue.lean, over the
  payload mathematics of KerBody.lean). The reference's value is read off its run one operation at a time
  (RefDist.lean, RefRow.lean). The two arrangements are one extended real when every feature is finite
  (Algebra.lean): finiteness is what turns "all minus same" into the masked sum, and it is what the precondition gives
  (Finite.lean). The three frames are the generated frame certificates and the reference's run; the idealization
  rewrote nothing.
-/
import proofs.«419339_j58901181497956_3_alg».proof.Defs
import proofs.«419339_j58901181497956_3_alg».proof.Proof.Gen.Kernel
import proofs.«419339_j58901181497956_3_alg».proof.Proof.Gen.Kernel.Frame
import proofs.«419339_j58901181497956_3_alg».proof.Proof.Gen.KernelIdeal
import proofs.«419339_j58901181497956_3_alg».proof.Proof.Gen.KernelIdeal.Frame
import proofs.«419339_j58901181497956_3_alg».proof.Proof.Gen.ReferenceIdeal
import proofs.«419339_j58901181497956_3_alg».proof.Proof.Gen.Pre_finite_inputs
import proofs.«419339_j58901181497956_3_alg».proof.Proof.KerValue
import proofs.«419339_j58901181497956_3_alg».proof.Proof.RefRow
import proofs.«419339_j58901181497956_3_alg».proof.Proof.Algebra
import proofs.«419339_j58901181497956_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, with every feature finite: the kernel's result entry is the loss in its
    arrangement, the reference's the loss in its own, and the two are one extended real. -/
theorem algebraic : Cert.algebraic_KernelIdeal_ReferenceIdeal := by
  intro m ρ m' ρ' hpre hagree
  refine ⟨fun c => (fun _ => Cert.KernelIdeal.Val.loss m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  funext i
  rw [Cert.ReferenceIdeal.RefValue.res_eq m' c i, (hagree c).1, (hagree c).2.1, (hagree c).2.2.1, (hagree c).2.2.2.1,
    (hagree c).2.2.2.2]
  exact SupCon.ref_eq_ker _ _ _ _ _ (fun b i d => Cert.FiniteInputs.features_real _ _ _ _ _ (hpre c) _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
